-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg4 : IVec S2048x2048 32) (main_v81 : IVec S_ 1) (main_v83 : IVec S2048x2048 1) (main_c_33 : IVec S_ 1) : IVec S_ 1 :=
  let main_v84 : IVec S_ 1 := (fun x v => Host.reduce IntOp.andi x v reducesTo_S2048x2048_S_d0_1 h_S_) main_v83 main_c_33
  let main_v85 : IVec S_ 1 := andi main_v81 main_v84
  let main_c_34 : IVec S_ 32 := constantI S_ 32 2048#32
  let main_v86 : IVec S2048x2048 32 := broadcastInDim S2048x2048 ![] bcast_S_S2048x2048 main_c_34
  let main_v87 : IVec S2048x2048 1 := cmpi .slt main_arg4 main_v86
  let main_c_35 : IVec S_ 1 := constantI S_ 1 1#1
  let main_v88 : IVec S_ 1 := (fun x v => Host.reduce IntOp.andi x v reducesTo_S2048x2048_S_d0_1 h_S_) main_v87 main_c_35
  let main_v89 : IVec S_ 1 := andi main_v85 main_v88
  main_v89

def fn_part4 {F : FTy → Type} [FloatOps F] (main_arg3 : IVec S2048x2048 32) (main_arg4 : IVec S2048x2048 32) (main_arg16 : FVec F S512 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_c_28 : IVec S_ 32 := constantI S_ 32 0#32
  let main_v74 : IVec S2048x2048 32 := broadcastInDim S2048x2048 ![] bcast_S_S2048x2048 main_c_28
  let main_v75 : IVec S2048x2048 1 := cmpi .sge main_arg3 main_v74
  let main_c_29 : IVec S_ 1 := constantI S_ 1 1#1
  let main_v76 : IVec S_ 1 := (fun x v => Host.reduce IntOp.andi x v reducesTo_S2048x2048_S_d0_1 h_S_) main_v75 main_c_29
  let main_v77 : IVec S_ 1 := andi main_v73 main_v76
  let main_c_30 : IVec S_ 32 := constantI S_ 32 2048#32
  let main_v78 : IVec S2048x2048 32 := broadcastInDim S2048x2048 ![] bcast_S_S2048x2048 main_c_30
  let main_v79 : IVec S2048x2048 1 := cmpi .slt main_arg3 main_v78
  let main_c_31 : IVec S_ 1 := constantI S_ 1 1#1
  let main_v80 : IVec S_ 1 := (fun x v => Host.reduce IntOp.andi x v reducesTo_S2048x2048_S_d0_1 h_S_) main_v79 main_c_31
  let main_v81 : IVec S_ 1 := andi main_v77 main_v80
  let main_c_32 : IVec S_ 32 := constantI S_ 32 0#32
  let main_v82 : IVec S2048x2048 32 := broadcastInDim S2048x2048 ![] bcast_S_S2048x2048 main_c_32
  let main_v83 : IVec S2048x2048 1 := cmpi .sge main_arg4 main_v82
  let main_c_33 : IVec S_ 1 := constantI S_ 1 1#1
  fn_part5 (F := F) main_arg4 main_v81 main_v83 main_c_33

def fn_part3 {F : FTy → Type} [FloatOps F] (main_arg3 : IVec S2048x2048 32) (main_arg4 : IVec S2048x2048 32) (main_arg13 : FVec F S1024x1024 .f32) (main_arg14 : FVec F S1024 .f32) (main_arg15 : FVec F S1024x512 .f32) (main_arg16 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg13
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg14
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x512 .f32 := Host.absf main_arg15
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg3 main_arg4 main_arg16 main_v63 main_v67

def fn_part2 {F : FTy → Type} [FloatOps F] (main_arg3 : IVec S2048x2048 32) (main_arg4 : IVec S2048x2048 32) (main_arg9 : FVec F S1024x512 .f32) (main_arg10 : FVec F S512 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) (main_v33 : IVec S_ 1) : IVec S_ 1 :=
  let main_v34 : FVec F S1024x512 .f32 := Host.absf main_arg9
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg3 main_arg4 main_arg13 main_arg14 main_arg15 main_arg16 main_v48 main_v49 main_v50

def fn_part1 {F : FTy → Type} [FloatOps F] (main_arg3 : IVec S2048x2048 32) (main_arg4 : IVec S2048x2048 32) (main_arg6 : FVec F S1024 .f32) (main_arg7 : FVec F S1024x1024 .f32) (main_arg8 : FVec F S1024 .f32) (main_arg9 : FVec F S1024x512 .f32) (main_arg10 : FVec F S512 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_v33

def fn {F : FTy → Type} [FloatOps F] (main_arg0 : FVec F S2048x1024 .f32) (main_arg1 : FVec F S2048x2048 .f32) (main_arg2 : FVec F S2048x2048 .f32) (main_arg3 : IVec S2048x2048 32) (main_arg4 : IVec S2048x2048 32) (main_arg5 : FVec F S1024x1024 .f32) (main_arg6 : FVec F S1024 .f32) (main_arg7 : FVec F S1024x1024 .f32) (main_arg8 : FVec F S1024 .f32) (main_arg9 : FVec F S1024x512 .f32) (main_arg10 : FVec F S512 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg3 main_arg4 main_arg6 main_arg7 main_arg8 main_arg9 main_arg10 main_arg11 main_arg12 main_arg13 main_arg14 main_arg15 main_arg16 main_v13 main_v16
-- ==== Kernel.lean ====
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S2048x512 : Shape := ⟨2, ![2048, 512]⟩
abbrev S512x1024 : Shape := ⟨2, ![512, 1024]⟩
abbrev S512x512 : Shape := ⟨2, ![512, 512]⟩
abbrev S1x1024 : Shape := ⟨2, ![1, 1024]⟩
abbrev S1x512 : Shape := ⟨2, ![1, 512]⟩
abbrev S2048x8x128 : Shape := ⟨3, ![2048, 8, 128]⟩
abbrev S8x2048x128 : Shape := ⟨3, ![8, 2048, 128]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S1x2048x2048 : Shape := ⟨3, ![1, 2048, 2048]⟩
abbrev S8x2048x2048x1 : Shape := ⟨4, ![8, 2048, 2048, 1]⟩
abbrev S1 : Shape := ⟨1, ![1]⟩
abbrev S1x1x1x1 : Shape := ⟨4, ![1, 1, 1, 1]⟩
abbrev S8x128x128 : Shape := ⟨3, ![8, 128, 128]⟩
abbrev S8x128x2048 : Shape := ⟨3, ![8, 128, 2048]⟩
abbrev S8x128x64 : Shape := ⟨3, ![8, 128, 64]⟩
abbrev S1x128x128 : Shape := ⟨3, ![1, 128, 128]⟩
abbrev S128x128 : Shape := ⟨2, ![128, 128]⟩
abbrev S1x2048x128 : Shape := ⟨3, ![1, 2048, 128]⟩
abbrev S2048x128 : Shape := ⟨2, ![2048, 128]⟩
abbrev S1x2048x64 : Shape := ⟨3, ![1, 2048, 64]⟩
abbrev S2048x64 : Shape := ⟨2, ![2048, 64]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S128x64 : Shape := ⟨2, ![128, 64]⟩
abbrev S1x128x64 : Shape := ⟨3, ![1, 128, 64]⟩

abbrev nBuf : Space → Nat
  | .hbm => 126
  | .vmem => 42
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x2048, .i32⟩
  | .hbm, ⟨4, _⟩ => ⟨S2048x2048, .i32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x512, .f32⟩
  | .hbm, ⟨16, _⟩ => ⟨S512, .f32⟩
  | .hbm, ⟨17, _⟩ => ⟨S1024x1024, .bf16⟩
  | .hbm, ⟨18, _⟩ => ⟨S1024x1024, .bf16⟩
  | .hbm, ⟨19, _⟩ => ⟨S1024x512, .bf16⟩
  | .hbm, ⟨20, _⟩ => ⟨S1024x1024, .bf16⟩
  | .hbm, ⟨21, _⟩ => ⟨S1024x1024, .bf16⟩
  | .hbm, ⟨22, _⟩ => ⟨S1024x512, .bf16⟩
  | .hbm, ⟨23, _⟩ => ⟨S2048x1024, .bf16⟩
  | .hbm, ⟨24, _⟩ => ⟨S2048x1024, .bf16⟩
  | .hbm, ⟨25, _⟩ => ⟨S2048x512, .bf16⟩
  | .hbm, ⟨26, _⟩ => ⟨S2048x1024, .bf16⟩
  | .hbm, ⟨27, _⟩ => ⟨S2048x1024, .bf16⟩
  | .hbm, ⟨28, _⟩ => ⟨S2048x512, .bf16⟩
  | .hbm, ⟨29, _⟩ => ⟨S2048x8x128, .bf16⟩
  | .hbm, ⟨30, _⟩ => ⟨S8x2048x128, .bf16⟩
  | .hbm, ⟨31, _⟩ => ⟨S2048x8x128, .bf16⟩
  | .hbm, ⟨32, _⟩ => ⟨S8x2048x128, .bf16⟩
  | .hbm, ⟨33, _⟩ => ⟨S2048x8x128, .bf16⟩
  | .hbm, ⟨34, _⟩ => ⟨S8x2048x128, .bf16⟩
  | .hbm, ⟨35, _⟩ => ⟨S2048x8x128, .bf16⟩
  | .hbm, ⟨36, _⟩ => ⟨S8x2048x128, .bf16⟩
  | .hbm, ⟨37, _⟩ => ⟨S2048x8x64, .bf16⟩
  | .hbm, ⟨38, _⟩ => ⟨S8x2048x64, .bf16⟩
  | .hbm, ⟨39, _⟩ => ⟨S2048x8x64, .bf16⟩
  | .hbm, ⟨40, _⟩ => ⟨S8x2048x64, .bf16⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S1x2048x2048, .i32⟩
  | .hbm, ⟨50, _⟩ => ⟨S8x2048x2048, .i32⟩
  | .hbm, ⟨51, _⟩ => ⟨S1x2048x2048, .i32⟩
  | .hbm, ⟨52, _⟩ => ⟨S8x2048x2048, .i32⟩
  | .hbm, ⟨53, _⟩ => ⟨S_, .i32⟩
  | .hbm, ⟨54, _⟩ => ⟨S8x2048x2048, .i32⟩
  | .hbm, ⟨55, _⟩ => ⟨S8x2048x2048, .i1⟩
  | .hbm, ⟨56, _⟩ => ⟨S_, .i32⟩
  | .hbm, ⟨57, _⟩ => ⟨S8x2048x2048, .i32⟩
  | .hbm, ⟨58, _⟩ => ⟨S8x2048x2048, .i32⟩
  | .hbm, ⟨59, _⟩ => ⟨S8x2048x2048, .i32⟩
  | .hbm, ⟨60, _⟩ => ⟨S8x2048x2048x1, .i32⟩
  | .hbm, ⟨61, _⟩ => ⟨S1, .i32⟩
  | .hbm, ⟨62, _⟩ => ⟨S_, .i32⟩
  | .hbm, ⟨63, _⟩ => ⟨S8x2048x2048x1, .i32⟩
  | .hbm, ⟨64, _⟩ => ⟨S8x2048x2048x1, .i1⟩
  | .hbm, ⟨65, _⟩ => ⟨S1x1x1x1, .i32⟩
  | .hbm, ⟨66, _⟩ => ⟨S8x2048x2048x1, .i32⟩
  | .hbm, ⟨67, _⟩ => ⟨S8x2048x2048x1, .i1⟩
  | .hbm, ⟨68, _⟩ => ⟨S8x2048x2048x1, .i1⟩
  | .hbm, ⟨69, _⟩ => ⟨S_, .i1⟩
  | .hbm, ⟨70, _⟩ => ⟨S8x2048x2048, .i1⟩
  | .hbm, ⟨71, _⟩ => ⟨S8x2048x2048, .f32⟩
  | .hbm, ⟨72, _⟩ => ⟨S_, .f32⟩
  | .hbm, ⟨73, _⟩ => ⟨S8x2048x2048, .f32⟩
  | .hbm, ⟨74, _⟩ => ⟨S8x2048x2048, .f32⟩
  | .hbm, ⟨75, _⟩ => ⟨S_, .i32⟩
  | .hbm, ⟨76, _⟩ => ⟨S8x2048x2048, .i32⟩
  | .hbm, ⟨77, _⟩ => ⟨S8x2048x2048, .i1⟩
  | .hbm, ⟨78, _⟩ => ⟨S_, .i32⟩
  | .hbm, ⟨79, _⟩ => ⟨S8x2048x2048, .i32⟩
  | .hbm, ⟨80, _⟩ => ⟨S8x2048x2048, .i32⟩
  | .hbm, ⟨81, _⟩ => ⟨S8x2048x2048, .i32⟩
  | .hbm, ⟨82, _⟩ => ⟨S8x2048x2048x1, .i32⟩
  | .hbm, ⟨83, _⟩ => ⟨S1, .i32⟩
  | .hbm, ⟨84, _⟩ => ⟨S_, .i32⟩
  | .hbm, ⟨85, _⟩ => ⟨S8x2048x2048x1, .i32⟩
  | .hbm, ⟨86, _⟩ => ⟨S8x2048x2048x1, .i1⟩
  | .hbm, ⟨87, _⟩ => ⟨S1x1x1x1, .i32⟩
  | .hbm, ⟨88, _⟩ => ⟨S8x2048x2048x1, .i32⟩
  | .hbm, ⟨89, _⟩ => ⟨S8x2048x2048x1, .i1⟩
  | .hbm, ⟨90, _⟩ => ⟨S8x2048x2048x1, .i1⟩
  | .hbm, ⟨91, _⟩ => ⟨S_, .i1⟩
  | .hbm, ⟨92, _⟩ => ⟨S8x2048x2048, .i1⟩
  | .hbm, ⟨93, _⟩ => ⟨S8x2048x2048, .f32⟩
  | .hbm, ⟨94, _⟩ => ⟨S_, .f32⟩
  | .hbm, ⟨95, _⟩ => ⟨S8x2048x2048, .f32⟩
  | .hbm, ⟨96, _⟩ => ⟨S8x2048x2048, .f32⟩
  | .hbm, ⟨97, _⟩ => ⟨S2048x2048, .f32⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S_, .f32⟩
  | .hbm, ⟨102, _⟩ => ⟨S2048x2048, .f32⟩
  | .hbm, ⟨103, _⟩ => ⟨S2048x2048, .f32⟩
  | .hbm, ⟨104, _⟩ => ⟨S2048x2048, .f32⟩
  | .hbm, ⟨105, _⟩ => ⟨S_, .f32⟩
  | .hbm, ⟨106, _⟩ => ⟨S2048x2048, .f32⟩
  | .hbm, ⟨107, _⟩ => ⟨S2048x2048, .f32⟩
  | .hbm, ⟨108, _⟩ => ⟨S_, .f32⟩
  | .hbm, ⟨109, _⟩ => ⟨S2048x2048, .f32⟩
  | .hbm, ⟨110, _⟩ => ⟨S2048x2048, .f32⟩
  | .hbm, ⟨111, _⟩ => ⟨S1x2048x2048, .f32⟩
  | .hbm, ⟨112, _⟩ => ⟨S8x2048x2048, .f32⟩
  | .hbm, ⟨113, _⟩ => ⟨S8x2048x2048, .f32⟩
  | .hbm, ⟨114, _⟩ => ⟨S8x2048x2048, .bf16⟩
  | .hbm, ⟨115, _⟩ => ⟨S1x2048x2048, .f32⟩
  | .hbm, ⟨116, _⟩ => ⟨S8x2048x2048, .f32⟩
  | .hbm, ⟨117, _⟩ => ⟨S8x2048x2048, .f32⟩
  | .hbm, ⟨118, _⟩ => ⟨S8x2048x2048, .bf16⟩
  | .hbm, ⟨119, _⟩ => ⟨S8x2048x64, .f32⟩
  | .hbm, ⟨120, _⟩ => ⟨S8x2048x64, .f32⟩
  | .hbm, ⟨121, _⟩ => ⟨S2048x8x64, .f32⟩
  | .hbm, ⟨122, _⟩ => ⟨S2048x512, .f32⟩
  | .hbm, ⟨123, _⟩ => ⟨S2048x8x64, .f32⟩
  | .hbm, ⟨124, _⟩ => ⟨S2048x512, .f32⟩
  | .hbm, ⟨125, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x512, .bf16⟩
  | .local _ .vmem, ⟨7, _⟩ => ⟨S512, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1024x512, .bf16⟩
  | .local _ .vmem, ⟨13, _⟩ => ⟨S512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S8x128x128, .bf16⟩
  | .local _ .vmem, ⟨27, _⟩ => ⟨S8x128x128, .bf16⟩
  | .local _ .vmem, ⟨28, _⟩ => ⟨S8x128x128, .bf16⟩
  | .local _ .vmem, ⟨29, _⟩ => ⟨S8x128x128, .bf16⟩
  | .local _ .vmem, ⟨30, _⟩ => ⟨S8x2048x128, .bf16⟩
  | .local _ .vmem, ⟨31, _⟩ => ⟨S8x2048x128, .bf16⟩
  | .local _ .vmem, ⟨32, _⟩ => ⟨S8x2048x64, .bf16⟩
  | .local _ .vmem, ⟨33, _⟩ => ⟨S8x2048x64, .bf16⟩
  | .local _ .vmem, ⟨34, _⟩ => ⟨S8x128x2048, .bf16⟩
  | .local _ .vmem, ⟨35, _⟩ => ⟨S8x128x2048, .bf16⟩
  | .local _ .vmem, ⟨36, _⟩ => ⟨S8x128x2048, .bf16⟩
  | .local _ .vmem, ⟨37, _⟩ => ⟨S8x128x2048, .bf16⟩
  | .local _ .vmem, ⟨38, _⟩ => ⟨S8x128x64, .f32⟩
  | .local _ .vmem, ⟨39, _⟩ => ⟨S8x128x64, .f32⟩
  | .local _ .vmem, ⟨40, _⟩ => ⟨S8x128x64, .f32⟩
  | .local _ .vmem, ⟨41, _⟩ => ⟨S8x128x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v6_4 : Ref sig .tc := ⟨.hbm, 27, rfl⟩
abbrev main_v6_5 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_cst : Ref sig .tc := ⟨.hbm, 72, rfl⟩
abbrev main_call0_v14 : Ref sig .tc := ⟨.hbm, 73, rfl⟩
abbrev main_v29 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_cst : Ref sig .tc := ⟨.hbm, 94, rfl⟩
abbrev main_call1_v14 : Ref sig .tc := ⟨.hbm, 95, rfl⟩
abbrev main_v30 : Ref sig .tc := ⟨.hbm, 96, rfl⟩
abbrev main_v31 : Ref sig .tc := ⟨.hbm, 97, rfl⟩
abbrev main_cst_1 : Ref sig .tc := ⟨.hbm, 98, rfl⟩
abbrev main_v32 : Ref sig .tc := ⟨.hbm, 99, rfl⟩
abbrev main_v33 : Ref sig .tc := ⟨.hbm, 100, rfl⟩
abbrev main_cst_2 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_cst_3 : Ref sig .tc := ⟨.hbm, 105, rfl⟩
abbrev main_v37 : Ref sig .tc := ⟨.hbm, 106, rfl⟩
abbrev main_v38 : Ref sig .tc := ⟨.hbm, 107, rfl⟩
abbrev main_cst_4 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49_0 : Ref sig .tc := ⟨.hbm, 119, rfl⟩
abbrev main_v49_1 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x2048x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x2048x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x2048x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x2048x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x128x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S2048x1024_S2048x8x128 : S2048x1024.ShapeCasts S2048x8x128
  transposes_S2048x8x128_S8x2048x128_1_0_2 : S2048x8x128.Transposes [1, 0, 2] S8x2048x128
  shapeCasts_S2048x512_S2048x8x64 : S2048x512.ShapeCasts S2048x8x64
  transposes_S2048x8x64_S8x2048x64_1_0_2 : S2048x8x64.Transposes [1, 0, 2] S8x2048x64
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  shapeCasts_S8x2048x2048_S8x2048x2048x1 : S8x2048x2048.ShapeCasts S8x2048x2048x1
  bcast_S_S8x2048x2048x1 : S_.BroadcastsInDim S8x2048x2048x1 (![] : Fin 0 → Fin S8x2048x2048x1.rank)
  bcast_S1_S1x1x1x1_3 : S1.BroadcastsInDim S1x1x1x1 (![3] : Fin 1 → Fin S1x1x1x1.rank)
  bcast_S1x1x1x1_S8x2048x2048x1_0_1_2_3 : S1x1x1x1.BroadcastsInDim S8x2048x2048x1 (![0, 1, 2, 3] : Fin 4 → Fin S8x2048x2048x1.rank)
  reducesTo_S8x2048x2048x1_S8x2048x2048_d3 : S8x2048x2048x1.ReducesTo [3] S8x2048x2048
  h_S_ : 0 < S_.numel
  transposes_S2048x2048_S2048x2048_1_0 : S2048x2048.Transposes [1, 0] S2048x2048
  bcast_S_S2048x2048 : S_.BroadcastsInDim S2048x2048 (![] : Fin 0 → Fin S2048x2048.rank)
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x2048x128_S1x2048x128_0_0_0 : ∀ a, (![0, 0, 0] : Fin 3 → Nat) a + S1x2048x128.size a ≤ S8x2048x128.size a
  h_S1x2048x128 : 0 < S1x2048x128.numel
  shapeCasts_S1x2048x128_S2048x128 : S1x2048x128.ShapeCasts S2048x128
  inb_S8x2048x64_S1x2048x64_0_0_0 : ∀ a, (![0, 0, 0] : Fin 3 → Nat) a + S1x2048x64.size a ≤ S8x2048x64.size a
  h_S1x2048x64 : 0 < S1x2048x64.numel
  shapeCasts_S1x2048x64_S2048x64 : S1x2048x64.ShapeCasts S2048x64
  inb_S8x128x2048_S1x128x2048_0_0_0 : ∀ a, (![0, 0, 0] : Fin 3 → Nat) a + S1x128x2048.size a ≤ S8x128x2048.size a
  h_S1x128x2048 : 0 < S1x128x2048.numel
  shapeCasts_S1x128x2048_S128x2048 : S1x128x2048.ShapeCasts S128x2048
  reduces_S128x2048_S128 : S128x2048.Reduces [1] S128
  shapeCasts_S128_S128x1 : S128.ShapeCasts S128x1
  broadcasts_S128x1_S128x2048 : S128x1.Broadcasts S128x2048
  inb_S8x128x64_S1x128x64_0_0_0 : ∀ a, (![0, 0, 0] : Fin 3 → Nat) a + S1x128x64.size a ≤ S8x128x64.size a
  h_S1x128x64 : 0 < S1x128x64.numel
  shapeCasts_S1x128x64_S128x64 : S1x128x64.ShapeCasts S128x64
  shapeCasts_S128x64_S1x128x64 : S128x64.ShapeCasts S1x128x64
  inb_S8x128x128_S1x128x128_1_0_0 : ∀ a, (![1, 0, 0] : Fin 3 → Nat) a + S1x128x128.size a ≤ S8x128x128.size a
  inb_S8x2048x128_S1x2048x128_1_0_0 : ∀ a, (![1, 0, 0] : Fin 3 → Nat) a + S1x2048x128.size a ≤ S8x2048x128.size a
  inb_S8x2048x64_S1x2048x64_1_0_0 : ∀ a, (![1, 0, 0] : Fin 3 → Nat) a + S1x2048x64.size a ≤ S8x2048x64.size a
  inb_S8x128x2048_S1x128x2048_1_0_0 : ∀ a, (![1, 0, 0] : Fin 3 → Nat) a + S1x128x2048.size a ≤ S8x128x2048.size a
  inb_S8x128x64_S1x128x64_1_0_0 : ∀ a, (![1, 0, 0] : Fin 3 → Nat) a + S1x128x64.size a ≤ S8x128x64.size a
  inb_S8x128x128_S1x128x128_2_0_0 : ∀ a, (![2, 0, 0] : Fin 3 → Nat) a + S1x128x128.size a ≤ S8x128x128.size a
  inb_S8x2048x128_S1x2048x128_2_0_0 : ∀ a, (![2, 0, 0] : Fin 3 → Nat) a + S1x2048x128.size a ≤ S8x2048x128.size a
  inb_S8x2048x64_S1x2048x64_2_0_0 : ∀ a, (![2, 0, 0] : Fin 3 → Nat) a + S1x2048x64.size a ≤ S8x2048x64.size a
  inb_S8x128x2048_S1x128x2048_2_0_0 : ∀ a, (![2, 0, 0] : Fin 3 → Nat) a + S1x128x2048.size a ≤ S8x128x2048.size a
  inb_S8x128x64_S1x128x64_2_0_0 : ∀ a, (![2, 0, 0] : Fin 3 → Nat) a + S1x128x64.size a ≤ S8x128x64.size a
  inb_S8x128x128_S1x128x128_3_0_0 : ∀ a, (![3, 0, 0] : Fin 3 → Nat) a + S1x128x128.size a ≤ S8x128x128.size a
  inb_S8x2048x128_S1x2048x128_3_0_0 : ∀ a, (![3, 0, 0] : Fin 3 → Nat) a + S1x2048x128.size a ≤ S8x2048x128.size a
  inb_S8x2048x64_S1x2048x64_3_0_0 : ∀ a, (![3, 0, 0] : Fin 3 → Nat) a + S1x2048x64.size a ≤ S8x2048x64.size a
  inb_S8x128x2048_S1x128x2048_3_0_0 : ∀ a, (![3, 0, 0] : Fin 3 → Nat) a + S1x128x2048.size a ≤ S8x128x2048.size a
  inb_S8x128x64_S1x128x64_3_0_0 : ∀ a, (![3, 0, 0] : Fin 3 → Nat) a + S1x128x64.size a ≤ S8x128x64.size a
  inb_S8x128x128_S1x128x128_4_0_0 : ∀ a, (![4, 0, 0] : Fin 3 → Nat) a + S1x128x128.size a ≤ S8x128x128.size a
  inb_S8x2048x128_S1x2048x128_4_0_0 : ∀ a, (![4, 0, 0] : Fin 3 → Nat) a + S1x2048x128.size a ≤ S8x2048x128.size a
  inb_S8x2048x64_S1x2048x64_4_0_0 : ∀ a, (![4, 0, 0] : Fin 3 → Nat) a + S1x2048x64.size a ≤ S8x2048x64.size a
  inb_S8x128x2048_S1x128x2048_4_0_0 : ∀ a, (![4, 0, 0] : Fin 3 → Nat) a + S1x128x2048.size a ≤ S8x128x2048.size a
  inb_S8x128x64_S1x128x64_4_0_0 : ∀ a, (![4, 0, 0] : Fin 3 → Nat) a + S1x128x64.size a ≤ S8x128x64.size a
  inb_S8x128x128_S1x128x128_5_0_0 : ∀ a, (![5, 0, 0] : Fin 3 → Nat) a + S1x128x128.size a ≤ S8x128x128.size a
  inb_S8x2048x128_S1x2048x128_5_0_0 : ∀ a, (![5, 0, 0] : Fin 3 → Nat) a + S1x2048x128.size a ≤ S8x2048x128.size a
  inb_S8x2048x64_S1x2048x64_5_0_0 : ∀ a, (![5, 0, 0] : Fin 3 → Nat) a + S1x2048x64.size a ≤ S8x2048x64.size a
  inb_S8x128x2048_S1x128x2048_5_0_0 : ∀ a, (![5, 0, 0] : Fin 3 → Nat) a + S1x128x2048.size a ≤ S8x128x2048.size a
  inb_S8x128x64_S1x128x64_5_0_0 : ∀ a, (![5, 0, 0] : Fin 3 → Nat) a + S1x128x64.size a ≤ S8x128x64.size a
  inb_S8x128x128_S1x128x128_6_0_0 : ∀ a, (![6, 0, 0] : Fin 3 → Nat) a + S1x128x128.size a ≤ S8x128x128.size a
  inb_S8x2048x128_S1x2048x128_6_0_0 : ∀ a, (![6, 0, 0] : Fin 3 → Nat) a + S1x2048x128.size a ≤ S8x2048x128.size a
  inb_S8x2048x64_S1x2048x64_6_0_0 : ∀ a, (![6, 0, 0] : Fin 3 → Nat) a + S1x2048x64.size a ≤ S8x2048x64.size a
  inb_S8x128x2048_S1x128x2048_6_0_0 : ∀ a, (![6, 0, 0] : Fin 3 → Nat) a + S1x128x2048.size a ≤ S8x128x2048.size a
  inb_S8x128x64_S1x128x64_6_0_0 : ∀ a, (![6, 0, 0] : Fin 3 → Nat) a + S1x128x64.size a ≤ S8x128x64.size a
  inb_S8x128x128_S1x128x128_7_0_0 : ∀ a, (![7, 0, 0] : Fin 3 → Nat) a + S1x128x128.size a ≤ S8x128x128.size a
  inb_S8x2048x128_S1x2048x128_7_0_0 : ∀ a, (![7, 0, 0] : Fin 3 → Nat) a + S1x2048x128.size a ≤ S8x2048x128.size a
  inb_S8x2048x64_S1x2048x64_7_0_0 : ∀ a, (![7, 0, 0] : Fin 3 → Nat) a + S1x2048x64.size a ≤ S8x2048x64.size a
  inb_S8x128x2048_S1x128x2048_7_0_0 : ∀ a, (![7, 0, 0] : Fin 3 → Nat) a + S1x128x2048.size a ≤ S8x128x2048.size a
  inb_S8x128x64_S1x128x64_7_0_0 : ∀ a, (![7, 0, 0] : Fin 3 → Nat) a + S1x128x64.size a ≤ S8x128x64.size a
  transposes_S8x2048x64_S2048x8x64_1_0_2 : S8x2048x64.Transposes [1, 0, 2] S2048x8x64
  shapeCasts_S2048x8x64_S2048x512 : S2048x8x64.ShapeCasts S2048x512
  concatenates_S2048x512_S2048x512_S2048x1024_d1 : Shape.Concatenates [S2048x512, S2048x512] S2048x1024 1
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S8x2048x128_S8x2048x128_S8x2048x2048_2_2_1_1_0_0_wf : DotDims.WF S8x2048x128 S8x2048x128 S8x2048x2048 [2] [2] [1] [1] [0] [0]
  gather_S8x2048x2048_S8x2048x2048x1_S8x2048x2048_n_2_01_01_2_3_111_wf : GatherDims.WF S8x2048x2048 S8x2048x2048x1 S8x2048x2048 [] [2] [0, 1] [2] [0, 1] 3 ![1, 1, 1]
  dot_S128x128_S2048x128_S128x2048_1_1_0_0_n_n_wf : DotDims.WF S128x128 S2048x128 S128x2048 [1] [1] [0] [0] [] []
  dot_S128x2048_S2048x64_S128x64_1_0_0_1_n_n_wf : DotDims.WF S128x2048 S2048x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S1024x512.size a
  hwx0_11 : ∀ i : grid0.Coords, EltTy.bits .bf16 = 32 ∨ (Rect.block (s := S1024x512) S1024x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S2048x1024.size a
  hwx0_13 : ∀ i : grid0.Coords, EltTy.bits .bf16 = 32 ∨ (Rect.block (s := S2048x1024) S512x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S2048x1024.size a
  hwx0_14 : ∀ i : grid0.Coords, EltTy.bits .bf16 = 32 ∨ (Rect.block (s := S2048x1024) S512x1024.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S2048x512.size a
  hwx0_15 : ∀ i : grid0.Coords, EltTy.bits .bf16 = 32 ∨ (Rect.block (s := S2048x512) S512x512.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S2048x1024.size a
  hwx0_16 : ∀ i : grid0.Coords, EltTy.bits .bf16 = 32 ∨ (Rect.block (s := S2048x1024) S512x1024.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1024.size a ≤ S2048x1024.size a
  hwx0_17 : ∀ i : grid0.Coords, EltTy.bits .bf16 = 32 ∨ (Rect.block (s := S2048x1024) S512x1024.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S2048x512.size a
  hwx0_18 : ∀ i : grid0.Coords, EltTy.bits .bf16 = 32 ∨ (Rect.block (s := S2048x512) S512x512.size (cc0_transform_18 i) (hinb0_18 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x128.size a ≤ S8x2048x128.size a
  hwx1_0 : ∀ i : grid1.Coords, EltTy.bits .bf16 = 32 ∨ (Rect.block (s := S8x2048x128) S8x128x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x128.size a ≤ S8x2048x128.size a
  hwx1_1 : ∀ i : grid1.Coords, EltTy.bits .bf16 = 32 ∨ (Rect.block (s := S8x2048x128) S8x128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048x128.size a ≤ S8x2048x128.size a
  hwx1_2 : ∀ i : grid1.Coords, EltTy.bits .bf16 = 32 ∨ (Rect.block (s := S8x2048x128) S8x2048x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x2048x128.size a ≤ S8x2048x128.size a
  hwx1_3 : ∀ i : grid1.Coords, EltTy.bits .bf16 = 32 ∨ (Rect.block (s := S8x2048x128) S8x2048x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x2048x64.size a ≤ S8x2048x64.size a
  hwx1_4 : ∀ i : grid1.Coords, EltTy.bits .bf16 = 32 ∨ (Rect.block (s := S8x2048x64) S8x2048x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x2048x64.size a ≤ S8x2048x64.size a
  hwx1_5 : ∀ i : grid1.Coords, EltTy.bits .bf16 = 32 ∨ (Rect.block (s := S8x2048x64) S8x2048x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128x2048.size a ≤ S8x2048x2048.size a
  hwx1_6 : ∀ i : grid1.Coords, EltTy.bits .bf16 = 32 ∨ (Rect.block (s := S8x2048x2048) S8x128x2048.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128x2048.size a ≤ S8x2048x2048.size a
  hwx1_7 : ∀ i : grid1.Coords, EltTy.bits .bf16 = 32 ∨ (Rect.block (s := S8x2048x2048) S8x128x2048.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128x64.size a ≤ S8x2048x64.size a
  hwx1_8 : ∀ i : grid1.Coords, EltTy.bits .f32 = 32 ∨ (Rect.block (s := S8x2048x64) S8x128x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128x64.size a ≤ S8x2048x64.size a
  hwx1_9 : ∀ i : grid1.Coords, EltTy.bits .f32 = 32 ∨ (Rect.block (s := S8x2048x64) S8x128x64.size (cc1_transform_9 i) (hinb1_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def gather_S8x2048x2048_S8x2048x2048x1_S8x2048x2048_n_2_01_01_2_3_111 : GatherDims S8x2048x2048 S8x2048x2048x1 S8x2048x2048 where
  offsetDims := []
  collapsedSliceDims := [2]
  operandBatchingDims := [0, 1]
  startIndicesBatchingDims := [0, 1]
  startIndexMap := [2]
  indexVectorDim := 3
  sliceSizes := ![1, 1, 1]
  wf := gather_S8x2048x2048_S8x2048x2048x1_S8x2048x2048_n_2_01_01_2_3_111_wf
def dot_S128x128_S2048x128_S128x2048_1_1_0_0_n_n : DotDims S128x128 S2048x128 S128x2048 where
  lhsContracting := [1]
  rhsContracting := [1]
  lhsNonContracting := [0]
  rhsNonContracting := [0]
  lhsBatch := []
  rhsBatch := []
  wf := dot_S128x128_S2048x128_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S512x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S512x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6_2) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6_3) S512x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6_4) S512x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v6_5) S512x512.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v8) S8x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x2048x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S8x2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S8x2048x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S8x2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S8x128x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48) S8x128x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v49_0) S8x128x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v49_1) S8x128x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S1x1024 : Shape := ⟨2, ![1, 1024]⟩
abbrev S2048x8x128 : Shape := ⟨3, ![2048, 8, 128]⟩
abbrev S8x2048x128 : Shape := ⟨3, ![8, 2048, 128]⟩
abbrev S2048x512 : Shape := ⟨2, ![2048, 512]⟩
abbrev S1x512 : Shape := ⟨2, ![1, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S2048x2048x1 : Shape := ⟨3, ![2048, 2048, 1]⟩
abbrev S2048x2048x2 : Shape := ⟨3, ![2048, 2048, 2]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 158
  | .vmem => 0
  | .smem => 0
  | _ => 0

abbrev hbmTy0_0 (i : Nat) : BufTy := match i % 128 with
  | 0 => ⟨S2048x1024, .f32⟩
  | 1 => ⟨S2048x2048, .f32⟩
  | 2 => ⟨S2048x2048, .f32⟩
  | 3 => ⟨S2048x2048, .i32⟩
  | 4 => ⟨S2048x2048, .i32⟩
  | 5 => ⟨S1024x1024, .f32⟩
  | 6 => ⟨S1024, .f32⟩
  | 7 => ⟨S1024x1024, .f32⟩
  | 8 => ⟨S1024, .f32⟩
  | 9 => ⟨S1024x512, .f32⟩
  | 10 => ⟨S512, .f32⟩
  | 11 => ⟨S1024x1024, .f32⟩
  | 12 => ⟨S1024, .f32⟩
  | 13 => ⟨S1024x1024, .f32⟩
  | 14 => ⟨S1024, .f32⟩
  | 15 => ⟨S1024x512, .f32⟩
  | 16 => ⟨S512, .f32⟩
  | 17 => ⟨S2048x1024, .f32⟩
  | 18 => ⟨S1x1024, .f32⟩
  | 19 => ⟨S2048x1024, .f32⟩
  | 20 => ⟨S2048x1024, .f32⟩
  | 21 => ⟨S2048x8x128, .f32⟩
  | 22 => ⟨S8x2048x128, .f32⟩
  | 23 => ⟨S2048x1024, .f32⟩
  | 24 => ⟨S1x1024, .f32⟩
  | 25 => ⟨S2048x1024, .f32⟩
  | 26 => ⟨S2048x1024, .f32⟩
  | 27 => ⟨S2048x8x128, .f32⟩
  | 28 => ⟨S8x2048x128, .f32⟩
  | 29 => ⟨S2048x512, .f32⟩
  | 30 => ⟨S1x512, .f32⟩
  | 31 => ⟨S2048x512, .f32⟩
  | 32 => ⟨S2048x512, .f32⟩
  | 33 => ⟨S2048x8x64, .f32⟩
  | 34 => ⟨S8x2048x64, .f32⟩
  | 35 => ⟨S2048x1024, .f32⟩
  | 36 => ⟨S1x1024, .f32⟩
  | 37 => ⟨S2048x1024, .f32⟩
  | 38 => ⟨S2048x1024, .f32⟩
  | 39 => ⟨S2048x8x128, .f32⟩
  | 40 => ⟨S8x2048x128, .f32⟩
  | 41 => ⟨S2048x1024, .f32⟩
  | 42 => ⟨S1x1024, .f32⟩
  | 43 => ⟨S2048x1024, .f32⟩
  | 44 => ⟨S2048x1024, .f32⟩
  | 45 => ⟨S2048x8x128, .f32⟩
  | 46 => ⟨S8x2048x128, .f32⟩
  | 47 => ⟨S2048x512, .f32⟩
  | 48 => ⟨S1x512, .f32⟩
  | 49 => ⟨S2048x512, .f32⟩
  | 50 => ⟨S2048x512, .f32⟩
  | 51 => ⟨S2048x8x64, .f32⟩
  | 52 => ⟨S8x2048x64, .f32⟩
  | 53 => ⟨S8x2048x2048, .f32⟩
  | 54 => ⟨S_, .f32⟩
  | 55 => ⟨S8x2048x2048, .f32⟩
  | 56 => ⟨S8x2048x2048, .f32⟩
  | 57 => ⟨S8x2048x2048, .f32⟩
  | 58 => ⟨S_, .f32⟩
  | 59 => ⟨S8x2048x2048, .f32⟩
  | 60 => ⟨S8x2048x2048, .f32⟩
  | 61 => ⟨S2048, .i32⟩
  | 62 => ⟨S2048x1, .i32⟩
  | 63 => ⟨S_, .i32⟩
  | 64 => ⟨S2048x1, .i32⟩
  | 65 => ⟨S2048x1, .i1⟩
  | 66 => ⟨S_, .i32⟩
  | 67 => ⟨S2048x1, .i32⟩
  | 68 => ⟨S2048x1, .i32⟩
  | 69 => ⟨S2048x1, .i32⟩
  | 70 => ⟨S_, .i32⟩
  | 71 => ⟨S2048x2048, .i32⟩
  | 72 => ⟨S2048x2048, .i1⟩
  | 73 => ⟨S_, .i32⟩
  | 74 => ⟨S2048x2048, .i32⟩
  | 75 => ⟨S2048x2048, .i32⟩
  | 76 => ⟨S2048x2048, .i32⟩
  | 77 => ⟨S2048x2048, .i32⟩
  | 78 => ⟨S2048x2048x1, .i32⟩
  | 79 => ⟨S2048x2048x1, .i32⟩
  | 80 => ⟨S2048x2048x2, .i32⟩
  | 81 => ⟨S8x2048x2048, .f32⟩
  | 82 => ⟨S_, .i32⟩
  | 83 => ⟨S2048x1, .i32⟩
  | 84 => ⟨S2048x1, .i1⟩
  | 85 => ⟨S_, .i32⟩
  | 86 => ⟨S2048x1, .i32⟩
  | 87 => ⟨S2048x1, .i32⟩
  | 88 => ⟨S2048x1, .i32⟩
  | 89 => ⟨S_, .i32⟩
  | 90 => ⟨S2048x2048, .i32⟩
  | 91 => ⟨S2048x2048, .i1⟩
  | 92 => ⟨S_, .i32⟩
  | 93 => ⟨S2048x2048, .i32⟩
  | 94 => ⟨S2048x2048, .i32⟩
  | 95 => ⟨S2048x2048, .i32⟩
  | 96 => ⟨S2048x2048, .i32⟩
  | 97 => ⟨S2048x2048x1, .i32⟩
  | 98 => ⟨S2048x2048x1, .i32⟩
  | 99 => ⟨S2048x2048x2, .i32⟩
  | 100 => ⟨S8x2048x2048, .f32⟩
  | 101 => ⟨S2048x2048, .f32⟩
  | 102 => ⟨S_, .f32⟩
  | 103 => ⟨S2048x2048, .f32⟩
  | 104 => ⟨S2048x2048, .f32⟩
  | 105 => ⟨S_, .f32⟩
  | 106 => ⟨S2048x2048, .f32⟩
  | 107 => ⟨S2048x2048, .f32⟩
  | 108 => ⟨S2048x2048, .f32⟩
  | 109 => ⟨S_, .f32⟩
  | 110 => ⟨S2048x2048, .f32⟩
  | 111 => ⟨S2048x2048, .f32⟩
  | 112 => ⟨S_, .f32⟩
  | 113 => ⟨S2048x2048, .f32⟩
  | 114 => ⟨S2048x2048, .f32⟩
  | 115 => ⟨S8x2048x2048, .f32⟩
  | 116 => ⟨S1x2048x2048, .f32⟩
  | 117 => ⟨S8x2048x2048, .f32⟩
  | 118 => ⟨S8x2048x2048, .f32⟩
  | 119 => ⟨S_, .f32⟩
  | 120 => ⟨S8x2048, .f32⟩
  | 121 => ⟨S_, .f32⟩
  | 122 => ⟨S8x2048, .f32⟩
  | 123 => ⟨S8x2048, .f32⟩
  | 124 => ⟨S8x2048x1, .f32⟩
  | 125 => ⟨S8x2048x2048, .f32⟩
  | 126 => ⟨S8x2048x2048, .f32⟩
  | 127 => ⟨S8x2048x2048, .f32⟩
  | _ => ⟨S2048x1024, .f32⟩

abbrev hbmTy0_1 (i : Nat) : BufTy := match i % 128 with
  | 0 => ⟨S_, .f32⟩
  | 1 => ⟨S8x2048, .f32⟩
  | 2 => ⟨S8x2048x1, .f32⟩
  | 3 => ⟨S8x2048x2048, .f32⟩
  | 4 => ⟨S8x2048x2048, .f32⟩
  | 5 => ⟨S8x2048x2048, .f32⟩
  | 6 => ⟨S1x2048x2048, .f32⟩
  | 7 => ⟨S8x2048x2048, .f32⟩
  | 8 => ⟨S8x2048x2048, .f32⟩
  | 9 => ⟨S_, .f32⟩
  | 10 => ⟨S8x2048, .f32⟩
  | 11 => ⟨S_, .f32⟩
  | 12 => ⟨S8x2048, .f32⟩
  | 13 => ⟨S8x2048, .f32⟩
  | 14 => ⟨S8x2048x1, .f32⟩
  | 15 => ⟨S8x2048x2048, .f32⟩
  | 16 => ⟨S8x2048x2048, .f32⟩
  | 17 => ⟨S8x2048x2048, .f32⟩
  | 18 => ⟨S_, .f32⟩
  | 19 => ⟨S8x2048, .f32⟩
  | 20 => ⟨S8x2048x1, .f32⟩
  | 21 => ⟨S8x2048x2048, .f32⟩
  | 22 => ⟨S8x2048x2048, .f32⟩
  | 23 => ⟨S8x2048x64, .f32⟩
  | 24 => ⟨S2048x8x64, .f32⟩
  | 25 => ⟨S2048x512, .f32⟩
  | 26 => ⟨S8x2048x64, .f32⟩
  | 27 => ⟨S2048x8x64, .f32⟩
  | 28 => ⟨S2048x512, .f32⟩
  | 29 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_v44 : Ref sig .tc := ⟨.hbm, 64, rfl⟩
abbrev main_v45 : Ref sig .tc := ⟨.hbm, 65, rfl⟩
abbrev main_c_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_2 : Ref sig .tc := ⟨.hbm, 70, rfl⟩
abbrev main_v49 : Ref sig .tc := ⟨.hbm, 71, rfl⟩
abbrev main_v50 : Ref sig .tc := ⟨.hbm, 72, rfl⟩
abbrev main_c_3 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_4 : Ref sig .tc := ⟨.hbm, 82, rfl⟩
abbrev main_v59 : Ref sig .tc := ⟨.hbm, 83, rfl⟩
abbrev main_v60 : Ref sig .tc := ⟨.hbm, 84, rfl⟩
abbrev main_c_5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_6 : Ref sig .tc := ⟨.hbm, 89, rfl⟩
abbrev main_v64 : Ref sig .tc := ⟨.hbm, 90, rfl⟩
abbrev main_v65 : Ref sig .tc := ⟨.hbm, 91, rfl⟩
abbrev main_c_7 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_12 : Ref sig .tc := ⟨.hbm, 119, rfl⟩
abbrev main_v88 : Ref sig .tc := ⟨.hbm, 120, rfl⟩
abbrev main_cst_13 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_14 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_15 : Ref sig .tc := ⟨.hbm, 137, rfl⟩
abbrev main_v103 : Ref sig .tc := ⟨.hbm, 138, rfl⟩
abbrev main_cst_16 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_17 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x8x128 : S2048x1024.ShapeCasts S2048x8x128
  transposes_S2048x8x128_S8x2048x128_1_0_2 : S2048x8x128.Transposes [1, 0, 2] S8x2048x128
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  shapeCasts_S2048x512_S2048x8x64 : S2048x512.ShapeCasts S2048x8x64
  transposes_S2048x8x64_S8x2048x64_1_0_2 : S2048x8x64.Transposes [1, 0, 2] S8x2048x64
  bcast_S_S8x2048x2048 : S_.BroadcastsInDim S8x2048x2048 (![] : Fin 0 → Fin S8x2048x2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x2048 : S_.BroadcastsInDim S2048x2048 (![] : Fin 0 → Fin S2048x2048.rank)
  bcast_S2048x1_S2048x2048_0_1 : S2048x1.BroadcastsInDim S2048x2048 (![0, 1] : Fin 2 → Fin S2048x2048.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  transposes_S2048x2048_S2048x2048_1_0 : S2048x2048.Transposes [1, 0] S2048x2048
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x64_S2048x8x64_1_0_2 : S8x2048x64.Transposes [1, 0, 2] S2048x8x64
  shapeCasts_S2048x8x64_S2048x512 : S2048x8x64.ShapeCasts S2048x512
  concatenates_S2048x512_S2048x512_S2048x1024_d1 : Shape.Concatenates [S2048x512, S2048x512] S2048x1024 1
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  dot_S8x2048x128_S8x2048x128_S8x2048x2048_2_2_1_1_0_0_wf : DotDims.WF S8x2048x128 S8x2048x128 S8x2048x2048 [2] [2] [1] [1] [0] [0]
  gather_S8x2048x2048_S2048x2048x2_S8x2048x2048_0_12_n_n_12_2_811_wf : GatherDims.WF S8x2048x2048 S2048x2048x2 S8x2048x2048 [0] [1, 2] [] [1, 2] [] 2 ![8, 1, 1]
  dot_S8x2048x2048_S8x2048x64_S8x2048x64_2_1_1_2_0_0_wf : DotDims.WF S8x2048x2048 S8x2048x64 S8x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def gather_S8x2048x2048_S2048x2048x2_S8x2048x2048_0_12_n_n_12_2_811 : GatherDims S8x2048x2048 S2048x2048x2 S8x2048x2048 where
  offsetDims := [0]
  collapsedSliceDims := [1, 2]
  operandBatchingDims := []
  startIndicesBatchingDims := []
  startIndexMap := [1, 2]
  indexVectorDim := 2
  sliceSizes := ![8, 1, 1]
  wf := gather_S8x2048x2048_S2048x2048x2_S8x2048x2048_0_12_n_n_12_2_811_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  The mathematics both programs compute, over the extended reals, index by index.

  A projection is a matrix product plus a bias row: (x · W + b)[n, j] = (Σ_k x[n, k] · W[k, j]) + b[j].
  An attention output over 8 heads, 2048 nodes and width 64: for head h, node n and feature d,
      out[h, n, d] = Σ_m softmax_m( (Σ_e q[h, n, e] · k[h, m, e]) · scale + a[h, n, m] ) · v[h, m, d],
  where the softmax of a row z is exp(z_m − max z) / Σ_m' exp(z_m' − max z), the maximum taken from −∞, and
  scale is the binary value both programs carry for 1/√128.
-/
import Idealize.ShloMosaic.Lib.ValueIdx

noncomputable section

open scoped BigOperators

namespace Cert.Spec

open Idealize.ShloMosaic Idealize.ShloMosaic.ValueIdx

/-- (x · W + b) for a [2048, 1024] input and a [1024, 1024] weight. -/
def projQ (x : (⟨2, ![2048, 1024]⟩ : Shape).Idx → EReal) (w : (⟨2, ![1024, 1024]⟩ : Shape).Idx → EReal)
    (b : (⟨1, ![1024]⟩ : Shape).Idx → EReal) : (⟨2, ![2048, 1024]⟩ : Shape).Idx → EReal :=
  fun i => (∑ k : Fin 1024, x (ix2 (i 0) k) * w (ix2 k (i 1))) + b (ix1 (i 1))

/-- (x · W + b) for a [2048, 1024] input and a [1024, 512] weight. -/
def projV (x : (⟨2, ![2048, 1024]⟩ : Shape).Idx → EReal) (w : (⟨2, ![1024, 512]⟩ : Shape).Idx → EReal)
    (b : (⟨1, ![512]⟩ : Shape).Idx → EReal) : (⟨2, ![2048, 512]⟩ : Shape).Idx → EReal :=
  fun i => (∑ k : Fin 1024, x (ix2 (i 0) k) * w (ix2 k (i 1))) + b (ix1 (i 1))

/-- The factor on the scores: the f32 word both programs carry (the nearest f32 to 1/√128), read exactly. -/
def scale : EReal := Ideal.ofBits .f32 0x3DB504F3#32

/-- A row's maximum, taken from −∞. -/
def rowMax (z : Fin 2048 → EReal) : EReal := (Finset.univ : Finset (Fin 2048)).fold max ⊥ z

/-- The softmax of a row of 2048 extended reals, at position m. -/
def smx (z : Fin 2048 → EReal) (m : Fin 2048) : EReal :=
  Ideal.div (Ideal.exp (z m - rowMax z)) (∑ m' : Fin 2048, Ideal.exp (z m' - rowMax z))

/-- The logits of head h, node n: the scaled scores plus the additive term. -/
def logits (q k : (⟨3, ![8, 2048, 128]⟩ : Shape).Idx → EReal) (a : (⟨3, ![8, 2048, 2048]⟩ : Shape).Idx → EReal)
    (h : Fin 8) (n : Fin 2048) : Fin 2048 → EReal :=
  fun m => (∑ e : Fin 128, q (ix3 h n e) * k (ix3 h m e)) * scale + a (ix3 h n m)

/-- The attention output: the softmax of the logits' row times the values. -/
def attn (q k : (⟨3, ![8, 2048, 128]⟩ : Shape).Idx → EReal) (v : (⟨3, ![8, 2048, 64]⟩ : Shape).Idx → EReal)
    (a : (⟨3, ![8, 2048, 2048]⟩ : Shape).Idx → EReal) : (⟨3, ![8, 2048, 64]⟩ : Shape).Idx → EReal :=
  fun j => ∑ m : Fin 2048, smx (logits q k a (j 0) (j 1)) m * v (ix3 (j 0) m (j 2))

end Cert.Spec

end
-- ==== Proof.HostStages.lean ====
/-
  The kernel program's host operations between and after its two launches, named as functions of what they read:
  the weights' change of format, the split into heads ([2048, 8·d] → [8, 2048, d]), the scaled scores q·kᵀ, the index
  array repeated over the heads, the gather along the last axis with its wrap of negative indices and its in-range mask,
  the additive graph mask (gᵀ − 1)·10⁴ repeated over the heads, the additive term, and the final layout
  ([8, 2048, 64] twice → [2048, 1024]). Then, for each stretch of operations and each buffer a later step reads, what
  that buffer holds after the stretch, from any contents before it.
-/
import proofs.«416605_j68384469286920_2_alg».proof.Proof.Gen.KernelIdeal.Frame
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

variable {F : FTy → Type} [FloatOps F]

/-! ## The stretches' functions -/

/-- A [1024, 1024] weight in the narrower format. -/
def cvtW (w : (⟨S1024x1024, .f32⟩ : BufTy).Contents (Elt F)) : (⟨S1024x1024, .bf16⟩ : BufTy).Contents (Elt F) := truncf .bf16 w bitsLt_bf16_f32
/-- A [1024, 512] weight in the narrower format. -/
def cvtWV (w : (⟨S1024x512, .f32⟩ : BufTy).Contents (Elt F)) : (⟨S1024x512, .bf16⟩ : BufTy).Contents (Elt F) := truncf .bf16 w bitsLt_bf16_f32

/-- [2048, 8·128] split into heads: [8, 2048, 128]. -/
def headsQ (q : (⟨S2048x1024, .bf16⟩ : BufTy).Contents (Elt F)) : (⟨S8x2048x128, .bf16⟩ : BufTy).Contents (Elt F) :=
  transpose S8x2048x128 [1, 0, 2] (shapeCast S2048x8x128 q shapeCasts_S2048x1024_S2048x8x128) transposes_S2048x8x128_S8x2048x128_1_0_2
/-- [2048, 8·64] split into heads: [8, 2048, 64]. -/
def headsV (v : (⟨S2048x512, .bf16⟩ : BufTy).Contents (Elt F)) : (⟨S8x2048x64, .bf16⟩ : BufTy).Contents (Elt F) :=
  transpose S8x2048x64 [1, 0, 2] (shapeCast S2048x8x64 v shapeCasts_S2048x512_S2048x8x64) transposes_S2048x8x64_S8x2048x64_1_0_2

/-- The scaled scores of every head: (q · kᵀ) · scale. -/
def scores (q k : (⟨S8x2048x128, .bf16⟩ : BufTy).Contents (Elt F)) : (⟨S8x2048x2048, .f32⟩ : BufTy).Contents (Elt F) :=
  mulf (Host.dotGeneral dot_S8x2048x128_S8x2048x128_S8x2048x2048_2_2_1_1_0_0 none q k)
    (broadcastInDim S8x2048x2048 ![] bcast_S_S8x2048x2048 (constant S_ .f32 0x3DB504F3#32))

/-- A [2048, 2048] index array repeated over the 8 heads. -/
def idxB (t : (⟨S2048x2048, .i32⟩ : BufTy).Contents (Elt F)) : (⟨S8x2048x2048, .i32⟩ : BufTy).Contents (Elt F) :=
  broadcastInDim S8x2048x2048 ![0, 1, 2] bcast_S1x2048x2048_S8x2048x2048_0_1_2
    (broadcastInDim S1x2048x2048 ![1, 2] bcast_S2048x2048_S1x2048x2048_1_2 t)

/-- The index array with negative entries wrapped by the axis' extent, as a column of start indices. -/
def wrapIdx (tb : (⟨S8x2048x2048, .i32⟩ : BufTy).Contents (Elt F)) : (⟨S8x2048x2048x1, .i32⟩ : BufTy).Contents (Elt F) :=
  shapeCast S8x2048x2048x1
    (select (cmpi .slt tb (broadcastInDim S8x2048x2048 ![] bcast_S_S8x2048x2048 (constantI S_ 32 0#32)))
      (addi tb (broadcastInDim S8x2048x2048 ![] bcast_S_S8x2048x2048 (constantI S_ 32 2048#32))) tb)
    shapeCasts_S8x2048x2048_S8x2048x2048x1

/-- The gather along the last axis: at (h, n, m) the entry (h, n, idx) of the operand where the wrapped index idx is
    in range, the fill word elsewhere. -/
def take (s : (⟨S8x2048x2048, .f32⟩ : BufTy).Contents (Elt F)) (tb : (⟨S8x2048x2048, .i32⟩ : BufTy).Contents (Elt F)) : (⟨S8x2048x2048, .f32⟩ : BufTy).Contents (Elt F) :=
  select
    (Host.reduce IntOp.andi
      (andi (cmpi .sge (wrapIdx tb) (broadcastInDim S8x2048x2048x1 ![] bcast_S_S8x2048x2048x1 (constantI S_ 32 0#32)))
        (cmpi .sle (wrapIdx tb)
          (broadcastInDim S8x2048x2048x1 ![0, 1, 2, 3] bcast_S1x1x1x1_S8x2048x2048x1_0_1_2_3
            (broadcastInDim S1x1x1x1 ![3] bcast_S1_S1x1x1x1_3 (constantI S1 32 2047#32)))))
      (constantI S_ 1 1#1) reducesTo_S8x2048x2048x1_S8x2048x2048_d3 h_S_)
    (Host.gather gather_S8x2048x2048_S8x2048x2048x1_S8x2048x2048_n_2_01_01_2_3_111 s (wrapIdx tb))
    (broadcastInDim S8x2048x2048 ![] bcast_S_S8x2048x2048 (constant S_ .f32 0x7FC00000#32))

/-- The additive graph mask (gᵀ − 1) · 10⁴, repeated over the 8 heads. -/
def maskB (g : (⟨S2048x2048, .f32⟩ : BufTy).Contents (Elt F)) : (⟨S8x2048x2048, .f32⟩ : BufTy).Contents (Elt F) :=
  broadcastInDim S8x2048x2048 ![0, 1, 2] bcast_S1x2048x2048_S8x2048x2048_0_1_2
    (broadcastInDim S1x2048x2048 ![1, 2] bcast_S2048x2048_S1x2048x2048_1_2
      (mulf
        (subf (transpose S2048x2048 [1, 0] g transposes_S2048x2048_S2048x2048_1_0)
          (broadcastInDim S2048x2048 ![] bcast_S_S2048x2048 (constant S_ .f32 0x3F800000#32)))
        (broadcastInDim S2048x2048 ![] bcast_S_S2048x2048 (constant S_ .f32 0x461C4000#32))))

/-- The additive term handed to the second launch: gathered scores plus mask, in the narrower format. -/
def addTerm (tk mk : (⟨S8x2048x2048, .f32⟩ : BufTy).Contents (Elt F)) : (⟨S8x2048x2048, .bf16⟩ : BufTy).Contents (Elt F) :=
  truncf .bf16 (addf tk mk) bitsLt_bf16_f32

/-- The final layout: both attention outputs back to [2048, 8·64] and side by side. -/
def tail (o1 o2 : (⟨S8x2048x64, .f32⟩ : BufTy).Contents (Elt F)) : (⟨S2048x1024, .f32⟩ : BufTy).Contents (Elt F) :=
  concatenate S2048x1024 1
    [⟨S2048x512, shapeCast S2048x512 (transpose S2048x8x64 [1, 0, 2] o1 transposes_S8x2048x64_S2048x8x64_1_0_2) shapeCasts_S2048x8x64_S2048x512⟩,
     ⟨S2048x512, shapeCast S2048x512 (transpose S2048x8x64 [1, 0, 2] o2 transposes_S8x2048x64_S2048x8x64_1_0_2) shapeCasts_S2048x8x64_S2048x512⟩]
    concatenates_S2048x512_S2048x512_S2048x1024_d1

/-! ## What each stretch leaves, from any contents `X` before it -/

variable (X : Valuation τ sig (Elt F))

theorem ops0_v0 : after hostOps0 X (Proc.devRef .tc main_v0) = cvtW (X (Proc.devRef .tc main_arg5)) := by after_results <;> rfl
theorem ops0_v1 : after hostOps0 X (Proc.devRef .tc main_v1) = cvtW (X (Proc.devRef .tc main_arg7)) := by after_results <;> rfl
theorem ops0_v2 : after hostOps0 X (Proc.devRef .tc main_v2) = cvtWV (X (Proc.devRef .tc main_arg9)) := by after_results <;> rfl
theorem ops0_v3 : after hostOps0 X (Proc.devRef .tc main_v3) = cvtW (X (Proc.devRef .tc main_arg11)) := by after_results <;> rfl
theorem ops0_v4 : after hostOps0 X (Proc.devRef .tc main_v4) = cvtW (X (Proc.devRef .tc main_arg13)) := by after_results <;> rfl
theorem ops0_v5 : after hostOps0 X (Proc.devRef .tc main_v5) = cvtWV (X (Proc.devRef .tc main_arg15)) := by after_results <;> rfl

theorem ops1_v8 : after hostOps1 X (Proc.devRef .tc main_v8) = headsQ (X (Proc.devRef .tc main_v6_0)) := by after_results <;> rfl
theorem ops1_v10 : after hostOps1 X (Proc.devRef .tc main_v10) = headsQ (X (Proc.devRef .tc main_v6_1)) := by after_results <;> rfl
theorem ops1_v12 : after hostOps1 X (Proc.devRef .tc main_v12) = headsQ (X (Proc.devRef .tc main_v6_3)) := by after_results <;> rfl
theorem ops1_v14 : after hostOps1 X (Proc.devRef .tc main_v14) = headsQ (X (Proc.devRef .tc main_v6_4)) := by after_results <;> rfl
theorem ops1_v16 : after hostOps1 X (Proc.devRef .tc main_v16) = headsV (X (Proc.devRef .tc main_v6_2)) := by after_results <;> rfl
theorem ops1_v18 : after hostOps1 X (Proc.devRef .tc main_v18) = headsV (X (Proc.devRef .tc main_v6_5)) := by after_results <;> rfl
theorem ops1_v21 : after hostOps1 X (Proc.devRef .tc main_v21) = scores (headsQ (X (Proc.devRef .tc main_v6_0))) (headsQ (X (Proc.devRef .tc main_v6_1))) := by
  after_results <;> rfl
theorem ops1_v24 : after hostOps1 X (Proc.devRef .tc main_v24) = scores (headsQ (X (Proc.devRef .tc main_v6_3))) (headsQ (X (Proc.devRef .tc main_v6_4))) := by
  after_results <;> rfl
theorem ops1_v26 : after hostOps1 X (Proc.devRef .tc main_v26) = idxB (X (Proc.devRef .tc main_arg4)) := by after_results <;> rfl
theorem ops1_v28 : after hostOps1 X (Proc.devRef .tc main_v28) = idxB (X (Proc.devRef .tc main_arg3)) := by after_results <;> rfl

/-! ## The two gathers and the additive terms, stretch by stretch

The two gathers' lines and the line after them have 22 operations each. Each is cut into stretches of at most ten
operations; a stretch is read from ANY contents before it (the few buffers the next stretch reads: what it computes, and
what it leaves alone), and the line's result is the stretches' results chained. -/

/-- The in-range mask of a column of start indices: 0 ≤ idx and idx ≤ 2047, reduced over the unit axis. -/
def inRange (wi : (⟨S8x2048x2048x1, .i32⟩ : BufTy).Contents (Elt F)) : (⟨S8x2048x2048, .i1⟩ : BufTy).Contents (Elt F) :=
  Host.reduce IntOp.andi
    (andi (cmpi .sge wi (broadcastInDim S8x2048x2048x1 ![] bcast_S_S8x2048x2048x1 (constantI S_ 32 0#32)))
      (cmpi .sle wi
        (broadcastInDim S8x2048x2048x1 ![0, 1, 2, 3] bcast_S1x1x1x1_S8x2048x2048x1_0_1_2_3
          (broadcastInDim S1x1x1x1 ![3] bcast_S1_S1x1x1x1_3 (constantI S1 32 2047#32)))))
    (constantI S_ 1 1#1) reducesTo_S8x2048x2048x1_S8x2048x2048_d3 h_S_

/-- The gather's last step: the operand's entries at the start indices where the mask holds, the fill word elsewhere. -/
def pick (mk : (⟨S8x2048x2048, .i1⟩ : BufTy).Contents (Elt F)) (s : (⟨S8x2048x2048, .f32⟩ : BufTy).Contents (Elt F))
    (wi : (⟨S8x2048x2048x1, .i32⟩ : BufTy).Contents (Elt F)) : (⟨S8x2048x2048, .f32⟩ : BufTy).Contents (Elt F) :=
  select mk (Host.gather gather_S8x2048x2048_S8x2048x2048x1_S8x2048x2048_n_2_01_01_2_3_111 s wi)
    (broadcastInDim S8x2048x2048 ![] bcast_S_S8x2048x2048 (constant S_ .f32 0x7FC00000#32))

/-- The gather is the choice, by the mask of the wrapped indices, of the operand's entries at the wrapped indices. -/
theorem take_eq (s : (⟨S8x2048x2048, .f32⟩ : BufTy).Contents (Elt F)) (tb : (⟨S8x2048x2048, .i32⟩ : BufTy).Contents (Elt F)) :
    take s tb = pick (inRange (wrapIdx tb)) s (wrapIdx tb) := rfl

/-- (gᵀ − 1) · 10⁴, before it is repeated over the heads. -/
def mask2 (g : (⟨S2048x2048, .f32⟩ : BufTy).Contents (Elt F)) : (⟨S2048x2048, .f32⟩ : BufTy).Contents (Elt F) :=
  mulf
    (subf (transpose S2048x2048 [1, 0] g transposes_S2048x2048_S2048x2048_1_0)
      (broadcastInDim S2048x2048 ![] bcast_S_S2048x2048 (constant S_ .f32 0x3F800000#32)))
    (broadcastInDim S2048x2048 ![] bcast_S_S2048x2048 (constant S_ .f32 0x461C4000#32))

/-- A [2048, 2048] array repeated over the 8 heads. -/
def rep8 (a : (⟨S2048x2048, .f32⟩ : BufTy).Contents (Elt F)) : (⟨S8x2048x2048, .f32⟩ : BufTy).Contents (Elt F) :=
  broadcastInDim S8x2048x2048 ![0, 1, 2] bcast_S1x2048x2048_S8x2048x2048_0_1_2
    (broadcastInDim S1x2048x2048 ![1, 2] bcast_S2048x2048_S1x2048x2048_1_2 a)

/-- The additive graph mask is that array repeated over the heads. -/
theorem maskB_eq (g : (⟨S2048x2048, .f32⟩ : BufTy).Contents (Elt F)) : maskB g = rep8 (mask2 g) := rfl

/-- The first gather's line, cut in three: the wrap of the indices (operations 0 to 7), the in-range mask (8 to 17),
    the gather and the choice (18 to 21). -/
theorem ops1_1_cut (Y : Valuation τ sig (Elt F)) : after hostOps1_1 Y
    = after ((hostOps1_1.drop 8).drop 10) (after ((hostOps1_1.drop 8).take 10) (after (hostOps1_1.take 8) Y)) := by
  rw [← after_append, ← after_append, List.take_append_drop, List.take_append_drop]
theorem ops1_1_a_v5 (Y : Valuation τ sig (Elt F)) :
    after (hostOps1_1.take 8) Y (Proc.devRef .tc main_call0_v5) = wrapIdx (Y (Proc.devRef .tc main_v26)) := by
  simp only [hostOps1_1, List.take_succ_cons, List.take_zero]
  after_results <;> (try simp only [TRef.ofBuf, TRef.toBuf, cast_eq]) <;> rfl
theorem ops1_1_a_v24 (Y : Valuation τ sig (Elt F)) :
    after (hostOps1_1.take 8) Y (Proc.devRef .tc main_v24) = Y (Proc.devRef .tc main_v24) := by
  simp only [hostOps1_1, List.take_succ_cons, List.take_zero]
  after_results <;> (try simp only [TRef.ofBuf, TRef.toBuf, cast_eq]) <;> rfl
theorem ops1_1_b_v12 (Y : Valuation τ sig (Elt F)) :
    after ((hostOps1_1.drop 8).take 10) Y (Proc.devRef .tc main_call0_v12) = inRange (Y (Proc.devRef .tc main_call0_v5)) := by
  simp only [hostOps1_1, List.drop_succ_cons, List.drop_zero, List.take_succ_cons, List.take_zero]
  after_results <;> (try simp only [TRef.ofBuf, TRef.toBuf, cast_eq]) <;> rfl
theorem ops1_1_b_v5 (Y : Valuation τ sig (Elt F)) :
    after ((hostOps1_1.drop 8).take 10) Y (Proc.devRef .tc main_call0_v5) = Y (Proc.devRef .tc main_call0_v5) := by
  simp only [hostOps1_1, List.drop_succ_cons, List.drop_zero, List.take_succ_cons, List.take_zero]
  after_results <;> (try simp only [TRef.ofBuf, TRef.toBuf, cast_eq]) <;> rfl
theorem ops1_1_b_v24 (Y : Valuation τ sig (Elt F)) :
    after ((hostOps1_1.drop 8).take 10) Y (Proc.devRef .tc main_v24) = Y (Proc.devRef .tc main_v24) := by
  simp only [hostOps1_1, List.drop_succ_cons, List.drop_zero, List.take_succ_cons, List.take_zero]
  after_results <;> (try simp only [TRef.ofBuf, TRef.toBuf, cast_eq]) <;> rfl
theorem ops1_1_c_v29 (Y : Valuation τ sig (Elt F)) :
    after ((hostOps1_1.drop 8).drop 10) Y (Proc.devRef .tc main_v29)
      = pick (Y (Proc.devRef .tc main_call0_v12)) (Y (Proc.devRef .tc main_v24)) (Y (Proc.devRef .tc main_call0_v5)) := by
  simp only [hostOps1_1, List.drop_succ_cons, List.drop_zero]
  after_results <;> (try simp only [TRef.ofBuf, TRef.toBuf, cast_eq]) <;> rfl

theorem ops1_1_v29 : after hostOps1_1 X (Proc.devRef .tc main_v29) = take (X (Proc.devRef .tc main_v24)) (X (Proc.devRef .tc main_v26)) := by
  rw [ops1_1_cut, ops1_1_c_v29, ops1_1_b_v12, ops1_1_b_v24, ops1_1_b_v5, ops1_1_a_v5, ops1_1_a_v24]
  rfl

/-- The second gather's line, cut in three: the wrap of the indices (operations 0 to 7), the in-range mask (8 to 17),
    the gather and the choice (18 to 21). -/
theorem ops1_2_cut (Y : Valuation τ sig (Elt F)) : after hostOps1_2 Y
    = after ((hostOps1_2.drop 8).drop 10) (after ((hostOps1_2.drop 8).take 10) (after (hostOps1_2.take 8) Y)) := by
  rw [← after_append, ← after_append, List.take_append_drop, List.take_append_drop]
theorem ops1_2_a_v5 (Y : Valuation τ sig (Elt F)) :
    after (hostOps1_2.take 8) Y (Proc.devRef .tc main_call1_v5) = wrapIdx (Y (Proc.devRef .tc main_v28)) := by
  simp only [hostOps1_2, List.take_succ_cons, List.take_zero]
  after_results <;> (try simp only [TRef.ofBuf, TRef.toBuf, cast_eq]) <;> rfl
theorem ops1_2_a_v21 (Y : Valuation τ sig (Elt F)) :
    after (hostOps1_2.take 8) Y (Proc.devRef .tc main_v21) = Y (Proc.devRef .tc main_v21) := by
  simp only [hostOps1_2, List.take_succ_cons, List.take_zero]
  after_results <;> (try simp only [TRef.ofBuf, TRef.toBuf, cast_eq]) <;> rfl
theorem ops1_2_b_v12 (Y : Valuation τ sig (Elt F)) :
    after ((hostOps1_2.drop 8).take 10) Y (Proc.devRef .tc main_call1_v12) = inRange (Y (Proc.devRef .tc main_call1_v5)) := by
  simp only [hostOps1_2, List.drop_succ_cons, List.drop_zero, List.take_succ_cons, List.take_zero]
  after_results <;> (try simp only [TRef.ofBuf, TRef.toBuf, cast_eq]) <;> rfl
theorem ops1_2_b_v5 (Y : Valuation τ sig (Elt F)) :
    after ((hostOps1_2.drop 8).take 10) Y (Proc.devRef .tc main_call1_v5) = Y (Proc.devRef .tc main_call1_v5) := by
  simp only [hostOps1_2, List.drop_succ_cons, List.drop_zero, List.take_succ_cons, List.take_zero]
  after_results <;> (try simp only [TRef.ofBuf, TRef.toBuf, cast_eq]) <;> rfl
theorem ops1_2_b_v21 (Y : Valuation τ sig (Elt F)) :
    after ((hostOps1_2.drop 8).take 10) Y (Proc.devRef .tc main_v21) = Y (Proc.devRef .tc main_v21) := by
  simp only [hostOps1_2, List.drop_succ_cons, List.drop_zero, List.take_succ_cons, List.take_zero]
  after_results <;> (try simp only [TRef.ofBuf, TRef.toBuf, cast_eq]) <;> rfl
theorem ops1_2_c_v30 (Y : Valuation τ sig (Elt F)) :
    after ((hostOps1_2.drop 8).drop 10) Y (Proc.devRef .tc main_v30)
      = pick (Y (Proc.devRef .tc main_call1_v12)) (Y (Proc.devRef .tc main_v21)) (Y (Proc.devRef .tc main_call1_v5)) := by
  simp only [hostOps1_2, List.drop_succ_cons, List.drop_zero]
  after_results <;> (try simp only [TRef.ofBuf, TRef.toBuf, cast_eq]) <;> rfl

theorem ops1_2_v30 : after hostOps1_2 X (Proc.devRef .tc main_v30) = take (X (Proc.devRef .tc main_v21)) (X (Proc.devRef .tc main_v28)) := by
  rw [ops1_2_cut, ops1_2_c_v30, ops1_2_b_v12, ops1_2_b_v21, ops1_2_b_v5, ops1_2_a_v5, ops1_2_a_v21]
  rfl

/-- The line after the gathers, cut in four: the first mask (operations 0 to 6), the second (7 to 13), the first additive
    term (14 to 17), the second (18 to 21). -/
theorem ops1_3_cut (Y : Valuation τ sig (Elt F)) : after hostOps1_3 Y
    = after (((hostOps1_3.drop 7).drop 7).drop 4) (after (((hostOps1_3.drop 7).drop 7).take 4)
        (after ((hostOps1_3.drop 7).take 7) (after (hostOps1_3.take 7) Y))) := by
  rw [← after_append, ← after_append, ← after_append, List.take_append_drop, List.take_append_drop, List.take_append_drop]
theorem ops1_3_a_v35 (Y : Valuation τ sig (Elt F)) :
    after (hostOps1_3.take 7) Y (Proc.devRef .tc main_v35) = mask2 (Y (Proc.devRef .tc main_arg1)) := by
  simp only [hostOps1_3, List.take_succ_cons, List.take_zero]
  after_results <;> rfl
theorem ops1_3_a_arg2 (Y : Valuation τ sig (Elt F)) :
    after (hostOps1_3.take 7) Y (Proc.devRef .tc main_arg2) = Y (Proc.devRef .tc main_arg2) := by
  simp only [hostOps1_3, List.take_succ_cons, List.take_zero]
  after_results <;> rfl
theorem ops1_3_a_v29 (Y : Valuation τ sig (Elt F)) :
    after (hostOps1_3.take 7) Y (Proc.devRef .tc main_v29) = Y (Proc.devRef .tc main_v29) := by
  simp only [hostOps1_3, List.take_succ_cons, List.take_zero]
  after_results <;> rfl
theorem ops1_3_a_v30 (Y : Valuation τ sig (Elt F)) :
    after (hostOps1_3.take 7) Y (Proc.devRef .tc main_v30) = Y (Proc.devRef .tc main_v30) := by
  simp only [hostOps1_3, List.take_succ_cons, List.take_zero]
  after_results <;> rfl
theorem ops1_3_b_v40 (Y : Valuation τ sig (Elt F)) :
    after ((hostOps1_3.drop 7).take 7) Y (Proc.devRef .tc main_v40) = mask2 (Y (Proc.devRef .tc main_arg2)) := by
  simp only [hostOps1_3, List.drop_succ_cons, List.drop_zero, List.take_succ_cons, List.take_zero]
  after_results <;> rfl
theorem ops1_3_b_v35 (Y : Valuation τ sig (Elt F)) :
    after ((hostOps1_3.drop 7).take 7) Y (Proc.devRef .tc main_v35) = Y (Proc.devRef .tc main_v35) := by
  simp only [hostOps1_3, List.drop_succ_cons, List.drop_zero, List.take_succ_cons, List.take_zero]
  after_results <;> rfl
theorem ops1_3_b_v29 (Y : Valuation τ sig (Elt F)) :
    after ((hostOps1_3.drop 7).take 7) Y (Proc.devRef .tc main_v29) = Y (Proc.devRef .tc main_v29) := by
  simp only [hostOps1_3, List.drop_succ_cons, List.drop_zero, List.take_succ_cons, List.take_zero]
  after_results <;> rfl
theorem ops1_3_b_v30 (Y : Valuation τ sig (Elt F)) :
    after ((hostOps1_3.drop 7).take 7) Y (Proc.devRef .tc main_v30) = Y (Proc.devRef .tc main_v30) := by
  simp only [hostOps1_3, List.drop_succ_cons, List.drop_zero, List.take_succ_cons, List.take_zero]
  after_results <;> rfl
theorem ops1_3_c_v44 (Y : Valuation τ sig (Elt F)) :
    after (((hostOps1_3.drop 7).drop 7).take 4) Y (Proc.devRef .tc main_v44)
      = addTerm (Y (Proc.devRef .tc main_v29)) (rep8 (Y (Proc.devRef .tc main_v35))) := by
  simp only [hostOps1_3, List.drop_succ_cons, List.drop_zero, List.take_succ_cons, List.take_zero]
  after_results <;> rfl
theorem ops1_3_c_v40 (Y : Valuation τ sig (Elt F)) :
    after (((hostOps1_3.drop 7).drop 7).take 4) Y (Proc.devRef .tc main_v40) = Y (Proc.devRef .tc main_v40) := by
  simp only [hostOps1_3, List.drop_succ_cons, List.drop_zero, List.take_succ_cons, List.take_zero]
  after_results <;> rfl
theorem ops1_3_c_v30 (Y : Valuation τ sig (Elt F)) :
    after (((hostOps1_3.drop 7).drop 7).take 4) Y (Proc.devRef .tc main_v30) = Y (Proc.devRef .tc main_v30) := by
  simp only [hostOps1_3, List.drop_succ_cons, List.drop_zero, List.take_succ_cons, List.take_zero]
  after_results <;> rfl
theorem ops1_3_d_v48 (Y : Valuation τ sig (Elt F)) :
    after (((hostOps1_3.drop 7).drop 7).drop 4) Y (Proc.devRef .tc main_v48)
      = addTerm (Y (Proc.devRef .tc main_v30)) (rep8 (Y (Proc.devRef .tc main_v40))) := by
  simp only [hostOps1_3, List.drop_succ_cons, List.drop_zero]
  after_results <;> rfl
theorem ops1_3_d_v44 (Y : Valuation τ sig (Elt F)) :
    after (((hostOps1_3.drop 7).drop 7).drop 4) Y (Proc.devRef .tc main_v44) = Y (Proc.devRef .tc main_v44) := by
  simp only [hostOps1_3, List.drop_succ_cons, List.drop_zero]
  after_results <;> rfl

theorem ops1_3_v44 : after hostOps1_3 X (Proc.devRef .tc main_v44) = addTerm (X (Proc.devRef .tc main_v29)) (maskB (X (Proc.devRef .tc main_arg1))) := by
  rw [ops1_3_cut, ops1_3_d_v44, ops1_3_c_v44, ops1_3_b_v29, ops1_3_b_v35, ops1_3_a_v29, ops1_3_a_v35, maskB_eq]
theorem ops1_3_v48 : after hostOps1_3 X (Proc.devRef .tc main_v48) = addTerm (X (Proc.devRef .tc main_v30)) (maskB (X (Proc.devRef .tc main_arg2))) := by
  rw [ops1_3_cut, ops1_3_d_v48, ops1_3_c_v30, ops1_3_c_v40, ops1_3_b_v30, ops1_3_b_v40, ops1_3_a_v30, ops1_3_a_arg2, maskB_eq]

theorem ops2_v54 : after hostOps2 X (Proc.devRef .tc main_v54) = tail (X (Proc.devRef .tc main_v49_0)) (X (Proc.devRef .tc main_v49_1)) := by
  after_results <;> rfl

/-! ## Buffers a stretch does not write keep their contents -/

theorem ops0_keep_arg0 : after hostOps0 X (Proc.devRef .tc main_arg0) = X (Proc.devRef .tc main_arg0) := by after_results <;> rfl
theorem ops0_keep_arg1 : after hostOps0 X (Proc.devRef .tc main_arg1) = X (Proc.devRef .tc main_arg1) := by after_results <;> rfl
theorem ops0_keep_arg2 : after hostOps0 X (Proc.devRef .tc main_arg2) = X (Proc.devRef .tc main_arg2) := by after_results <;> rfl
theorem ops0_keep_arg3 : after hostOps0 X (Proc.devRef .tc main_arg3) = X (Proc.devRef .tc main_arg3) := by after_results <;> rfl
theorem ops0_keep_arg4 : after hostOps0 X (Proc.devRef .tc main_arg4) = X (Proc.devRef .tc main_arg4) := by after_results <;> rfl
theorem ops0_keep_arg6 : after hostOps0 X (Proc.devRef .tc main_arg6) = X (Proc.devRef .tc main_arg6) := by after_results <;> rfl
theorem ops0_keep_arg8 : after hostOps0 X (Proc.devRef .tc main_arg8) = X (Proc.devRef .tc main_arg8) := by after_results <;> rfl
theorem ops0_keep_arg10 : after hostOps0 X (Proc.devRef .tc main_arg10) = X (Proc.devRef .tc main_arg10) := by after_results <;> rfl
theorem ops0_keep_arg12 : after hostOps0 X (Proc.devRef .tc main_arg12) = X (Proc.devRef .tc main_arg12) := by after_results <;> rfl
theorem ops0_keep_arg14 : after hostOps0 X (Proc.devRef .tc main_arg14) = X (Proc.devRef .tc main_arg14) := by after_results <;> rfl
theorem ops0_keep_arg16 : after hostOps0 X (Proc.devRef .tc main_arg16) = X (Proc.devRef .tc main_arg16) := by after_results <;> rfl
theorem ops1_keep_arg1 : after hostOps1 X (Proc.devRef .tc main_arg1) = X (Proc.devRef .tc main_arg1) := by after_results <;> rfl
theorem ops1_keep_arg2 : after hostOps1 X (Proc.devRef .tc main_arg2) = X (Proc.devRef .tc main_arg2) := by after_results <;> rfl
theorem ops1_1_keep_v8 : after hostOps1_1 X (Proc.devRef .tc main_v8) = X (Proc.devRef .tc main_v8) := by after_results <;> (try simp only [TRef.ofBuf, TRef.toBuf, cast_eq]) <;> rfl
theorem ops1_1_keep_v10 : after hostOps1_1 X (Proc.devRef .tc main_v10) = X (Proc.devRef .tc main_v10) := by after_results <;> (try simp only [TRef.ofBuf, TRef.toBuf, cast_eq]) <;> rfl
theorem ops1_1_keep_v12 : after hostOps1_1 X (Proc.devRef .tc main_v12) = X (Proc.devRef .tc main_v12) := by after_results <;> (try simp only [TRef.ofBuf, TRef.toBuf, cast_eq]) <;> rfl
theorem ops1_1_keep_v14 : after hostOps1_1 X (Proc.devRef .tc main_v14) = X (Proc.devRef .tc main_v14) := by after_results <;> (try simp only [TRef.ofBuf, TRef.toBuf, cast_eq]) <;> rfl
theorem ops1_1_keep_v16 : after hostOps1_1 X (Proc.devRef .tc main_v16) = X (Proc.devRef .tc main_v16) := by after_results <;> (try simp only [TRef.ofBuf, TRef.toBuf, cast_eq]) <;> rfl
theorem ops1_1_keep_v18 : after hostOps1_1 X (Proc.devRef .tc main_v18) = X (Proc.devRef .tc main_v18) := by after_results <;> (try simp only [TRef.ofBuf, TRef.toBuf, cast_eq]) <;> rfl
theorem ops1_1_keep_v21 : after hostOps1_1 X (Proc.devRef .tc main_v21) = X (Proc.devRef .tc main_v21) := by after_results <;> (try simp only [TRef.ofBuf, TRef.toBuf, cast_eq]) <;> rfl
theorem ops1_1_keep_v28 : after hostOps1_1 X (Proc.devRef .tc main_v28) = X (Proc.devRef .tc main_v28) := by after_results <;> (try simp only [TRef.ofBuf, TRef.toBuf, cast_eq]) <;> rfl
theorem ops1_1_keep_arg1 : after hostOps1_1 X (Proc.devRef .tc main_arg1) = X (Proc.devRef .tc main_arg1) := by after_results <;> (try simp only [TRef.ofBuf, TRef.toBuf, cast_eq]) <;> rfl
theorem ops1_1_keep_arg2 : after hostOps1_1 X (Proc.devRef .tc main_arg2) = X (Proc.devRef .tc main_arg2) := by after_results <;> (try simp only [TRef.ofBuf, TRef.toBuf, cast_eq]) <;> rfl
theorem ops1_2_keep_v8 : after hostOps1_2 X (Proc.devRef .tc main_v8) = X (Proc.devRef .tc main_v8) := by after_results <;> (try simp only [TRef.ofBuf, TRef.toBuf, cast_eq]) <;> rfl
theorem ops1_2_keep_v10 : after hostOps1_2 X (Proc.devRef .tc main_v10) = X (Proc.devRef .tc main_v10) := by after_results <;> (try simp only [TRef.ofBuf, TRef.toBuf, cast_eq]) <;> rfl
theorem ops1_2_keep_v12 : after hostOps1_2 X (Proc.devRef .tc main_v12) = X (Proc.devRef .tc main_v12) := by after_results <;> (try simp only [TRef.ofBuf, TRef.toBuf, cast_eq]) <;> rfl
theorem ops1_2_keep_v14 : after hostOps1_2 X (Proc.devRef .tc main_v14) = X (Proc.devRef .tc main_v14) := by after_results <;> (try simp only [TRef.ofBuf, TRef.toBuf, cast_eq]) <;> rfl
theorem ops1_2_keep_v16 : after hostOps1_2 X (Proc.devRef .tc main_v16) = X (Proc.devRef .tc main_v16) := by after_results <;> (try simp only [TRef.ofBuf, TRef.toBuf, cast_eq]) <;> rfl
theorem ops1_2_keep_v18 : after hostOps1_2 X (Proc.devRef .tc main_v18) = X (Proc.devRef .tc main_v18) := by after_results <;> (try simp only [TRef.ofBuf, TRef.toBuf, cast_eq]) <;> rfl
theorem ops1_2_keep_v29 : after hostOps1_2 X (Proc.devRef .tc main_v29) = X (Proc.devRef .tc main_v29) := by after_results <;> (try simp only [TRef.ofBuf, TRef.toBuf, cast_eq]) <;> rfl
theorem ops1_2_keep_arg1 : after hostOps1_2 X (Proc.devRef .tc main_arg1) = X (Proc.devRef .tc main_arg1) := by after_results <;> (try simp only [TRef.ofBuf, TRef.toBuf, cast_eq]) <;> rfl
theorem ops1_2_keep_arg2 : after hostOps1_2 X (Proc.devRef .tc main_arg2) = X (Proc.devRef .tc main_arg2) := by after_results <;> (try simp only [TRef.ofBuf, TRef.toBuf, cast_eq]) <;> rfl
theorem ops1_3_keep_v8 : after hostOps1_3 X (Proc.devRef .tc main_v8) = X (Proc.devRef .tc main_v8) := by after_results <;> rfl
theorem ops1_3_keep_v10 : after hostOps1_3 X (Proc.devRef .tc main_v10) = X (Proc.devRef .tc main_v10) := by after_results <;> rfl
theorem ops1_3_keep_v12 : after hostOps1_3 X (Proc.devRef .tc main_v12) = X (Proc.devRef .tc main_v12) := by after_results <;> rfl
theorem ops1_3_keep_v14 : after hostOps1_3 X (Proc.devRef .tc main_v14) = X (Proc.devRef .tc main_v14) := by after_results <;> rfl
theorem ops1_3_keep_v16 : after hostOps1_3 X (Proc.devRef .tc main_v16) = X (Proc.devRef .tc main_v16) := by after_results <;> rfl
theorem ops1_3_keep_v18 : after hostOps1_3 X (Proc.devRef .tc main_v18) = X (Proc.devRef .tc main_v18) := by after_results <;> rfl

end Cert.KernelIdeal.HostStages

end
-- ==== Proof.ProjValue.lean ====
/-
  The first launch (the six projections), read as values at the exact instance: each of its six output arrays, after
  the launch's four row tiles have been written back, is the projection (x · W + b) of the arrays the launch finds
  in its input windows — the input x, one weight and one bias per output.

  The body computes every output tile as ONE function of three loaded blocks (a row tile of x, a weight, a bias), up to
  the output's width: the six printed payload compositions are that function. Over the extended reals the format
  changes are the identity, the matrix product into the zero splat is the sum over its one contracted axis, and the
  bias, cast to one row and laid down the tile's rows, reads its q-th entry; so entry (p, q) of a tile is
  Σₖ x(p, k) · W(k, q) + b(q). Row p of tile t is row 512 · t + p of x and of the output (the other windows' one
  block is their whole array), so what tile t writes back is its block of the projection of the whole arrays; and row r
  lies in tile r / 512, so the four tiles cover each output array.
-/
import proofs.«416605_j68384469286920_2_alg».proof.Proof.Gen.KernelIdeal.Frame
import proofs.«416605_j68384469286920_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic: one function of (x tile, weight, bias) per output width -/

section Payload
variable {F : FTy → Type} [FloatOps F]

/-- A row tile of a 1024-wide projection as the body computes it: the tile of x narrowed to bf16, times the weight,
    accumulated from the zero splat in f32; plus the bias cast to one row and laid down the 512 rows; narrowed to bf16. -/
def tileQ (x : Vec F S512x1024 .f32) (w : Vec F S1024x1024 .bf16) (b : Vec F S1024 .f32) : FVec F S512x1024 .bf16 :=
  truncf .bf16
    (addf
      (matmul dot_S512x1024_S1024x1024_S512x1024_1_0_0_1_n_n none (truncf .bf16 x bitsLt_bf16_f32)
        (shapeCast S1024x1024 w shapeCasts_S1024x1024_S1024x1024) (constant S512x1024 .f32 0x00000000#32))
      (broadcastTo S512x1024 (shapeCast S1x1024 b shapeCasts_S1024_S1x1024) broadcasts_S1x1024_S512x1024))
    bitsLt_bf16_f32

/-- The same for a 512-wide projection. -/
def tileV (x : Vec F S512x1024 .f32) (w : Vec F S1024x512 .bf16) (b : Vec F S512 .f32) : FVec F S512x512 .bf16 :=
  truncf .bf16
    (addf
      (matmul dot_S512x1024_S1024x512_S512x512_1_0_0_1_n_n none (truncf .bf16 x bitsLt_bf16_f32)
        (shapeCast S1024x512 w shapeCasts_S1024x512_S1024x512) (constant S512x512 .f32 0x00000000#32))
      (broadcastTo S512x512 (shapeCast S1x512 b shapeCasts_S512_S1x512) broadcasts_S1x512_S512x512))
    bitsLt_bf16_f32

theorem hz2 : (![0, 0] : Fin 2 → Nat) = fun _ => 0 := funext fun a => by fin_cases a <;> rfl
theorem hz1 : (![0] : Fin 1 → Nat) = fun _ => 0 := funext fun a => by fin_cases a <;> rfl

/-- What the body leaves in output window 13's buffer is the 1024-wide tile function of the blocks of windows 0, 1, 2:
    its one store covers the buffer, its loads read whole buffers, and its payload is that composition. -/
theorem out13_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_13 x0 x1 x2 x3 x4 x5 x6 x7 x8 x9 x10 x11 x12 = tileQ x0 x1 x2 := by
  unfold out0_13
  rw [View.canon_unit_zero hz2]
  simp only [View.ld_unit_zero (S := S512x1024) hz2, View.ld_unit_zero (S := S1024x1024) hz2, View.ld_unit_zero (S := S1024) hz1]
  rfl

/-- Window 14: the same function of the blocks of windows 0, 3, 4. -/
theorem out14_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_14 x0 x1 x2 x3 x4 x5 x6 x7 x8 x9 x10 x11 x12 = tileQ x0 x3 x4 := by
  unfold out0_14
  rw [View.canon_unit_zero hz2]
  simp only [View.ld_unit_zero (S := S512x1024) hz2, View.ld_unit_zero (S := S1024x1024) hz2, View.ld_unit_zero (S := S1024) hz1]
  rfl

/-- Window 15: the 512-wide function of the blocks of windows 0, 5, 6. -/
theorem out15_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_15 x0 x1 x2 x3 x4 x5 x6 x7 x8 x9 x10 x11 x12 = tileV x0 x5 x6 := by
  unfold out0_15
  rw [View.canon_unit_zero hz2]
  simp only [View.ld_unit_zero (S := S512x1024) hz2, View.ld_unit_zero (S := S1024x512) hz2, View.ld_unit_zero (S := S512) hz1]
  rfl

/-- Window 16: the 1024-wide function of the blocks of windows 0, 7, 8 (the product and the bias step printed apart). -/
theorem out16_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_16 x0 x1 x2 x3 x4 x5 x6 x7 x8 x9 x10 x11 x12 = tileQ x0 x7 x8 := by
  unfold out0_16
  rw [View.canon_unit_zero hz2]
  simp only [View.ld_unit_zero (S := S512x1024) hz2, View.ld_unit_zero (S := S1024x1024) hz2, View.ld_unit_zero (S := S1024) hz1]
  rfl

/-- Window 17: the 1024-wide function of the blocks of windows 0, 9, 10 (the narrowing of x printed apart). -/
theorem out17_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_17 x0 x1 x2 x3 x4 x5 x6 x7 x8 x9 x10 x11 x12 = tileQ x0 x9 x10 := by
  unfold out0_17
  rw [View.canon_unit_zero hz2]
  simp only [View.ld_unit_zero (S := S512x1024) hz2, View.ld_unit_zero (S := S1024x1024) hz2, View.ld_unit_zero (S := S1024) hz1]
  rfl

/-- Window 18: the 512-wide function of the blocks of windows 0, 11, 12. -/
theorem out18_eq (x0 : Vec F S512x1024 .f32) (x1 : Vec F S1024x1024 .bf16) (x2 : Vec F S1024 .f32) (x3 : Vec F S1024x1024 .bf16) (x4 : Vec F S1024 .f32) (x5 : Vec F S1024x512 .bf16) (x6 : Vec F S512 .f32) (x7 : Vec F S1024x1024 .bf16) (x8 : Vec F S1024 .f32) (x9 : Vec F S1024x1024 .bf16) (x10 : Vec F S1024 .f32) (x11 : Vec F S1024x512 .bf16) (x12 : Vec F S512 .f32) :
    out0_18 x0 x1 x2 x3 x4 x5 x6 x7 x8 x9 x10 x11 x12 = tileV x0 x11 x12 := by
  unfold out0_18
  rw [View.canon_unit_zero hz2]
  simp only [View.ld_unit_zero (S := S512x1024) hz2, View.ld_unit_zero (S := S1024x512) hz2, View.ld_unit_zero (S := S512) hz1]
  rfl

end Payload

/-! ## A tile at an index, over the extended reals -/

section AtIdeal

/-- The left operand's index on its free axis 0 is the output's row; -/
theorem lhsQ_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- on its contracted axis 1 it is the contraction position's one coordinate. -/
theorem lhsQ_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index on its contracted axis 0 is that coordinate; -/
theorem rhsQ_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- on its free axis 1 it is the output's column. -/
theorem rhsQ_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero splat, read at (p, q): the sum over the 1024 contracted positions of left (p, k) times right (k, q). -/
theorem matQ_apply (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  show FloatOps.matmul dot_S512x1024_S1024x1024_S512x1024_1_0_0_1_n_n none l r (constant S512x1024 .f32 0x00000000#32) (ix2 p q) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhsQ_0 _ _
    | ⟨1, _⟩ => exact (lhsQ_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhsQ_0 _ _).trans hk
    | ⟨1, _⟩ => exact rhsQ_1 _ _)
  rw [el, er]

/-- The left operand's index on its free axis 0 is the output's row; -/
theorem lhsV_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- on its contracted axis 1 it is the contraction position's one coordinate. -/
theorem lhsV_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- The right operand's index on its contracted axis 0 is that coordinate; -/
theorem rhsV_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- on its free axis 1 it is the output's column. -/
theorem rhsV_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero splat, read at (p, q): the sum over the 1024 contracted positions of left (p, k) times right (k, q). -/
theorem matV_apply (l : FVec Ideal S512x1024 .bf16) (r : FVec Ideal S1024x512 .bf16) (p : Fin 512) (q : Fin 512) :
    matmul dot_S512x1024_S1024x512_S512x512_1_0_0_1_n_n none l r (constant S512x512 .f32 0x00000000#32) (ix2 p q)
      = ∑ k : Fin 1024, l (ix2 p k) * r (ix2 k q) := by
  show FloatOps.matmul dot_S512x1024_S1024x512_S512x512_1_0_0_1_n_n none l r (constant S512x512 .f32 0x00000000#32) (ix2 p q) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhsV_0 _ _
    | ⟨1, _⟩ => exact (lhsV_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhsV_0 _ _).trans hk
    | ⟨1, _⟩ => exact rhsV_1 _ _)
  rw [el, er]

/-- The bias, cast to one row and laid down the 512 rows, reads its q-th entry at (p, q). -/
theorem biasQ_apply (b : Vec Ideal S1024 .f32) (p : Fin 512) (q : Fin 1024) :
    broadcastTo S512x1024 (shapeCast S1x1024 b shapeCasts_S1024_S1x1024) broadcasts_S1x1024_S512x1024 (ix2 p q) = b (ix1 q) := by
  refine (broadcastTo_apply (shapeCast S1x1024 b shapeCasts_S1024_S1x1024) broadcasts_S1x1024_S512x1024 (ix2 p q) (ix2 (0 : Fin 1) q) ?_).trans ?_
  · intro a
    match a with
    | ⟨0, _⟩ => rfl
    | ⟨1, _⟩ => show q.val = if (1024 : Nat) = 1 then 0 else q.val; rw [if_neg (by decide)]
  · exact shapeCast_apply b shapeCasts_S1024_S1x1024 (ix2 (0 : Fin 1) q) (ix1 q) (by
      rw [Shape.rowMajor_val_two, Shape.rowMajor_val_one]; show q.val = 0 * 1024 + q.val; omega)

/-- The bias, cast to one row and laid down the 512 rows, reads its q-th entry at (p, q). -/
theorem biasV_apply (b : Vec Ideal S512 .f32) (p : Fin 512) (q : Fin 512) :
    broadcastTo S512x512 (shapeCast S1x512 b shapeCasts_S512_S1x512) broadcasts_S1x512_S512x512 (ix2 p q) = b (ix1 q) := by
  refine (broadcastTo_apply (shapeCast S1x512 b shapeCasts_S512_S1x512) broadcasts_S1x512_S512x512 (ix2 p q) (ix2 (0 : Fin 1) q) ?_).trans ?_
  · intro a
    match a with
    | ⟨0, _⟩ => rfl
    | ⟨1, _⟩ => show q.val = if (512 : Nat) = 1 then 0 else q.val; rw [if_neg (by decide)]
  · exact shapeCast_apply b shapeCasts_S512_S1x512 (ix2 (0 : Fin 1) q) (ix1 q) (by
      rw [Shape.rowMajor_val_two, Shape.rowMajor_val_one]; show q.val = 0 * 512 + q.val; omega)

/-- Entry (p, q) of a tile, over the extended reals: Σₖ x(p, k) · W(k, q) + b(q). -/
theorem tileQ_apply (x : Vec Ideal S512x1024 .f32) (w : Vec Ideal S1024x1024 .bf16) (b : Vec Ideal S1024 .f32) (p : Fin 512) (q : Fin 1024) :
    tileQ (F := Ideal) x w b (ix2 p q) = (∑ k : Fin 1024, x (ix2 p k) * w (ix2 k q)) + b (ix1 q) := by
  unfold tileQ
  refine (truncf_apply _ bitsLt_bf16_f32 (ix2 p q)).trans ?_
  refine (addf_apply _ _ (ix2 p q)).trans ?_
  rw [matQ_apply, biasQ_apply, shapeCast_self]
  rfl

/-- So if the tile of x is rows of an array X (row p of the tile is row r of X) and the weight and bias blocks are the
    arrays W and B, entry (p, q) of the tile is the projection of (X, W, B) at (r, q). -/
theorem tileQ_eq_projQ (X : S2048x1024.Idx → EReal) (W : S1024x1024.Idx → EReal) (B : S1024.Idx → EReal)
    (x : Vec Ideal S512x1024 .f32) (w : Vec Ideal S1024x1024 .bf16) (b : Vec Ideal S1024 .f32) (r : Fin 2048) (p : Fin 512) (q : Fin 1024)
    (hx : ∀ k : Fin 1024, x (ix2 p k) = X (ix2 r k)) (hw : ∀ k : Fin 1024, w (ix2 k q) = W (ix2 k q)) (hb : b (ix1 q) = B (ix1 q)) :
    tileQ (F := Ideal) x w b (ix2 p q) = Cert.Spec.projQ X W B (ix2 r q) := by
  rw [tileQ_apply]
  show _ = (∑ k : Fin 1024, X (ix2 r k) * W (ix2 k q)) + B (ix1 q)
  simp only [hx, hw, hb]

/-- Entry (p, q) of a tile, over the extended reals: Σₖ x(p, k) · W(k, q) + b(q). -/
theorem tileV_apply (x : Vec Ideal S512x1024 .f32) (w : Vec Ideal S1024x512 .bf16) (b : Vec Ideal S512 .f32) (p : Fin 512) (q : Fin 512) :
    tileV (F := Ideal) x w b (ix2 p q) = (∑ k : Fin 1024, x (ix2 p k) * w (ix2 k q)) + b (ix1 q) := by
  unfold tileV
  refine (truncf_apply _ bitsLt_bf16_f32 (ix2 p q)).trans ?_
  refine (addf_apply _ _ (ix2 p q)).trans ?_
  rw [matV_apply, biasV_apply, shapeCast_self]
  rfl

/-- So if the tile of x is rows of an array X (row p of the tile is row r of X) and the weight and bias blocks are the
    arrays W and B, entry (p, q) of the tile is the projection of (X, W, B) at (r, q). -/
theorem tileV_eq_projV (X : S2048x1024.Idx → EReal) (W : S1024x512.Idx → EReal) (B : S512.Idx → EReal)
    (x : Vec Ideal S512x1024 .f32) (w : Vec Ideal S1024x512 .bf16) (b : Vec Ideal S512 .f32) (r : Fin 2048) (p : Fin 512) (q : Fin 512)
    (hx : ∀ k : Fin 1024, x (ix2 p k) = X (ix2 r k)) (hw : ∀ k : Fin 1024, w (ix2 k q) = W (ix2 k q)) (hb : b (ix1 q) = B (ix1 q)) :
    tileV (F := Ideal) x w b (ix2 p q) = Cert.Spec.projV X W B (ix2 r q) := by
  rw [tileV_apply]
  show _ = (∑ k : Fin 1024, X (ix2 r k) * W (ix2 k q)) + B (ix1 q)
  simp only [hx, hw, hb]

end AtIdeal

/-! ## The windows' blocks as parts of the arrays -/

variable (V : (c : Dev nD) → (b : Ref sig .tc) → Buf (Elt Ideal) ((c : Thread nD τ).loc b))

/-- The printed index maps, decided once over the four grid points: the input x and each output move one row tile per
    point and stay at column block 0; every weight and bias window stays at its one block. -/
theorem idx_x : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_b2 : ∀ t : Fin cfg0.N, win0_2.index t (0 : Fin 1) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_b4 : ∀ t : Fin cfg0.N, win0_4.index t (0 : Fin 1) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_b6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_b8 : ∀ t : Fin cfg0.N, win0_8.index t (0 : Fin 1) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_b10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_b12 : ∀ t : Fin cfg0.N, win0_12.index t (0 : Fin 1) = 0 :=
  (by decide +kernel : ∀ t : Fin grid0.N, _)
theorem idx_o13 : ∀ t : Fin cfg0.N, win0_13.index t (0 : Fin 2) = t.val ∧ win0_13.index t (1 : Fin 2) = 0 :=
  (by decide +kernel : ∀ t : Fin grid0.N, _)
theorem idx_o14 : ∀ t : Fin cfg0.N, win0_14.index t (0 : Fin 2) = t.val ∧ win0_14.index t (1 : Fin 2) = 0 :=
  (by decide +kernel : ∀ t : Fin grid0.N, _)
theorem idx_o15 : ∀ t : Fin cfg0.N, win0_15.index t (0 : Fin 2) = t.val ∧ win0_15.index t (1 : Fin 2) = 0 :=
  (by decide +kernel : ∀ t : Fin grid0.N, _)
theorem idx_o16 : ∀ t : Fin cfg0.N, win0_16.index t (0 : Fin 2) = t.val ∧ win0_16.index t (1 : Fin 2) = 0 :=
  (by decide +kernel : ∀ t : Fin grid0.N, _)
theorem idx_o17 : ∀ t : Fin cfg0.N, win0_17.index t (0 : Fin 2) = t.val ∧ win0_17.index t (1 : Fin 2) = 0 :=
  (by decide +kernel : ∀ t : Fin grid0.N, _)
theorem idx_o18 : ∀ t : Fin cfg0.N, win0_18.index t (0 : Fin 2) = t.val ∧ win0_18.index t (1 : Fin 2) = 0 :=
  (by decide +kernel : ∀ t : Fin grid0.N, _)

/-- Row p of row tile t, as a row of a 2048-row array: 512 · t + p. -/
def row (t : Fin cfg0.N) (p : Fin 512) : Fin 2048 :=
  ⟨t.val * 512 + p.val, by have ht : t.val < grid0.N := t.isLt; rw [N_0] at ht; have hp := p.isLt; omega⟩

/-- The blocks the body reads at point t, each at its literal type. -/
abbrev xblk (c : Dev nD) (t : Fin cfg0.N) : Vec Ideal S512x1024 .f32 := iblk0 V c 0 t
abbrev wblk1 (c : Dev nD) (t : Fin cfg0.N) : Vec Ideal S1024x1024 .bf16 := iblk0 V c 1 t
abbrev bblk2 (c : Dev nD) (t : Fin cfg0.N) : Vec Ideal S1024 .f32 := iblk0 V c 2 t
abbrev wblk3 (c : Dev nD) (t : Fin cfg0.N) : Vec Ideal S1024x1024 .bf16 := iblk0 V c 3 t
abbrev bblk4 (c : Dev nD) (t : Fin cfg0.N) : Vec Ideal S1024 .f32 := iblk0 V c 4 t
abbrev wblk5 (c : Dev nD) (t : Fin cfg0.N) : Vec Ideal S1024x512 .bf16 := iblk0 V c 5 t
abbrev bblk6 (c : Dev nD) (t : Fin cfg0.N) : Vec Ideal S512 .f32 := iblk0 V c 6 t
abbrev wblk7 (c : Dev nD) (t : Fin cfg0.N) : Vec Ideal S1024x1024 .bf16 := iblk0 V c 7 t
abbrev bblk8 (c : Dev nD) (t : Fin cfg0.N) : Vec Ideal S1024 .f32 := iblk0 V c 8 t
abbrev wblk9 (c : Dev nD) (t : Fin cfg0.N) : Vec Ideal S1024x1024 .bf16 := iblk0 V c 9 t
abbrev bblk10 (c : Dev nD) (t : Fin cfg0.N) : Vec Ideal S1024 .f32 := iblk0 V c 10 t
abbrev wblk11 (c : Dev nD) (t : Fin cfg0.N) : Vec Ideal S1024x512 .bf16 := iblk0 V c 11 t
abbrev bblk12 (c : Dev nD) (t : Fin cfg0.N) : Vec Ideal S512 .f32 := iblk0 V c 12 t

/-- The arrays the launch finds in its input windows, each at its literal type. -/
abbrev xarr (c : Dev nD) : S2048x1024.Idx → EReal := V c main_arg0
abbrev warr1 (c : Dev nD) : S1024x1024.Idx → EReal := V c main_v0
abbrev barr2 (c : Dev nD) : S1024.Idx → EReal := V c main_arg6
abbrev warr3 (c : Dev nD) : S1024x1024.Idx → EReal := V c main_v1
abbrev barr4 (c : Dev nD) : S1024.Idx → EReal := V c main_arg8
abbrev warr5 (c : Dev nD) : S1024x512.Idx → EReal := V c main_v2
abbrev barr6 (c : Dev nD) : S512.Idx → EReal := V c main_arg10
abbrev warr7 (c : Dev nD) : S1024x1024.Idx → EReal := V c main_v3
abbrev barr8 (c : Dev nD) : S1024.Idx → EReal := V c main_arg12
abbrev warr9 (c : Dev nD) : S1024x1024.Idx → EReal := V c main_v4
abbrev barr10 (c : Dev nD) : S1024.Idx → EReal := V c main_arg14
abbrev warr11 (c : Dev nD) : S1024x512.Idx → EReal := V c main_v5
abbrev barr12 (c : Dev nD) : S512.Idx → EReal := V c main_arg16

/-- Row p of the tile of x at point t is row 512 · t + p of x. -/
theorem xblk_apply (c : Dev nD) (t : Fin cfg0.N) (p : Fin 512) (k : Fin 1024) :
    xblk V c t (ix2 p k) = xarr V c (ix2 (row t p) k) := by
  obtain ⟨e0, e1⟩ := idx_x t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- A weight window's one block is its whole array (windows 1, 3, 7, 9: [1024, 1024]; 5, 11: [1024, 512]). -/
theorem wblk1_apply (c : Dev nD) (t : Fin cfg0.N) (k : Fin 1024) (q : Fin 1024) :
    wblk1 V c t (ix2 k q) = warr1 V c (ix2 k q) := by
  obtain ⟨e0, e1⟩ := idx_w1 t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega
theorem wblk3_apply (c : Dev nD) (t : Fin cfg0.N) (k : Fin 1024) (q : Fin 1024) :
    wblk3 V c t (ix2 k q) = warr3 V c (ix2 k q) := by
  obtain ⟨e0, e1⟩ := idx_w3 t
  show V c main_v1 (((cfg0.win 3).blk t).view.emb (ix2 k q)) = V c main_v1 (ix2 k q)
  refine congrArg (V c main_v1) (funext fun a => Fin.ext ?_)
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega
theorem wblk5_apply (c : Dev nD) (t : Fin cfg0.N) (k : Fin 1024) (q : Fin 512) :
    wblk5 V c t (ix2 k q) = warr5 V c (ix2 k q) := by
  obtain ⟨e0, e1⟩ := idx_w5 t
  show V c main_v2 (((cfg0.win 5).blk t).view.emb (ix2 k q)) = V c main_v2 (ix2 k q)
  refine congrArg (V c main_v2) (funext fun a => Fin.ext ?_)
  match a with
  | ⟨0, _⟩ => show win0_5.index t (0 : Fin 2) * 1024 + 1 * k.val = k.val; rw [e0]; omega
  | ⟨1, _⟩ => show win0_5.index t (1 : Fin 2) * 512 + 1 * q.val = q.val; rw [e1]; omega
theorem wblk7_apply (c : Dev nD) (t : Fin cfg0.N) (k : Fin 1024) (q : Fin 1024) :
    wblk7 V c t (ix2 k q) = warr7 V c (ix2 k q) := by
  obtain ⟨e0, e1⟩ := idx_w7 t
  show V c main_v3 (((cfg0.win 7).blk t).view.emb (ix2 k q)) = V c main_v3 (ix2 k q)
  refine congrArg (V c main_v3) (funext fun a => Fin.ext ?_)
  match a with
  | ⟨0, _⟩ => show win0_7.index t (0 : Fin 2) * 1024 + 1 * k.val = k.val; rw [e0]; omega
  | ⟨1, _⟩ => show win0_7.index t (1 : Fin 2) * 1024 + 1 * q.val = q.val; rw [e1]; omega
theorem wblk9_apply (c : Dev nD) (t : Fin cfg0.N) (k : Fin 1024) (q : Fin 1024) :
    wblk9 V c t (ix2 k q) = warr9 V c (ix2 k q) := by
  obtain ⟨e0, e1⟩ := idx_w9 t
  show V c main_v4 (((cfg0.win 9).blk t).view.emb (ix2 k q)) = V c main_v4 (ix2 k q)
  refine congrArg (V c main_v4) (funext fun a => Fin.ext ?_)
  match a with
  | ⟨0, _⟩ => show win0_9.index t (0 : Fin 2) * 1024 + 1 * k.val = k.val; rw [e0]; omega
  | ⟨1, _⟩ => show win0_9.index t (1 : Fin 2) * 1024 + 1 * q.val = q.val; rw [e1]; omega
theorem wblk11_apply (c : Dev nD) (t : Fin cfg0.N) (k : Fin 1024) (q : Fin 512) :
    wblk11 V c t (ix2 k q) = warr11 V c (ix2 k q) := by
  obtain ⟨e0, e1⟩ := idx_w11 t
  show V c main_v5 (((cfg0.win 11).blk t).view.emb (ix2 k q)) = V c main_v5 (ix2 k q)
  refine congrArg (V c main_v5) (funext fun a => Fin.ext ?_)
  match a with
  | ⟨0, _⟩ => show win0_11.index t (0 : Fin 2) * 1024 + 1 * k.val = k.val; rw [e0]; omega
  | ⟨1, _⟩ => show win0_11.index t (1 : Fin 2) * 512 + 1 * q.val = q.val; rw [e1]; omega

/-- A bias window's one block is its whole array (windows 2, 4, 8, 10: [1024]; 6, 12: [512]). -/
theorem bblk2_apply (c : Dev nD) (t : Fin cfg0.N) (q : Fin 1024) :
    bblk2 V c t (ix1 q) = barr2 V c (ix1 q) := by
  have e0 := idx_b2 t
  show V c main_arg6 (((cfg0.win 2).blk t).view.emb (ix1 q)) = V c main_arg6 (ix1 q)
  refine congrArg (V c main_arg6) (funext fun a => Fin.ext ?_)
  match a with
  | ⟨0, _⟩ => show win0_2.index t (0 : Fin 1) * 1024 + 1 * q.val = q.val; rw [e0]; omega
theorem bblk4_apply (c : Dev nD) (t : Fin cfg0.N) (q : Fin 1024) :
    bblk4 V c t (ix1 q) = barr4 V c (ix1 q) := by
  have e0 := idx_b4 t
  show V c main_arg8 (((cfg0.win 4).blk t).view.emb (ix1 q)) = V c main_arg8 (ix1 q)
  refine congrArg (V c main_arg8) (funext fun a => Fin.ext ?_)
  match a with
  | ⟨0, _⟩ => show win0_4.index t (0 : Fin 1) * 1024 + 1 * q.val = q.val; rw [e0]; omega
theorem bblk6_apply (c : Dev nD) (t : Fin cfg0.N) (q : Fin 512) :
    bblk6 V c t (ix1 q) = barr6 V c (ix1 q) := by
  have e0 := idx_b6 t
  show V c main_arg10 (((cfg0.win 6).blk t).view.emb (ix1 q)) = V c main_arg10 (ix1 q)
  refine congrArg (V c main_arg10) (funext fun a => Fin.ext ?_)
  match a with
  | ⟨0, _⟩ => show win0_6.index t (0 : Fin 1) * 512 + 1 * q.val = q.val; rw [e0]; omega
theorem bblk8_apply (c : Dev nD) (t : Fin cfg0.N) (q : Fin 1024) :
    bblk8 V c t (ix1 q) = barr8 V c (ix1 q) := by
  have e0 := idx_b8 t
  show V c main_arg12 (((cfg0.win 8).blk t).view.emb (ix1 q)) = V c main_arg12 (ix1 q)
  refine congrArg (V c main_arg12) (funext fun a => Fin.ext ?_)
  match a with
  | ⟨0, _⟩ => show win0_8.index t (0 : Fin 1) * 1024 + 1 * q.val = q.val; rw [e0]; omega
theorem bblk10_apply (c : Dev nD) (t : Fin cfg0.N) (q : Fin 1024) :
    bblk10 V c t (ix1 q) = barr10 V c (ix1 q) := by
  have e0 := idx_b10 t
  show V c main_arg14 (((cfg0.win 10).blk t).view.emb (ix1 q)) = V c main_arg14 (ix1 q)
  refine congrArg (V c main_arg14) (funext fun a => Fin.ext ?_)
  match a with
  | ⟨0, _⟩ => show win0_10.index t (0 : Fin 1) * 1024 + 1 * q.val = q.val; rw [e0]; omega
theorem bblk12_apply (c : Dev nD) (t : Fin cfg0.N) (q : Fin 512) :
    bblk12 V c t (ix1 q) = barr12 V c (ix1 q) := by
  have e0 := idx_b12 t
  show V c main_arg16 (((cfg0.win 12).blk t).view.emb (ix1 q)) = V c main_arg16 (ix1 q)
  refine congrArg (V c main_arg16) (funext fun a => Fin.ext ?_)
  match a with
  | ⟨0, _⟩ => show win0_12.index t (0 : Fin 1) * 512 + 1 * q.val = q.val; rw [e0]; omega

/-! ## Output window 13: the projection of (x, window 1's weight, window 2's bias) -/

/-- Entry (p, q) of the output's block at point t sits at (512 · t + p, q) of the output array. -/
theorem emb13 (t : Fin cfg0.N) (p : Fin 512) (q : Fin 1024) :
    (((cfg0.win 13).blk t).view.emb (ix2 p q) : S2048x1024.Idx) = ix2 (row t p) q := by
  obtain ⟨e0, e1⟩ := idx_o13 t
  refine funext fun a => Fin.ext ?_
  match a with
  | ⟨0, _⟩ => show win0_13.index t (0 : Fin 2) * 512 + 1 * p.val = t.val * 512 + p.val; rw [e0]; omega
  | ⟨1, _⟩ => show win0_13.index t (1 : Fin 2) * 1024 + 1 * q.val = q.val; rw [e1]; omega

/-- What point t writes back is its block of the projection of the whole arrays. -/
theorem flushed13 (c : Dev nD) (t : Fin cfg0.N) :
    (dat0 (F := Ideal) V c).flushed 13 t
      = ((cfg0.win 13).blk t).view.read (Elt Ideal) (Cert.Spec.projQ (V c main_arg0) (V c main_v0) (V c main_arg6)) := by
  show (cfg0.win 13).cut (grid0.coords t) ((dat0 (F := Ideal) V c).after 13 t) = _
  rw [after0_13, out13_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 1024), j = ix2 p q := ⟨j 0, j 1, eq_ix2 (n0 := 512) (n1 := 1024) j⟩
  show tileQ (F := Ideal) (xblk V c t) (wblk1 V c t) (bblk2 V c t) (ix2 p q)
    = Cert.Spec.projQ (xarr V c) (warr1 V c) (barr2 V c) (((cfg0.win 13).blk t).view.emb (ix2 p q))
  refine Eq.trans ?_ (congrArg (Cert.Spec.projQ (xarr V c) (warr1 V c) (barr2 V c)) (emb13 t p q)).symm
  exact tileQ_eq_projQ (xarr V c) (warr1 V c) (barr2 V c) (xblk V c t) (wblk1 V c t) (bblk2 V c t) (row t p) p q
    (fun k => xblk_apply V c t p k) (fun k => wblk1_apply V c t k q) (bblk2_apply V c t q)

/-- An index of the output array is in point t's block iff each coordinate is in the block's range on its axis. -/
theorem mem_blk13 (t : Fin cfg0.N) (i : S2048x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v6_0).slice (win0_13.rect t)).set ↔ _
  rw [View.set_slice_whole, Rect.mem_set_unit]
  exact Iff.rfl

/-- Row r of the output lies in row tile r / 512, which writes back: the four tiles cover the array. -/
theorem cover13 (i : S2048x1024.Idx) :
    ∃ t : Fin cfg0.N, (cfg0.win 13).flush t = true ∧ i ∈ ((cfg0.win 13).blk t).view.set := by
  have hi0 : (i 0).val < 2048 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o13 t
  refine ⟨t, flush0_13 t, ?_⟩
  rw [mem_blk13]
  intro a
  match a with
  | ⟨0, _⟩ =>
    show win0_13.index t (0 : Fin 2) * 512 ≤ (i 0).val ∧ (i 0).val < win0_13.index t (0 : Fin 2) * 512 + 512
    rw [e0, ht]; omega
  | ⟨1, _⟩ =>
    show win0_13.index t (1 : Fin 2) * 1024 ≤ (i 1).val ∧ (i 1).val < win0_13.index t (1 : Fin 2) * 1024 + 1024
    rw [e1]; omega

theorem arr13 (c : Dev nD) :
    (dat0 (F := Ideal) V c).arrAt 13 cfg0.N = Cert.Spec.projQ (V c main_arg0) (V c main_v0) (V c main_arg6) :=
  (dat0 (F := Ideal) V c).arrAt_eq_of_cover 13 (Cert.Spec.projQ (V c main_arg0) (V c main_v0) (V c main_arg6))
    (fun t _ => flushed13 V c t) cover13

/-! ## Output window 14: the projection of (x, window 3's weight, window 4's bias) -/

/-- Entry (p, q) of the output's block at point t sits at (512 · t + p, q) of the output array. -/
theorem emb14 (t : Fin cfg0.N) (p : Fin 512) (q : Fin 1024) :
    (((cfg0.win 14).blk t).view.emb (ix2 p q) : S2048x1024.Idx) = ix2 (row t p) q := by
  obtain ⟨e0, e1⟩ := idx_o14 t
  refine funext fun a => Fin.ext ?_
  match a with
  | ⟨0, _⟩ => show win0_14.index t (0 : Fin 2) * 512 + 1 * p.val = t.val * 512 + p.val; rw [e0]; omega
  | ⟨1, _⟩ => show win0_14.index t (1 : Fin 2) * 1024 + 1 * q.val = q.val; rw [e1]; omega

/-- What point t writes back is its block of the projection of the whole arrays. -/
theorem flushed14 (c : Dev nD) (t : Fin cfg0.N) :
    (dat0 (F := Ideal) V c).flushed 14 t
      = ((cfg0.win 14).blk t).view.read (Elt Ideal) (Cert.Spec.projQ (V c main_arg0) (V c main_v1) (V c main_arg8)) := by
  show (cfg0.win 14).cut (grid0.coords t) ((dat0 (F := Ideal) V c).after 14 t) = _
  rw [after0_14, out14_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 1024), j = ix2 p q := ⟨j 0, j 1, eq_ix2 (n0 := 512) (n1 := 1024) j⟩
  show tileQ (F := Ideal) (xblk V c t) (wblk3 V c t) (bblk4 V c t) (ix2 p q)
    = Cert.Spec.projQ (xarr V c) (warr3 V c) (barr4 V c) (((cfg0.win 14).blk t).view.emb (ix2 p q))
  refine Eq.trans ?_ (congrArg (Cert.Spec.projQ (xarr V c) (warr3 V c) (barr4 V c)) (emb14 t p q)).symm
  exact tileQ_eq_projQ (xarr V c) (warr3 V c) (barr4 V c) (xblk V c t) (wblk3 V c t) (bblk4 V c t) (row t p) p q
    (fun k => xblk_apply V c t p k) (fun k => wblk3_apply V c t k q) (bblk4_apply V c t q)

/-- An index of the output array is in point t's block iff each coordinate is in the block's range on its axis. -/
theorem mem_blk14 (t : Fin cfg0.N) (i : S2048x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v6_1).slice (win0_14.rect t)).set ↔ _
  rw [View.set_slice_whole, Rect.mem_set_unit]
  exact Iff.rfl

/-- Row r of the output lies in row tile r / 512, which writes back: the four tiles cover the array. -/
theorem cover14 (i : S2048x1024.Idx) :
    ∃ t : Fin cfg0.N, (cfg0.win 14).flush t = true ∧ i ∈ ((cfg0.win 14).blk t).view.set := by
  have hi0 : (i 0).val < 2048 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o14 t
  refine ⟨t, flush0_14 t, ?_⟩
  rw [mem_blk14]
  intro a
  match a with
  | ⟨0, _⟩ =>
    show win0_14.index t (0 : Fin 2) * 512 ≤ (i 0).val ∧ (i 0).val < win0_14.index t (0 : Fin 2) * 512 + 512
    rw [e0, ht]; omega
  | ⟨1, _⟩ =>
    show win0_14.index t (1 : Fin 2) * 1024 ≤ (i 1).val ∧ (i 1).val < win0_14.index t (1 : Fin 2) * 1024 + 1024
    rw [e1]; omega

theorem arr14 (c : Dev nD) :
    (dat0 (F := Ideal) V c).arrAt 14 cfg0.N = Cert.Spec.projQ (V c main_arg0) (V c main_v1) (V c main_arg8) :=
  (dat0 (F := Ideal) V c).arrAt_eq_of_cover 14 (Cert.Spec.projQ (V c main_arg0) (V c main_v1) (V c main_arg8))
    (fun t _ => flushed14 V c t) cover14

/-! ## Output window 15: the 512-wide projection of (x, window 5's weight, window 6's bias) -/

/-- Entry (p, q) of the output's block at point t sits at (512 · t + p, q) of the output array. -/
theorem emb15 (t : Fin cfg0.N) (p : Fin 512) (q : Fin 512) :
    (((cfg0.win 15).blk t).view.emb (ix2 p q) : S2048x512.Idx) = ix2 (row t p) q := by
  obtain ⟨e0, e1⟩ := idx_o15 t
  refine funext fun a => Fin.ext ?_
  match a with
  | ⟨0, _⟩ => show win0_15.index t (0 : Fin 2) * 512 + 1 * p.val = t.val * 512 + p.val; rw [e0]; omega
  | ⟨1, _⟩ => show win0_15.index t (1 : Fin 2) * 512 + 1 * q.val = q.val; rw [e1]; omega

/-- What point t writes back is its block of the projection of the whole arrays. -/
theorem flushed15 (c : Dev nD) (t : Fin cfg0.N) :
    (dat0 (F := Ideal) V c).flushed 15 t
      = ((cfg0.win 15).blk t).view.read (Elt Ideal) (Cert.Spec.projV (V c main_arg0) (V c main_v2) (V c main_arg10)) := by
  show (cfg0.win 15).cut (grid0.coords t) ((dat0 (F := Ideal) V c).after 15 t) = _
  rw [after0_15, out15_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 512), j = ix2 p q := ⟨j 0, j 1, eq_ix2 (n0 := 512) (n1 := 512) j⟩
  show tileV (F := Ideal) (xblk V c t) (wblk5 V c t) (bblk6 V c t) (ix2 p q)
    = Cert.Spec.projV (xarr V c) (warr5 V c) (barr6 V c) (((cfg0.win 15).blk t).view.emb (ix2 p q))
  refine Eq.trans ?_ (congrArg (Cert.Spec.projV (xarr V c) (warr5 V c) (barr6 V c)) (emb15 t p q)).symm
  exact tileV_eq_projV (xarr V c) (warr5 V c) (barr6 V c) (xblk V c t) (wblk5 V c t) (bblk6 V c t) (row t p) p q
    (fun k => xblk_apply V c t p k) (fun k => wblk5_apply V c t k q) (bblk6_apply V c t q)

/-- An index of the output array is in point t's block iff each coordinate is in the block's range on its axis. -/
theorem mem_blk15 (t : Fin cfg0.N) (i : S2048x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v6_2).slice (win0_15.rect t)).set ↔ _
  rw [View.set_slice_whole, Rect.mem_set_unit]
  exact Iff.rfl

/-- Row r of the output lies in row tile r / 512, which writes back: the four tiles cover the array. -/
theorem cover15 (i : S2048x512.Idx) :
    ∃ t : Fin cfg0.N, (cfg0.win 15).flush t = true ∧ i ∈ ((cfg0.win 15).blk t).view.set := by
  have hi0 : (i 0).val < 2048 := (i 0).isLt
  have hi1 : (i 1).val < 512 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o15 t
  refine ⟨t, flush0_15 t, ?_⟩
  rw [mem_blk15]
  intro a
  match a with
  | ⟨0, _⟩ =>
    show win0_15.index t (0 : Fin 2) * 512 ≤ (i 0).val ∧ (i 0).val < win0_15.index t (0 : Fin 2) * 512 + 512
    rw [e0, ht]; omega
  | ⟨1, _⟩ =>
    show win0_15.index t (1 : Fin 2) * 512 ≤ (i 1).val ∧ (i 1).val < win0_15.index t (1 : Fin 2) * 512 + 512
    rw [e1]; omega

theorem arr15 (c : Dev nD) :
    (dat0 (F := Ideal) V c).arrAt 15 cfg0.N = Cert.Spec.projV (V c main_arg0) (V c main_v2) (V c main_arg10) :=
  (dat0 (F := Ideal) V c).arrAt_eq_of_cover 15 (Cert.Spec.projV (V c main_arg0) (V c main_v2) (V c main_arg10))
    (fun t _ => flushed15 V c t) cover15

/-! ## Output window 16: the projection of (x, window 7's weight, window 8's bias) -/

/-- Entry (p, q) of the output's block at point t sits at (512 · t + p, q) of the output array. -/
theorem emb16 (t : Fin cfg0.N) (p : Fin 512) (q : Fin 1024) :
    (((cfg0.win 16).blk t).view.emb (ix2 p q) : S2048x1024.Idx) = ix2 (row t p) q := by
  obtain ⟨e0, e1⟩ := idx_o16 t
  refine funext fun a => Fin.ext ?_
  match a with
  | ⟨0, _⟩ => show win0_16.index t (0 : Fin 2) * 512 + 1 * p.val = t.val * 512 + p.val; rw [e0]; omega
  | ⟨1, _⟩ => show win0_16.index t (1 : Fin 2) * 1024 + 1 * q.val = q.val; rw [e1]; omega

/-- What point t writes back is its block of the projection of the whole arrays. -/
theorem flushed16 (c : Dev nD) (t : Fin cfg0.N) :
    (dat0 (F := Ideal) V c).flushed 16 t
      = ((cfg0.win 16).blk t).view.read (Elt Ideal) (Cert.Spec.projQ (V c main_arg0) (V c main_v3) (V c main_arg12)) := by
  show (cfg0.win 16).cut (grid0.coords t) ((dat0 (F := Ideal) V c).after 16 t) = _
  rw [after0_16, out16_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 1024), j = ix2 p q := ⟨j 0, j 1, eq_ix2 (n0 := 512) (n1 := 1024) j⟩
  show tileQ (F := Ideal) (xblk V c t) (wblk7 V c t) (bblk8 V c t) (ix2 p q)
    = Cert.Spec.projQ (xarr V c) (warr7 V c) (barr8 V c) (((cfg0.win 16).blk t).view.emb (ix2 p q))
  refine Eq.trans ?_ (congrArg (Cert.Spec.projQ (xarr V c) (warr7 V c) (barr8 V c)) (emb16 t p q)).symm
  exact tileQ_eq_projQ (xarr V c) (warr7 V c) (barr8 V c) (xblk V c t) (wblk7 V c t) (bblk8 V c t) (row t p) p q
    (fun k => xblk_apply V c t p k) (fun k => wblk7_apply V c t k q) (bblk8_apply V c t q)

/-- An index of the output array is in point t's block iff each coordinate is in the block's range on its axis. -/
theorem mem_blk16 (t : Fin cfg0.N) (i : S2048x1024.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v6_3).slice (win0_16.rect t)).set ↔ _
  rw [View.set_slice_whole, Rect.mem_set_unit]
  exact Iff.rfl

/-- Row r of the output lies in row tile r / 512, which writes back: the four tiles cover the array. -/
theorem cover16 (i : S2048x1024.Idx) :
    ∃ t : Fin cfg0.N, (cfg0.win 16).flush t = true ∧ i ∈ ((cfg0.win 16).blk t).view.set := by
  have hi0 : (i 0).val < 2048 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o16 t
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    rw [e0, ht]; omega
  | ⟨1, _⟩ =>
    show win0_16.index t (1 : Fin 2) * 1024 ≤ (i 1).val ∧ (i 1).val < win0_16.index t (1 : Fin 2) * 1024 + 1024
    rw [e1]; omega

theorem arr16 (c : Dev nD) :
    (dat0 (F := Ideal) V c).arrAt 16 cfg0.N = Cert.Spec.projQ (V c main_arg0) (V c main_v3) (V c main_arg12) :=
  (dat0 (F := Ideal) V c).arrAt_eq_of_cover 16 (Cert.Spec.projQ (V c main_arg0) (V c main_v3) (V c main_arg12))
    (fun t _ => flushed16 V c t) cover16

/-! ## Output window 17: the projection of (x, window 9's weight, window 10's bias) -/

/-- Entry (p, q) of the output's block at point t sits at (512 · t + p, q) of the output array. -/
theorem emb17 (t : Fin cfg0.N) (p : Fin 512) (q : Fin 1024) :
    (((cfg0.win 17).blk t).view.emb (ix2 p q) : S2048x1024.Idx) = ix2 (row t p) q := by
  obtain ⟨e0, e1⟩ := idx_o17 t
  refine funext fun a => Fin.ext ?_
  match a with
  | ⟨0, _⟩ => show win0_17.index t (0 : Fin 2) * 512 + 1 * p.val = t.val * 512 + p.val; rw [e0]; omega
  | ⟨1, _⟩ => show win0_17.index t (1 : Fin 2) * 1024 + 1 * q.val = q.val; rw [e1]; omega

/-- What point t writes back is its block of the projection of the whole arrays. -/
theorem flushed17 (c : Dev nD) (t : Fin cfg0.N) :
    (dat0 (F := Ideal) V c).flushed 17 t
      = ((cfg0.win 17).blk t).view.read (Elt Ideal) (Cert.Spec.projQ (V c main_arg0) (V c main_v4) (V c main_arg14)) := by
  show (cfg0.win 17).cut (grid0.coords t) ((dat0 (F := Ideal) V c).after 17 t) = _
  rw [after0_17, out17_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 1024), j = ix2 p q := ⟨j 0, j 1, eq_ix2 (n0 := 512) (n1 := 1024) j⟩
  show tileQ (F := Ideal) (xblk V c t) (wblk9 V c t) (bblk10 V c t) (ix2 p q)
    = Cert.Spec.projQ (xarr V c) (warr9 V c) (barr10 V c) (((cfg0.win 17).blk t).view.emb (ix2 p q))
  refine Eq.trans ?_ (congrArg (Cert.Spec.projQ (xarr V c) (warr9 V c) (barr10 V c)) (emb17 t p q)).symm
  exact tileQ_eq_projQ (xarr V c) (warr9 V c) (barr10 V c) (xblk V c t) (wblk9 V c t) (bblk10 V c t) (row t p) p q
    (fun k => xblk_apply V c t p k) (fun k => wblk9_apply V c t k q) (bblk10_apply V c t q)

/-- An index of the output array is in point t's block iff each coordinate is in the block's range on its axis. -/
theorem mem_blk17 (t : Fin cfg0.N) (i : S2048x1024.Idx) :
    i ∈ ((cfg0.win 17).blk t).view.set ↔ ∀ a : Fin 2, win0_17.index t a * S512x1024.size a ≤ (i a).val ∧ (i a).val < win0_17.index t a * S512x1024.size a + S512x1024.size a := by
  show i ∈ ((View.whole main_v6_4).slice (win0_17.rect t)).set ↔ _
  rw [View.set_slice_whole, Rect.mem_set_unit]
  exact Iff.rfl

/-- Row r of the output lies in row tile r / 512, which writes back: the four tiles cover the array. -/
theorem cover17 (i : S2048x1024.Idx) :
    ∃ t : Fin cfg0.N, (cfg0.win 17).flush t = true ∧ i ∈ ((cfg0.win 17).blk t).view.set := by
  have hi0 : (i 0).val < 2048 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o17 t
  refine ⟨t, flush0_17 t, ?_⟩
  rw [mem_blk17]
  intro a
  match a with
  | ⟨0, _⟩ =>
    show win0_17.index t (0 : Fin 2) * 512 ≤ (i 0).val ∧ (i 0).val < win0_17.index t (0 : Fin 2) * 512 + 512
    rw [e0, ht]; omega
  | ⟨1, _⟩ =>
    show win0_17.index t (1 : Fin 2) * 1024 ≤ (i 1).val ∧ (i 1).val < win0_17.index t (1 : Fin 2) * 1024 + 1024
    rw [e1]; omega

theorem arr17 (c : Dev nD) :
    (dat0 (F := Ideal) V c).arrAt 17 cfg0.N = Cert.Spec.projQ (V c main_arg0) (V c main_v4) (V c main_arg14) :=
  (dat0 (F := Ideal) V c).arrAt_eq_of_cover 17 (Cert.Spec.projQ (V c main_arg0) (V c main_v4) (V c main_arg14))
    (fun t _ => flushed17 V c t) cover17

/-! ## Output window 18: the 512-wide projection of (x, window 11's weight, window 12's bias) -/

/-- Entry (p, q) of the output's block at point t sits at (512 · t + p, q) of the output array. -/
theorem emb18 (t : Fin cfg0.N) (p : Fin 512) (q : Fin 512) :
    (((cfg0.win 18).blk t).view.emb (ix2 p q) : S2048x512.Idx) = ix2 (row t p) q := by
  obtain ⟨e0, e1⟩ := idx_o18 t
  refine funext fun a => Fin.ext ?_
  match a with
  | ⟨0, _⟩ => show win0_18.index t (0 : Fin 2) * 512 + 1 * p.val = t.val * 512 + p.val; rw [e0]; omega
  | ⟨1, _⟩ => show win0_18.index t (1 : Fin 2) * 512 + 1 * q.val = q.val; rw [e1]; omega

/-- What point t writes back is its block of the projection of the whole arrays. -/
theorem flushed18 (c : Dev nD) (t : Fin cfg0.N) :
    (dat0 (F := Ideal) V c).flushed 18 t
      = ((cfg0.win 18).blk t).view.read (Elt Ideal) (Cert.Spec.projV (V c main_arg0) (V c main_v5) (V c main_arg16)) := by
  show (cfg0.win 18).cut (grid0.coords t) ((dat0 (F := Ideal) V c).after 18 t) = _
  rw [after0_18, out18_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  funext j
  obtain ⟨p, q, rfl⟩ : ∃ (p : Fin 512) (q : Fin 512), j = ix2 p q := ⟨j 0, j 1, eq_ix2 (n0 := 512) (n1 := 512) j⟩
  show tileV (F := Ideal) (xblk V c t) (wblk11 V c t) (bblk12 V c t) (ix2 p q)
    = Cert.Spec.projV (xarr V c) (warr11 V c) (barr12 V c) (((cfg0.win 18).blk t).view.emb (ix2 p q))
  refine Eq.trans ?_ (congrArg (Cert.Spec.projV (xarr V c) (warr11 V c) (barr12 V c)) (emb18 t p q)).symm
  exact tileV_eq_projV (xarr V c) (warr11 V c) (barr12 V c) (xblk V c t) (wblk11 V c t) (bblk12 V c t) (row t p) p q
    (fun k => xblk_apply V c t p k) (fun k => wblk11_apply V c t k q) (bblk12_apply V c t q)

/-- An index of the output array is in point t's block iff each coordinate is in the block's range on its axis. -/
theorem mem_blk18 (t : Fin cfg0.N) (i : S2048x512.Idx) :
    i ∈ ((cfg0.win 18).blk t).view.set ↔ ∀ a : Fin 2, win0_18.index t a * S512x512.size a ≤ (i a).val ∧ (i a).val < win0_18.index t a * S512x512.size a + S512x512.size a := by
  show i ∈ ((View.whole main_v6_5).slice (win0_18.rect t)).set ↔ _
  rw [View.set_slice_whole, Rect.mem_set_unit]
  exact Iff.rfl

/-- Row r of the output lies in row tile r / 512, which writes back: the four tiles cover the array. -/
theorem cover18 (i : S2048x512.Idx) :
    ∃ t : Fin cfg0.N, (cfg0.win 18).flush t = true ∧ i ∈ ((cfg0.win 18).blk t).view.set := by
  have hi0 : (i 0).val < 2048 := (i 0).isLt
  have hi1 : (i 1).val < 512 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_o18 t
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    rw [e0, ht]; omega
  | ⟨1, _⟩ =>
    show win0_18.index t (1 : Fin 2) * 512 ≤ (i 1).val ∧ (i 1).val < win0_18.index t (1 : Fin 2) * 512 + 512
    rw [e1]; omega

theorem arr18 (c : Dev nD) :
    (dat0 (F := Ideal) V c).arrAt 18 cfg0.N = Cert.Spec.projV (V c main_arg0) (V c main_v5) (V c main_arg16) :=
  (dat0 (F := Ideal) V c).arrAt_eq_of_cover 18 (Cert.Spec.projV (V c main_arg0) (V c main_v5) (V c main_arg16))
    (fun t _ => flushed18 V c t) cover18

end Cert.KernelIdeal.ProjValue

end
-- ==== Proof.AttnValue.lean ====
/-
  The second launch (the two attentions), read as values at the exact instance: each of its two output arrays, after
  the launch's sixteen row tiles have been written back, is the attention output of the arrays the launch finds in
  its input windows — queries, keys, values and the additive term of its own half.

  One head is the scores q·kᵀ times the scale plus the additive term, a softmax along the row, and the product with
  the values; every head of either attention is that one function of its four loaded slices, whatever way its
  operations were grouped into named intermediate values.

  A tile's block is eight heads' tiles side by side, each the one head function of its head's slices; tile t holds
  rows 128·t … 128·t + 127 of every head, the keys and values are read whole, and row n lies in tile n / 128.
-/
import proofs.«416605_j68384469286920_2_alg».proof.Proof.Gen.KernelIdeal.Frame
import proofs.«416605_j68384469286920_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The head, stage by stage, at any float instance -/

section Stages
variable {F : FTy → Type} [FloatOps F]

/-- The scaled scores of a 128-row tile against all 2048 keys: (q · kᵀ) · scale. -/
def scoresT (q : Vec F S1x128x128 .bf16) (k : Vec F S1x2048x128 .bf16) : FVec F S128x2048 .f32 :=
  mulf (matmul dot_S128x128_S2048x128_S128x2048_1_1_0_0_n_n none
      (shapeCast S128x128 q shapeCasts_S1x128x128_S128x128) (shapeCast S2048x128 k shapeCasts_S1x2048x128_S2048x128)
      (constant S128x2048 .f32 0x00000000#32))
    (broadcast S128x2048 (Scalar.ofBits .f32 0x3DB504F3#32 : F .f32))

/-- The additive term of the tile, widened. -/
def biasT (a : Vec F S1x128x2048 .bf16) : FVec F S128x2048 .f32 :=
  extf .f32 (shapeCast S128x2048 a shapeCasts_S1x128x2048_S128x2048) bitsLt_bf16_f32

/-- The logits of the tile. -/
def logitsT (q : Vec F S1x128x128 .bf16) (k : Vec F S1x2048x128 .bf16) (a : Vec F S1x128x2048 .bf16) :
    FVec F S128x2048 .f32 :=
  addf (scoresT q k) (biasT a)

/-- Each row's maximum, repeated along the row. -/
def rowMaxT (l : FVec F S128x2048 .f32) : FVec F S128x2048 .f32 :=
  broadcastTo S128x2048
    (shapeCast S128x1 (multiReduction .maximumf [1] S128 l 0xFF800000#32 reduces_S128x2048_S128 (.inl rfl) rfl)
      shapeCasts_S128_S128x1)
    broadcasts_S128x1_S128x2048

/-- The exponentials of the entries less their row's maximum. -/
def expT (l : FVec F S128x2048 .f32) : FVec F S128x2048 .f32 := exp (subf l (rowMaxT l))

/-- Each row's sum, repeated along the row. -/
def rowSumT (e : FVec F S128x2048 .f32) : FVec F S128x2048 .f32 :=
  broadcastTo S128x2048
    (shapeCast S128x1 (multiReduction .add [1] S128 e 0x00000000#32 reduces_S128x2048_S128 (.inl rfl) rfl)
      shapeCasts_S128_S128x1)
    broadcasts_S128x1_S128x2048

/-- The softmax of every row. -/
def softT (l : FVec F S128x2048 .f32) : FVec F S128x2048 .f32 := divf (expT l) (rowSumT (expT l))

/-- The weights times the values, into zero. -/
def mixT (p : FVec F S128x2048 .f32) (v : Vec F S1x2048x64 .bf16) : FVec F S128x64 .f32 :=
  matmul dot_S128x2048_S2048x64_S128x64_1_0_0_1_n_n none (truncf .bf16 p bitsLt_bf16_f32)
    (shapeCast S2048x64 v shapeCasts_S1x2048x64_S2048x64) (constant S128x64 .f32 0x00000000#32)

/-- One head's output tile from its four loaded slices. -/
def headOut (q : Vec F S1x128x128 .bf16) (k : Vec F S1x2048x128 .bf16) (v : Vec F S1x2048x64 .bf16)
    (a : Vec F S1x128x2048 .bf16) : FVec F S1x128x64 .f32 :=
  shapeCast S1x128x64 (mixT (softT (logitsT q k a)) v) shapeCasts_S128x64_S1x128x64

/-! ## Every head of either attention is that function

The eight heads were grouped into named values in eight different ways; each grouping unfolds to the same chain. -/

variable (q : Vec F S1x128x128 .bf16) (k : Vec F S1x2048x128 .bf16) (v : Vec F S1x2048x64 .bf16)
  (a : Vec F S1x128x2048 .bf16)

theorem pay8_0 : k1_pay8 (k1_pay3 v) (k1_pay7 q k a) = headOut q k v a := rfl
theorem pay8_1 : k1_pay17 (k1_pay15 (k1_pay10 q) (k1_pay12 k) v a) = headOut q k v a := rfl
theorem pay8_2 : k1_pay23 (k1_pay19 v) (k1_pay21 q k) a = headOut q k v a := rfl
theorem pay8_3 : k1_pay31 (k1_pay26 v) (k1_pay28 (k1_pay25 q) k a) = headOut q k v a := rfl
theorem pay8_4 : k1_pay40 (k1_pay33 q) (k1_pay35 k) (k1_pay37 v) a = headOut q k v a := rfl
theorem pay8_5 : k1_pay47 (k1_pay42 v) (k1_pay46 q k a) = headOut q k v a := rfl
theorem pay8_6 : k1_pay56 (k1_pay52 v) (k1_pay54 (k1_pay49 q) (k1_pay51 k) a) = headOut q k v a := rfl
theorem pay8_7 : k1_pay1 (k1_pay63 (k1_pay58 v) (k1_pay60 q k) a) = headOut q k v a := rfl

theorem pay9_0 : k1_pay9 (k1_pay4 v) (k1_pay5 q k) (k1_pay6 a) = headOut q k v a := rfl
theorem pay9_1 : k1_pay18 (k1_pay14 v) (k1_pay16 (k1_pay11 q) (k1_pay13 k) a) (constant S128x64 .f32 0x00000000#32)
    = headOut q k v a := rfl
theorem pay9_2 : k1_pay24 (k1_pay20 v) (k1_pay22 q k) a = headOut q k v a := rfl
theorem pay9_3 : k1_pay32 (k1_pay27 v) (k1_pay29 q k a) (k1_pay30 q k a) = headOut q k v a := rfl
theorem pay9_4 : k1_pay41 (k1_pay39 (k1_pay34 q) (k1_pay36 k) (k1_pay38 v) a) = headOut q k v a := rfl
theorem pay9_5 : k1_pay48 (k1_pay43 v) (k1_pay44 q k) (k1_pay45 a) = headOut q k v a := rfl
theorem pay9_6 : k1_pay57 (k1_pay53 v) (k1_pay55 (k1_pay50 q) k a) = headOut q k v a := rfl
theorem pay9_7 : k1_pay2 (k1_pay64 (k1_pay59 v) (k1_pay61 q k) (k1_pay62 (F := F)) a) = headOut q k v a := rfl

end Stages

/-! ## Layout steps at an index: a column [a] → [a, 1] → [a, b] -/

section Column
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two contractions at an index -/

theorem lhs_qk_0 (i : S128x2048.Idx) (c : dot_S128x128_S2048x128_S128x2048_1_1_0_0_n_n.contr.Idx) :
    (dot_S128x128_S2048x128_S128x2048_1_1_0_0_n_n.lhsIdx i c 0).val = (i 0).val := by
  unfold DotDims.lhsIdx
  rw [dif_neg (show ¬(0 : Fin S128x128.rank) ∈ dot_S128x128_S2048x128_S128x2048_1_1_0_0_n_n.lhsBatch by decide), dif_pos (show (0 : Fin S128x128.rank) ∈ dot_S128x128_S2048x128_S128x2048_1_1_0_0_n_n.lhsNonContracting by decide)]
  rfl
theorem lhs_qk_1 (i : S128x2048.Idx) (c : dot_S128x128_S2048x128_S128x2048_1_1_0_0_n_n.contr.Idx) :
    (dot_S128x128_S2048x128_S128x2048_1_1_0_0_n_n.lhsIdx i c 1).val = (c ⟨0, by decide⟩).val :=
  dot_S128x128_S2048x128_S128x2048_1_1_0_0_n_n.lhsIdx_val_of_single rfl i c
theorem rhs_qk_0 (i : S128x2048.Idx) (c : dot_S128x128_S2048x128_S128x2048_1_1_0_0_n_n.contr.Idx) :
    (dot_S128x128_S2048x128_S128x2048_1_1_0_0_n_n.rhsIdx i c 0).val = (i 1).val := by
  unfold DotDims.rhsIdx
  rw [dif_neg (show ¬(0 : Fin S2048x128.rank) ∈ dot_S128x128_S2048x128_S128x2048_1_1_0_0_n_n.rhsBatch by decide), dif_pos (show (0 : Fin S2048x128.rank) ∈ dot_S128x128_S2048x128_S128x2048_1_1_0_0_n_n.rhsNonContracting by decide)]
  rfl
theorem rhs_qk_1 (i : S128x2048.Idx) (c : dot_S128x128_S2048x128_S128x2048_1_1_0_0_n_n.contr.Idx) :
    (dot_S128x128_S2048x128_S128x2048_1_1_0_0_n_n.rhsIdx i c 1).val = (c ⟨0, by decide⟩).val :=
  dot_S128x128_S2048x128_S128x2048_1_1_0_0_n_n.rhsIdx_val_of_single rfl i c

/-- q · kᵀ into zero at (r, m): the sum over the 128 features of q[r, e] · k[m, e]. -/
theorem mm_qk_apply (Q : FVec Ideal S128x128 .bf16) (K : FVec Ideal S2048x128 .bf16) (r : Fin 128) (m : Fin 2048) :
    matmul dot_S128x128_S2048x128_S128x2048_1_1_0_0_n_n none Q K (constant S128x2048 .f32 0x00000000#32) (ix2 r m)
      = ∑ e : Fin 128, Q (ix2 r e) * K (ix2 m e) := by
  simp only [matmul]
  rw [Ideal.matmul_constant_zero_apply, ← Equiv.sum_comp (ValueIdx.contrEquiv1 dot_S128x128_S2048x128_S128x2048_1_1_0_0_n_n 128 rfl rfl).symm]
  refine Finset.sum_congr rfl fun e _ => ?_
  have hk := ValueIdx.contrEquiv1_symm_val dot_S128x128_S2048x128_S128x2048_1_1_0_0_n_n 128 rfl rfl e
  have el : dot_S128x128_S2048x128_S128x2048_1_1_0_0_n_n.lhsIdx (ix2 r m) ((ValueIdx.contrEquiv1 dot_S128x128_S2048x128_S128x2048_1_1_0_0_n_n 128 rfl rfl).symm e) = ix2 r e := funext fun a => Fin.ext (by
    match a with
    | ⟨0, _⟩ => exact lhs_qk_0 _ _
    | ⟨1, _⟩ => exact (lhs_qk_1 _ _).trans hk)
  have er : dot_S128x128_S2048x128_S128x2048_1_1_0_0_n_n.rhsIdx (ix2 r m) ((ValueIdx.contrEquiv1 dot_S128x128_S2048x128_S128x2048_1_1_0_0_n_n 128 rfl rfl).symm e) = ix2 m e := funext fun a => Fin.ext (by
    match a with
    | ⟨0, _⟩ => exact rhs_qk_0 _ _
    | ⟨1, _⟩ => exact (rhs_qk_1 _ _).trans hk)
  rw [el, er]

theorem lhs_pv_0 (i : S128x64.Idx) (c : dot_S128x2048_S2048x64_S128x64_1_0_0_1_n_n.contr.Idx) :
    (dot_S128x2048_S2048x64_S128x64_1_0_0_1_n_n.lhsIdx i c 0).val = (i 0).val := by
  unfold DotDims.lhsIdx
  rw [dif_neg (show ¬(0 : Fin S128x2048.rank) ∈ dot_S128x2048_S2048x64_S128x64_1_0_0_1_n_n.lhsBatch by decide), dif_pos (show (0 : Fin S128x2048.rank) ∈ dot_S128x2048_S2048x64_S128x64_1_0_0_1_n_n.lhsNonContracting by decide)]
  rfl
theorem lhs_pv_1 (i : S128x64.Idx) (c : dot_S128x2048_S2048x64_S128x64_1_0_0_1_n_n.contr.Idx) :
    (dot_S128x2048_S2048x64_S128x64_1_0_0_1_n_n.lhsIdx i c 1).val = (c ⟨0, by decide⟩).val :=
  dot_S128x2048_S2048x64_S128x64_1_0_0_1_n_n.lhsIdx_val_of_single rfl i c
theorem rhs_pv_0 (i : S128x64.Idx) (c : dot_S128x2048_S2048x64_S128x64_1_0_0_1_n_n.contr.Idx) :
    (dot_S128x2048_S2048x64_S128x64_1_0_0_1_n_n.rhsIdx i c 0).val = (c ⟨0, by decide⟩).val :=
  dot_S128x2048_S2048x64_S128x64_1_0_0_1_n_n.rhsIdx_val_of_single rfl i c
theorem rhs_pv_1 (i : S128x64.Idx) (c : dot_S128x2048_S2048x64_S128x64_1_0_0_1_n_n.contr.Idx) :
    (dot_S128x2048_S2048x64_S128x64_1_0_0_1_n_n.rhsIdx i c 1).val = (i 1).val := by
  unfold DotDims.rhsIdx
  rw [dif_neg (show ¬(1 : Fin S2048x64.rank) ∈ dot_S128x2048_S2048x64_S128x64_1_0_0_1_n_n.rhsBatch by decide), dif_pos (show (1 : Fin S2048x64.rank) ∈ dot_S128x2048_S2048x64_S128x64_1_0_0_1_n_n.rhsNonContracting by decide)]
  rfl

/-- weights · values into zero at (r, d): the sum over the 2048 keys of p[r, m] · v[m, d]. -/
theorem mm_pv_apply (P : FVec Ideal S128x2048 .bf16) (W : FVec Ideal S2048x64 .bf16) (r : Fin 128) (d : Fin 64) :
    matmul dot_S128x2048_S2048x64_S128x64_1_0_0_1_n_n none P W (constant S128x64 .f32 0x00000000#32) (ix2 r d)
      = ∑ m : Fin 2048, P (ix2 r m) * W (ix2 m d) := by
  simp only [matmul]
  rw [Ideal.matmul_constant_zero_apply, ← Equiv.sum_comp (ValueIdx.contrEquiv1 dot_S128x2048_S2048x64_S128x64_1_0_0_1_n_n 2048 rfl rfl).symm]
  refine Finset.sum_congr rfl fun m _ => ?_
  have hk := ValueIdx.contrEquiv1_symm_val dot_S128x2048_S2048x64_S128x64_1_0_0_1_n_n 2048 rfl rfl m
  have el : dot_S128x2048_S2048x64_S128x64_1_0_0_1_n_n.lhsIdx (ix2 r d) ((ValueIdx.contrEquiv1 dot_S128x2048_S2048x64_S128x64_1_0_0_1_n_n 2048 rfl rfl).symm m) = ix2 r m := funext fun a => Fin.ext (by
    match a with
    | ⟨0, _⟩ => exact lhs_pv_0 _ _
    | ⟨1, _⟩ => exact (lhs_pv_1 _ _).trans hk)
  have er : dot_S128x2048_S2048x64_S128x64_1_0_0_1_n_n.rhsIdx (ix2 r d) ((ValueIdx.contrEquiv1 dot_S128x2048_S2048x64_S128x64_1_0_0_1_n_n 2048 rfl rfl).symm m) = ix2 m d := funext fun a => Fin.ext (by
    match a with
    | ⟨0, _⟩ => exact (rhs_pv_0 _ _).trans hk
    | ⟨1, _⟩ => exact rhs_pv_1 _ _)
  rw [el, er]

/-! ## The row reductions at an index -/

/-- The f32 word of −∞ is the least extended real. -/
theorem negInf_bits : Ideal.ofBits .f32 0xFF800000#32 = ⊥ := by simp [Ideal.ofBits, Ideal.ieee]

/-- Row r with column m inserted is the entry (r, m). -/
theorem lift_row (r : Fin 128) (m : Fin 2048) : reduces_S128x2048_S128.lift (ix1 r) m = ix2 r m :=
  funext fun c => Fin.ext (by
    match c with
    | ⟨0, _⟩ => rfl
    | ⟨1, _⟩ => rfl)

/-- The row maximum of a [128, 2048] tile from −∞, at row r, is the row's maximum taken from −∞. -/
theorem rowMax_read (l : FVec Ideal S128x2048 .f32) (r : Fin 128) :
    multiReduction .maximumf [1] S128 l 0xFF800000#32 reduces_S128x2048_S128 (.inl rfl) rfl (ix1 r)
      = Cert.Spec.rowMax (fun m' : Fin 2048 => l (ix2 r m')) := by
  refine (Ideal.multiReduction_maximumf_single l 0xFF800000#32 reduces_S128x2048_S128 (.inl rfl) rfl (ix1 r)).trans ?_
  have hf : (l ∘ reduces_S128x2048_S128.lift (ix1 r)) = fun m' : Fin 2048 => l (ix2 r m') :=
    funext fun m' => congrArg l (lift_row r m')
  have hb : (FloatOps.ofBits (F := Ideal) .f32 0xFF800000#32 : EReal) = ⊥ := negInf_bits
  exact congrArg₂ (fun (b : EReal) (f : Fin 2048 → EReal) => Finset.fold max b f (Finset.univ : Finset (Fin 2048))) hb hf

/-- The row sum of a [128, 2048] tile, at row r. -/
theorem rowSum_read (e : FVec Ideal S128x2048 .f32) (r : Fin 128) :
    multiReduction .add [1] S128 e 0x00000000#32 reduces_S128x2048_S128 (.inl rfl) rfl (ix1 r)
      = ∑ m' : Fin 2048, e (ix2 r m') :=
  (Ideal.multiReduction_add_single e 0x00000000#32 reduces_S128x2048_S128 (.inl rfl) rfl (ix1 r)).trans
    (Finset.sum_congr rfl fun m' _ => congrArg e (lift_row r m'))

/-! ## The stages at an index, at the exact instance -/

theorem scoresT_apply (q : Vec Ideal S1x128x128 .bf16) (k : Vec Ideal S1x2048x128 .bf16) (r : Fin 128) (m : Fin 2048) :
    scoresT (F := Ideal) q k (ix2 r m)
      = (∑ e : Fin 128, q (ix3 (0 : Fin 1) r e) * k (ix3 (0 : Fin 1) m e)) * Cert.Spec.scale := by
  show (matmul (F := Ideal) dot_S128x128_S2048x128_S128x2048_1_1_0_0_n_n none
      (shapeCast S128x128 q shapeCasts_S1x128x128_S128x128) (shapeCast S2048x128 k shapeCasts_S1x2048x128_S2048x128)
      (constant S128x2048 .f32 0x00000000#32) (ix2 r m) : EReal) * Cert.Spec.scale = _
  refine congrArg (fun x : EReal => x * Cert.Spec.scale) ?_
  refine (mm_qk_apply _ _ r m).trans (Finset.sum_congr rfl fun e _ => ?_)
  exact congrArg₂ (fun x y : EReal => x * y) (shapeCast_1ab_ab_apply q shapeCasts_S1x128x128_S128x128 r e)
    (shapeCast_1ab_ab_apply k shapeCasts_S1x2048x128_S2048x128 m e)

theorem biasT_apply (a : Vec Ideal S1x128x2048 .bf16) (r : Fin 128) (m : Fin 2048) :
    biasT (F := Ideal) a (ix2 r m) = a (ix3 (0 : Fin 1) r m) :=
  shapeCast_1ab_ab_apply a shapeCasts_S1x128x2048_S128x2048 r m

theorem logitsT_apply (q : Vec Ideal S1x128x128 .bf16) (k : Vec Ideal S1x2048x128 .bf16) (a : Vec Ideal S1x128x2048 .bf16)
    (r : Fin 128) (m : Fin 2048) :
    logitsT (F := Ideal) q k a (ix2 r m)
      = (∑ e : Fin 128, q (ix3 (0 : Fin 1) r e) * k (ix3 (0 : Fin 1) m e)) * Cert.Spec.scale + a (ix3 (0 : Fin 1) r m) := by
  show (scoresT (F := Ideal) q k (ix2 r m) : EReal) + biasT (F := Ideal) a (ix2 r m) = _
  rw [scoresT_apply, biasT_apply]

theorem rowMaxT_apply (l : FVec Ideal S128x2048 .f32) (r : Fin 128) (m : Fin 2048) :
    rowMaxT l (ix2 r m) = Cert.Spec.rowMax (fun m' : Fin 2048 => l (ix2 r m')) := by
  unfold rowMaxT
  refine (broadcastTo_a1_ab_apply _ broadcasts_S128x1_S128x2048 r m).trans ?_
  refine (shapeCast_a_a1_apply _ shapeCasts_S128_S128x1 r (0 : Fin 1)).trans ?_
  exact rowMax_read l r

theorem expT_apply (l : FVec Ideal S128x2048 .f32) (r : Fin 128) (m : Fin 2048) :
    expT l (ix2 r m) = Ideal.exp (l (ix2 r m) - Cert.Spec.rowMax (fun m' : Fin 2048 => l (ix2 r m'))) := by
  show Ideal.exp ((l (ix2 r m) : EReal) - rowMaxT l (ix2 r m)) = _
  rw [rowMaxT_apply]

theorem rowSumT_apply (e : FVec Ideal S128x2048 .f32) (r : Fin 128) (m : Fin 2048) :
    rowSumT e (ix2 r m) = ∑ m' : Fin 2048, e (ix2 r m') := by
  unfold rowSumT
  refine (broadcastTo_a1_ab_apply _ broadcasts_S128x1_S128x2048 r m).trans ?_
  refine (shapeCast_a_a1_apply _ shapeCasts_S128_S128x1 r (0 : Fin 1)).trans ?_
  exact rowSum_read e r

/-- The softmax tile at (r, m) is the softmax of row r at m. -/
theorem softT_apply (l : FVec Ideal S128x2048 .f32) (r : Fin 128) (m : Fin 2048) :
    softT l (ix2 r m) = Cert.Spec.smx (fun m' : Fin 2048 => l (ix2 r m')) m := by
  show Ideal.div (expT l (ix2 r m)) (rowSumT (expT l) (ix2 r m)) = _
  rw [rowSumT_apply, expT_apply]
  unfold Cert.Spec.smx
  exact congrArg (Ideal.div _) (Finset.sum_congr rfl fun m' _ => expT_apply l r m')

/-- ONE HEAD AT AN ENTRY: the softmax of the row of logits, against the values' column. -/
theorem headOut_apply (q : Vec Ideal S1x128x128 .bf16) (k : Vec Ideal S1x2048x128 .bf16) (v : Vec Ideal S1x2048x64 .bf16)
    (a : Vec Ideal S1x128x2048 .bf16) (u : Fin 1) (r : Fin 128) (d : Fin 64) :
    headOut (F := Ideal) q k v a (ix3 u r d)
      = ∑ m : Fin 2048, Cert.Spec.smx (fun m' : Fin 2048 =>
            (∑ e : Fin 128, q (ix3 (0 : Fin 1) r e) * k (ix3 (0 : Fin 1) m' e)) * Cert.Spec.scale + a (ix3 (0 : Fin 1) r m')) m
          * v (ix3 (0 : Fin 1) m d) := by
  unfold headOut
  refine (shapeCast_ab_1ab_apply _ shapeCasts_S128x64_S1x128x64 u r d).trans ?_
  unfold mixT
  refine (mm_pv_apply _ _ r d).trans (Finset.sum_congr rfl fun m _ => ?_)
  refine congrArg₂ (fun x y : EReal => x * y) ?_ (shapeCast_1ab_ab_apply v shapeCasts_S1x2048x64_S2048x64 m d)
  show softT (logitsT (F := Ideal) q k a) (ix2 r m) = _
  rw [softT_apply]
  exact congrArg (fun z : Fin 2048 → EReal => Cert.Spec.smx z m) (funext fun m' => logitsT_apply q k a r m')

/-! ## A head's tile inside the block of all eight -/

/-- The attention output of head h, row r, column d, from four blocks indexed by head. -/
def attnAt (x0 : Vec Ideal S8x128x128 .bf16) (x2 : Vec Ideal S8x2048x128 .bf16) (x4 : Vec Ideal S8x2048x64 .bf16)
    (x6 : Vec Ideal S8x128x2048 .bf16) (h : Fin 8) (r : Fin 128) (d : Fin 64) : EReal :=
  ∑ m : Fin 2048, Cert.Spec.smx (fun m' : Fin 2048 =>
        (∑ e : Fin 128, x0 (ix3 h r e) * x2 (ix3 h m' e)) * Cert.Spec.scale + x6 (ix3 h r m')) m
      * x4 (ix3 h m d)

/-- The same as a function of the output block's index. -/
def attnB (x0 : Vec Ideal S8x128x128 .bf16) (x2 : Vec Ideal S8x2048x128 .bf16) (x4 : Vec Ideal S8x2048x64 .bf16)
    (x6 : Vec Ideal S8x128x2048 .bf16) : S8x128x64.Idx → EReal :=
  fun y => attnAt x0 x2 x4 x6 (y 0) (y 1) (y 2)

/-- A head computed from slices that read the blocks at head h is the block function at head h. -/
theorem headOut_of_reads (x0 : Vec Ideal S8x128x128 .bf16) (x2 : Vec Ideal S8x2048x128 .bf16)
    (x4 : Vec Ideal S8x2048x64 .bf16) (x6 : Vec Ideal S8x128x2048 .bf16) (h : Fin 8)
    (q : Vec Ideal S1x128x128 .bf16) (k : Vec Ideal S1x2048x128 .bf16) (v : Vec Ideal S1x2048x64 .bf16)
    (a : Vec Ideal S1x128x2048 .bf16)
    (hq : ∀ (r : Fin 128) (e : Fin 128), q (ix3 (0 : Fin 1) r e) = x0 (ix3 h r e))
    (hk : ∀ (m : Fin 2048) (e : Fin 128), k (ix3 (0 : Fin 1) m e) = x2 (ix3 h m e))
    (hv : ∀ (m : Fin 2048) (d : Fin 64), v (ix3 (0 : Fin 1) m d) = x4 (ix3 h m d))
    (ha : ∀ (r : Fin 128) (m : Fin 2048), a (ix3 (0 : Fin 1) r m) = x6 (ix3 h r m))
    (u : Fin 1) (r : Fin 128) (d : Fin 64) :
    headOut (F := Ideal) q k v a (ix3 u r d) = attnAt x0 x2 x4 x6 h r d := by
  rw [headOut_apply]
  unfold attnAt
  simp only [hq, hk, hv, ha]

/-- The slice of head h of a block [8, n1, n2], at (u, i, j), sits in the block at (h, i, j). -/
theorem headRect_idx {n1 n2 : ℕ} (h : Fin 8)
    (inb : ∀ a, (![h.val, 0, 0] : Fin 3 → ℕ) a + (⟨3, ![1, n1, n2]⟩ : Shape).size a ≤ (⟨3, ![8, n1, n2]⟩ : Shape).size a)
    (u : Fin 1) (i : Fin n1) (j : Fin n2) :
    (Rect.unit (s := ⟨3, ![8, n1, n2]⟩) ![h.val, 0, 0] (⟨3, ![1, n1, n2]⟩ : Shape).size inb).idx (ix3 u i j) = ix3 h i j :=
  funext fun a => Fin.ext (by
    have hu : u.val = 0 := by omega
    match a with
    | ⟨0, _⟩ => show h.val + 1 * u.val = h.val; omega
    | ⟨1, _⟩ => show 0 + 1 * i.val = i.val; omega
    | ⟨2, _⟩ => show 0 + 1 * j.val = j.val; omega)

/-! ## One stored piece is the block function under its rectangle -/

/-- A piece computed as the head function of the four slices of head h is the block function at the piece's indices. -/
theorem piece_ok (x0 : Vec Ideal S8x128x128 .bf16) (x2 : Vec Ideal S8x2048x128 .bf16) (x4 : Vec Ideal S8x2048x64 .bf16)
    (x6 : Vec Ideal S8x128x2048 .bf16) (h : Fin 8)
    (iq : ∀ a, (![h.val, 0, 0] : Fin 3 → ℕ) a + S1x128x128.size a ≤ S8x128x128.size a)
    (ik : ∀ a, (![h.val, 0, 0] : Fin 3 → ℕ) a + S1x2048x128.size a ≤ S8x2048x128.size a)
    (iv : ∀ a, (![h.val, 0, 0] : Fin 3 → ℕ) a + S1x2048x64.size a ≤ S8x2048x64.size a)
    (ia : ∀ a, (![h.val, 0, 0] : Fin 3 → ℕ) a + S1x128x2048.size a ≤ S8x128x2048.size a)
    (io : ∀ a, (![h.val, 0, 0] : Fin 3 → ℕ) a + S1x128x64.size a ≤ S8x128x64.size a)
    (w : FVec Ideal S1x128x64 .f32)
    (hw : w = headOut (F := Ideal)
      (View.ld x0 (Rect.unit (s := S8x128x128) ![h.val, 0, 0] S1x128x128.size iq))
      (View.ld x2 (Rect.unit (s := S8x2048x128) ![h.val, 0, 0] S1x2048x128.size ik))
      (View.ld x4 (Rect.unit (s := S8x2048x64) ![h.val, 0, 0] S1x2048x64.size iv))
      (View.ld x6 (Rect.unit (s := S8x128x2048) ![h.val, 0, 0] S1x128x2048.size ia)))
    (x : S1x128x64.Idx) :
    w x = attnB x0 x2 x4 x6 ((Rect.unit (s := S8x128x64) ![h.val, 0, 0] S1x128x64.size io).emb x) := by
  subst hw
  obtain ⟨u, r, d, rfl⟩ : ∃ (u : Fin 1) (r : Fin 128) (d : Fin 64), x = ix3 u r d := ⟨x 0, x 1, x 2, eq_ix3 x⟩
  refine (headOut_of_reads x0 x2 x4 x6 h
    (View.ld x0 (Rect.unit (s := S8x128x128) ![h.val, 0, 0] S1x128x128.size iq))
    (View.ld x2 (Rect.unit (s := S8x2048x128) ![h.val, 0, 0] S1x2048x128.size ik))
    (View.ld x4 (Rect.unit (s := S8x2048x64) ![h.val, 0, 0] S1x2048x64.size iv))
    (View.ld x6 (Rect.unit (s := S8x128x2048) ![h.val, 0, 0] S1x128x2048.size ia))
    (fun r e => congrArg x0 (headRect_idx h iq (0 : Fin 1) r e))
    (fun m e => congrArg x2 (headRect_idx h ik (0 : Fin 1) m e))
    (fun m d => congrArg x4 (headRect_idx h iv (0 : Fin 1) m d))
    (fun r m => congrArg x6 (headRect_idx h ia (0 : Fin 1) r m)) u r d).trans ?_
  exact (congrArg (attnB x0 x2 x4 x6) (headRect_idx h io u r d)).symm

/-! ## A block that reads the arrays at tile t is the specification's rows 128·t … -/

/-- The block function at (h, r, d), when the blocks read the arrays at row n of the queries and of the additive term
    and read the keys and values whole, is the attention output at (h, n, d). -/
theorem attnAt_of_reads (Q K : (⟨3, ![8, 2048, 128]⟩ : Shape).Idx → EReal) (W : (⟨3, ![8, 2048, 64]⟩ : Shape).Idx → EReal)
    (A : (⟨3, ![8, 2048, 2048]⟩ : Shape).Idx → EReal)
    (x0 : Vec Ideal S8x128x128 .bf16) (x2 : Vec Ideal S8x2048x128 .bf16) (x4 : Vec Ideal S8x2048x64 .bf16)
    (x6 : Vec Ideal S8x128x2048 .bf16) (n : Fin 2048) (h : Fin 8) (r : Fin 128) (d : Fin 64)
    (h0 : ∀ e : Fin 128, x0 (ix3 h r e) = Q (ix3 h n e))
    (h2 : ∀ (m : Fin 2048) (e : Fin 128), x2 (ix3 h m e) = K (ix3 h m e))
    (h4 : ∀ m : Fin 2048, x4 (ix3 h m d) = W (ix3 h m d))
    (h6 : ∀ m : Fin 2048, x6 (ix3 h r m) = A (ix3 h n m)) :
    attnAt x0 x2 x4 x6 h r d = Cert.Spec.attn Q K W A (ix3 h n d) := by
  show (∑ m : Fin 2048, Cert.Spec.smx (fun m' : Fin 2048 =>
          (∑ e : Fin 128, x0 (ix3 h r e) * x2 (ix3 h m' e)) * Cert.Spec.scale + x6 (ix3 h r m')) m * x4 (ix3 h m d))
      = ∑ m : Fin 2048, Cert.Spec.smx (fun m' : Fin 2048 =>
          (∑ e : Fin 128, Q (ix3 h n e) * K (ix3 h m' e)) * Cert.Spec.scale + A (ix3 h n m')) m * W (ix3 h m d)
  simp only [h0, h2, h4, h6]

variable (V : (c : Dev nD) → (b : Ref sig .tc) → Buf (Elt Ideal) ((c : Thread nD τ).loc b))

/-! ## Output window 8: heads' tiles, the tile's rows, the cover -/

/-- The block the body leaves in window 8's buffer is the block function of the blocks of windows 0, 2, 4, 6. -/
theorem out1_8_apply (x0 : Vec Ideal S8x128x128 .bf16) (x1 : Vec Ideal S8x128x128 .bf16) (x2 : Vec Ideal S8x2048x128 .bf16)
    (x3 : Vec Ideal S8x2048x128 .bf16) (x4 : Vec Ideal S8x2048x64 .bf16) (x5 : Vec Ideal S8x2048x64 .bf16)
    (x6 : Vec Ideal S8x128x2048 .bf16) (x7 : Vec Ideal S8x128x2048 .bf16) (y : S8x128x64.Idx) :
    out1_8 (F := Ideal) x0 x1 x2 x3 x4 x5 x6 x7 y = attnB x0 x2 x4 x6 y := by
  unfold out1_8
  refine View.canon_apply_of_pieces (Val := Elt Ideal) (S := S8x128x64) (e := .f32) (attnB x0 x2 x4 x6) _ ?_ y
    (cover1_8 _ _ _ _ _ _ _ _ y)
  intro p hp x
  simp only [List.mem_cons, List.not_mem_nil, or_false] at hp
  rcases hp with rfl | rfl | rfl | rfl | rfl | rfl | rfl | rfl
  · exact piece_ok x0 x2 x4 x6 7 inb_S8x128x128_S1x128x128_7_0_0 inb_S8x2048x128_S1x2048x128_7_0_0
      inb_S8x2048x64_S1x2048x64_7_0_0 inb_S8x128x2048_S1x128x2048_7_0_0 inb_S8x128x64_S1x128x64_7_0_0 _ (pay8_7 _ _ _ _) x
  · exact piece_ok x0 x2 x4 x6 6 inb_S8x128x128_S1x128x128_6_0_0 inb_S8x2048x128_S1x2048x128_6_0_0
      inb_S8x2048x64_S1x2048x64_6_0_0 inb_S8x128x2048_S1x128x2048_6_0_0 inb_S8x128x64_S1x128x64_6_0_0 _ (pay8_6 _ _ _ _) x
  · exact piece_ok x0 x2 x4 x6 5 inb_S8x128x128_S1x128x128_5_0_0 inb_S8x2048x128_S1x2048x128_5_0_0
      inb_S8x2048x64_S1x2048x64_5_0_0 inb_S8x128x2048_S1x128x2048_5_0_0 inb_S8x128x64_S1x128x64_5_0_0 _ (pay8_5 _ _ _ _) x
  · exact piece_ok x0 x2 x4 x6 4 inb_S8x128x128_S1x128x128_4_0_0 inb_S8x2048x128_S1x2048x128_4_0_0
      inb_S8x2048x64_S1x2048x64_4_0_0 inb_S8x128x2048_S1x128x2048_4_0_0 inb_S8x128x64_S1x128x64_4_0_0 _ (pay8_4 _ _ _ _) x
  · exact piece_ok x0 x2 x4 x6 3 inb_S8x128x128_S1x128x128_3_0_0 inb_S8x2048x128_S1x2048x128_3_0_0
      inb_S8x2048x64_S1x2048x64_3_0_0 inb_S8x128x2048_S1x128x2048_3_0_0 inb_S8x128x64_S1x128x64_3_0_0 _ (pay8_3 _ _ _ _) x
  · exact piece_ok x0 x2 x4 x6 2 inb_S8x128x128_S1x128x128_2_0_0 inb_S8x2048x128_S1x2048x128_2_0_0
      inb_S8x2048x64_S1x2048x64_2_0_0 inb_S8x128x2048_S1x128x2048_2_0_0 inb_S8x128x64_S1x128x64_2_0_0 _ (pay8_2 _ _ _ _) x
  · exact piece_ok x0 x2 x4 x6 1 inb_S8x128x128_S1x128x128_1_0_0 inb_S8x2048x128_S1x2048x128_1_0_0
      inb_S8x2048x64_S1x2048x64_1_0_0 inb_S8x128x2048_S1x128x2048_1_0_0 inb_S8x128x64_S1x128x64_1_0_0 _ (pay8_1 _ _ _ _) x
  · exact piece_ok x0 x2 x4 x6 0 inb_S8x128x128_S1x128x128_0_0_0 inb_S8x2048x128_S1x2048x128_0_0_0
      inb_S8x2048x64_S1x2048x64_0_0_0 inb_S8x128x2048_S1x128x2048_0_0_0 inb_S8x128x64_S1x128x64_0_0_0 _ (pay8_0 _ _ _ _) x

/-- The printed index maps over the sixteen tiles: the query, additive-term and output blocks sit at block row t,
    the key and value blocks at the origin. -/
theorem idx_facts8 : ∀ t : Fin cfg1.N,
    (win1_0.index t (0 : Fin 3) = 0 ∧ win1_0.index t (1 : Fin 3) = t.val ∧ win1_0.index t (2 : Fin 3) = 0)
    ∧ (win1_2.index t (0 : Fin 3) = 0 ∧ win1_2.index t (1 : Fin 3) = 0 ∧ win1_2.index t (2 : Fin 3) = 0)
    ∧ (win1_4.index t (0 : Fin 3) = 0 ∧ win1_4.index t (1 : Fin 3) = 0 ∧ win1_4.index t (2 : Fin 3) = 0)
    ∧ (win1_6.index t (0 : Fin 3) = 0 ∧ win1_6.index t (1 : Fin 3) = t.val ∧ win1_6.index t (2 : Fin 3) = 0)
    ∧ (win1_8.index t (0 : Fin 3) = 0 ∧ win1_8.index t (1 : Fin 3) = t.val ∧ win1_8.index t (2 : Fin 3) = 0) :=
  (by decide +kernel : ∀ t : Fin grid1.N, _)

/-- WHAT TILE t WRITES BACK is block t of the attention output of the arrays the launch finds. -/
theorem flushed8_eq (c : Dev nD) (t : Fin cfg1.N) :
    (dat1 (F := Ideal) V c).flushed 8 t = ((cfg1.win 8).blk t).view.read (Elt Ideal)
      (Cert.Spec.attn (V c main_v8) (V c main_v10) (V c main_v16) (V c main_v44)) := by
  show (cfg1.win 8).cut (grid1.coords t) ((dat1 (F := Ideal) V c).after 8 t) = _
  rw [after1_8]
  obtain ⟨⟨q0, q1, q2⟩, ⟨k0, k1, k2⟩, ⟨v0, v1, v2⟩, ⟨a0, a1, a2⟩, ⟨o0, o1, o2⟩⟩ := idx_facts8 t
  have hN : t.val < 16 := Nat.lt_of_lt_of_eq t.isLt N_1
  refine funext fun (j : S8x128x64.Idx) => ?_
  obtain ⟨h, r, d, rfl⟩ : ∃ (h : Fin 8) (r : Fin 128) (d : Fin 64), j = ix3 h r d := ⟨j 0, j 1, j 2, eq_ix3 j⟩
  have hh : h.val < 8 := h.isLt
  have hr : r.val < 128 := r.isLt
  have hd : d.val < 64 := d.isLt
  show out1_8 (F := Ideal) (iblk1 V c 0 t) (iblk1 V c 1 t) (iblk1 V c 2 t) (iblk1 V c 3 t) (iblk1 V c 4 t) (iblk1 V c 5 t)
      (iblk1 V c 6 t) (iblk1 V c 7 t) (ix3 h r d)
    = Cert.Spec.attn (V c main_v8) (V c main_v10) (V c main_v16) (V c main_v44) (((cfg1.win 8).blk t).view.emb (ix3 h r d))
  refine (out1_8_apply (iblk1 V c 0 t) (iblk1 V c 1 t) (iblk1 V c 2 t) (iblk1 V c 3 t) (iblk1 V c 4 t) (iblk1 V c 5 t)
      (iblk1 V c 6 t) (iblk1 V c 7 t) (ix3 h r d)).trans ?_
  have eo : ((cfg1.win 8).blk t).view.emb (ix3 h r d) = ix3 h (⟨128 * t.val + r.val, by omega⟩ : Fin 2048) d := by
    funext a; apply Fin.ext
    match a with
    | ⟨0, _⟩ => show win1_8.index t (0 : Fin 3) * 8 + 1 * h.val = h.val; omega
    | ⟨1, _⟩ => show win1_8.index t (1 : Fin 3) * 128 + 1 * r.val = 128 * t.val + r.val; omega
    | ⟨2, _⟩ => show win1_8.index t (2 : Fin 3) * 64 + 1 * d.val = d.val; omega
  rw [eo]
  refine attnAt_of_reads (V c main_v8) (V c main_v10) (V c main_v16) (V c main_v44) (iblk1 V c 0 t) (iblk1 V c 2 t)
    (iblk1 V c 4 t) (iblk1 V c 6 t) (⟨128 * t.val + r.val, by omega⟩ : Fin 2048) h r d ?_ ?_ ?_ ?_
  · intro e
    have he : e.val < 128 := e.isLt
    show V c main_v8 (((cfg1.win 0).blk t).view.emb (ix3 h r e)) = V c main_v8 (ix3 h (⟨128 * t.val + r.val, by omega⟩ : Fin 2048) e)
    refine congrArg (V c main_v8) (funext fun a => Fin.ext ?_)
    match a with
    | ⟨0, _⟩ => show win1_0.index t (0 : Fin 3) * 8 + 1 * h.val = h.val; omega
    | ⟨1, _⟩ => show win1_0.index t (1 : Fin 3) * 128 + 1 * r.val = 128 * t.val + r.val; omega
    | ⟨2, _⟩ => show win1_0.index t (2 : Fin 3) * 128 + 1 * e.val = e.val; omega
  · intro m e
    have hm : m.val < 2048 := m.isLt
    have he : e.val < 128 := e.isLt
    show V c main_v10 (((cfg1.win 2).blk t).view.emb (ix3 h m e)) = V c main_v10 (ix3 h m e)
    refine congrArg (V c main_v10) (funext fun a => Fin.ext ?_)
    match a with
    | ⟨0, _⟩ => show win1_2.index t (0 : Fin 3) * 8 + 1 * h.val = h.val; omega
    | ⟨1, _⟩ => show win1_2.index t (1 : Fin 3) * 2048 + 1 * m.val = m.val; omega
    | ⟨2, _⟩ => show win1_2.index t (2 : Fin 3) * 128 + 1 * e.val = e.val; omega
  · intro m
    have hm : m.val < 2048 := m.isLt
    show V c main_v16 (((cfg1.win 4).blk t).view.emb (ix3 h m d)) = V c main_v16 (ix3 h m d)
    refine congrArg (V c main_v16) (funext fun a => Fin.ext ?_)
    match a with
    | ⟨0, _⟩ => show win1_4.index t (0 : Fin 3) * 8 + 1 * h.val = h.val; omega
    | ⟨1, _⟩ => show win1_4.index t (1 : Fin 3) * 2048 + 1 * m.val = m.val; omega
    | ⟨2, _⟩ => show win1_4.index t (2 : Fin 3) * 64 + 1 * d.val = d.val; omega
  · intro m
    have hm : m.val < 2048 := m.isLt
    show V c main_v44 (((cfg1.win 6).blk t).view.emb (ix3 h r m)) = V c main_v44 (ix3 h (⟨128 * t.val + r.val, by omega⟩ : Fin 2048) m)
    refine congrArg (V c main_v44) (funext fun a => Fin.ext ?_)
    match a with
    | ⟨0, _⟩ => show win1_6.index t (0 : Fin 3) * 8 + 1 * h.val = h.val; omega
    | ⟨1, _⟩ => show win1_6.index t (1 : Fin 3) * 128 + 1 * r.val = 128 * t.val + r.val; omega
    | ⟨2, _⟩ => show win1_6.index t (2 : Fin 3) * 2048 + 1 * m.val = m.val; omega

/-- An index of the output array is in tile t's block iff each coordinate is in the block's range on its axis. -/
theorem mem_blk8 (t : Fin cfg1.N) (i : S8x2048x64.Idx) :
    i ∈ ((cfg1.win 8).blk t).view.set ↔ ∀ a : Fin 3, win1_8.index t a * S8x128x64.size a ≤ (i a).val
      ∧ (i a).val < win1_8.index t a * S8x128x64.size a + S8x128x64.size a := by
  show i ∈ ((View.whole main_v49_0).slice (win1_8.rect t)).set ↔ _
  rw [View.set_slice_whole, Rect.mem_set_unit]
  exact Iff.rfl

/-- Every index of the output array is in some tile's block: row n is in tile n / 128. -/
theorem cover8 (i : S8x2048x64.Idx) :
    ∃ t : Fin cfg1.N, (cfg1.win 8).flush t = true ∧ i ∈ ((cfg1.win 8).blk t).view.set := by
  have hi0 : (i 0).val < 8 := (i 0).isLt
  have hi1 : (i 1).val < 2048 := (i 1).isLt
  have hi2 : (i 2).val < 64 := (i 2).isLt
  have hlt : (i 1).val / 128 < cfg1.N := Nat.lt_of_lt_of_eq (by omega : (i 1).val / 128 < 16) N_1.symm
  obtain ⟨-, -, -, -, ⟨o0, o1, o2⟩⟩ := idx_facts8 ⟨(i 1).val / 128, hlt⟩
  have o1' : win1_8.index ⟨(i 1).val / 128, hlt⟩ (1 : Fin 3) = (i 1).val / 128 := o1
  refine ⟨⟨(i 1).val / 128, hlt⟩, flush1_8 _, ?_⟩
  rw [mem_blk8]
  intro a
  match a with
  | ⟨0, _⟩ => show win1_8.index ⟨(i 1).val / 128, hlt⟩ (0 : Fin 3) * 8 ≤ (i 0).val ∧ (i 0).val < win1_8.index ⟨(i 1).val / 128, hlt⟩ (0 : Fin 3) * 8 + 8; omega
  | ⟨1, _⟩ => show win1_8.index ⟨(i 1).val / 128, hlt⟩ (1 : Fin 3) * 128 ≤ (i 1).val ∧ (i 1).val < win1_8.index ⟨(i 1).val / 128, hlt⟩ (1 : Fin 3) * 128 + 128; omega
  | ⟨2, _⟩ => show win1_8.index ⟨(i 1).val / 128, hlt⟩ (2 : Fin 3) * 64 ≤ (i 2).val ∧ (i 2).val < win1_8.index ⟨(i 1).val / 128, hlt⟩ (2 : Fin 3) * 64 + 64; omega

theorem arr8 (c : Dev nD) :
    (dat1 (F := Ideal) V c).arrAt 8 cfg1.N
      = Cert.Spec.attn (V c main_v8) (V c main_v10) (V c main_v16) (V c main_v44) :=
  (dat1 (F := Ideal) V c).arrAt_eq_of_cover 8 _ (fun t _ => flushed8_eq V c t) cover8

/-! ## Output window 9: heads' tiles, the tile's rows, the cover -/

/-- The block the body leaves in window 9's buffer is the block function of the blocks of windows 1, 3, 5, 7. -/
theorem out1_9_apply (x0 : Vec Ideal S8x128x128 .bf16) (x1 : Vec Ideal S8x128x128 .bf16) (x2 : Vec Ideal S8x2048x128 .bf16)
    (x3 : Vec Ideal S8x2048x128 .bf16) (x4 : Vec Ideal S8x2048x64 .bf16) (x5 : Vec Ideal S8x2048x64 .bf16)
    (x6 : Vec Ideal S8x128x2048 .bf16) (x7 : Vec Ideal S8x128x2048 .bf16) (y : S8x128x64.Idx) :
    out1_9 (F := Ideal) x0 x1 x2 x3 x4 x5 x6 x7 y = attnB x1 x3 x5 x7 y := by
  unfold out1_9
  refine View.canon_apply_of_pieces (Val := Elt Ideal) (S := S8x128x64) (e := .f32) (attnB x1 x3 x5 x7) _ ?_ y
    (cover1_9 _ _ _ _ _ _ _ _ y)
  intro p hp x
  simp only [List.mem_cons, List.not_mem_nil, or_false] at hp
  rcases hp with rfl | rfl | rfl | rfl | rfl | rfl | rfl | rfl
  · exact piece_ok x1 x3 x5 x7 7 inb_S8x128x128_S1x128x128_7_0_0 inb_S8x2048x128_S1x2048x128_7_0_0
      inb_S8x2048x64_S1x2048x64_7_0_0 inb_S8x128x2048_S1x128x2048_7_0_0 inb_S8x128x64_S1x128x64_7_0_0 _ (pay9_7 _ _ _ _) x
  · exact piece_ok x1 x3 x5 x7 6 inb_S8x128x128_S1x128x128_6_0_0 inb_S8x2048x128_S1x2048x128_6_0_0
      inb_S8x2048x64_S1x2048x64_6_0_0 inb_S8x128x2048_S1x128x2048_6_0_0 inb_S8x128x64_S1x128x64_6_0_0 _ (pay9_6 _ _ _ _) x
  · exact piece_ok x1 x3 x5 x7 5 inb_S8x128x128_S1x128x128_5_0_0 inb_S8x2048x128_S1x2048x128_5_0_0
      inb_S8x2048x64_S1x2048x64_5_0_0 inb_S8x128x2048_S1x128x2048_5_0_0 inb_S8x128x64_S1x128x64_5_0_0 _ (pay9_5 _ _ _ _) x
  · exact piece_ok x1 x3 x5 x7 4 inb_S8x128x128_S1x128x128_4_0_0 inb_S8x2048x128_S1x2048x128_4_0_0
      inb_S8x2048x64_S1x2048x64_4_0_0 inb_S8x128x2048_S1x128x2048_4_0_0 inb_S8x128x64_S1x128x64_4_0_0 _ (pay9_4 _ _ _ _) x
  · exact piece_ok x1 x3 x5 x7 3 inb_S8x128x128_S1x128x128_3_0_0 inb_S8x2048x128_S1x2048x128_3_0_0
      inb_S8x2048x64_S1x2048x64_3_0_0 inb_S8x128x2048_S1x128x2048_3_0_0 inb_S8x128x64_S1x128x64_3_0_0 _ (pay9_3 _ _ _ _) x
  · exact piece_ok x1 x3 x5 x7 2 inb_S8x128x128_S1x128x128_2_0_0 inb_S8x2048x128_S1x2048x128_2_0_0
      inb_S8x2048x64_S1x2048x64_2_0_0 inb_S8x128x2048_S1x128x2048_2_0_0 inb_S8x128x64_S1x128x64_2_0_0 _ (pay9_2 _ _ _ _) x
  · exact piece_ok x1 x3 x5 x7 1 inb_S8x128x128_S1x128x128_1_0_0 inb_S8x2048x128_S1x2048x128_1_0_0
      inb_S8x2048x64_S1x2048x64_1_0_0 inb_S8x128x2048_S1x128x2048_1_0_0 inb_S8x128x64_S1x128x64_1_0_0 _ (pay9_1 _ _ _ _) x
  · exact piece_ok x1 x3 x5 x7 0 inb_S8x128x128_S1x128x128_0_0_0 inb_S8x2048x128_S1x2048x128_0_0_0
      inb_S8x2048x64_S1x2048x64_0_0_0 inb_S8x128x2048_S1x128x2048_0_0_0 inb_S8x128x64_S1x128x64_0_0_0 _ (pay9_0 _ _ _ _) x

/-- The printed index maps over the sixteen tiles: the query, additive-term and output blocks sit at block row t,
    the key and value blocks at the origin. -/
theorem idx_facts9 : ∀ t : Fin cfg1.N,
    (win1_1.index t (0 : Fin 3) = 0 ∧ win1_1.index t (1 : Fin 3) = t.val ∧ win1_1.index t (2 : Fin 3) = 0)
    ∧ (win1_3.index t (0 : Fin 3) = 0 ∧ win1_3.index t (1 : Fin 3) = 0 ∧ win1_3.index t (2 : Fin 3) = 0)
    ∧ (win1_5.index t (0 : Fin 3) = 0 ∧ win1_5.index t (1 : Fin 3) = 0 ∧ win1_5.index t (2 : Fin 3) = 0)
    ∧ (win1_7.index t (0 : Fin 3) = 0 ∧ win1_7.index t (1 : Fin 3) = t.val ∧ win1_7.index t (2 : Fin 3) = 0)
    ∧ (win1_9.index t (0 : Fin 3) = 0 ∧ win1_9.index t (1 : Fin 3) = t.val ∧ win1_9.index t (2 : Fin 3) = 0) :=
  (by decide +kernel : ∀ t : Fin grid1.N, _)

/-- WHAT TILE t WRITES BACK is block t of the attention output of the arrays the launch finds. -/
theorem flushed9_eq (c : Dev nD) (t : Fin cfg1.N) :
    (dat1 (F := Ideal) V c).flushed 9 t = ((cfg1.win 9).blk t).view.read (Elt Ideal)
      (Cert.Spec.attn (V c main_v12) (V c main_v14) (V c main_v18) (V c main_v48)) := by
  show (cfg1.win 9).cut (grid1.coords t) ((dat1 (F := Ideal) V c).after 9 t) = _
  rw [after1_9]
  obtain ⟨⟨q0, q1, q2⟩, ⟨k0, k1, k2⟩, ⟨v0, v1, v2⟩, ⟨a0, a1, a2⟩, ⟨o0, o1, o2⟩⟩ := idx_facts9 t
  have hN : t.val < 16 := Nat.lt_of_lt_of_eq t.isLt N_1
  refine funext fun (j : S8x128x64.Idx) => ?_
  obtain ⟨h, r, d, rfl⟩ : ∃ (h : Fin 8) (r : Fin 128) (d : Fin 64), j = ix3 h r d := ⟨j 0, j 1, j 2, eq_ix3 j⟩
  have hh : h.val < 8 := h.isLt
  have hr : r.val < 128 := r.isLt
  have hd : d.val < 64 := d.isLt
  show out1_9 (F := Ideal) (iblk1 V c 0 t) (iblk1 V c 1 t) (iblk1 V c 2 t) (iblk1 V c 3 t) (iblk1 V c 4 t) (iblk1 V c 5 t)
      (iblk1 V c 6 t) (iblk1 V c 7 t) (ix3 h r d)
    = Cert.Spec.attn (V c main_v12) (V c main_v14) (V c main_v18) (V c main_v48) (((cfg1.win 9).blk t).view.emb (ix3 h r d))
  refine (out1_9_apply (iblk1 V c 0 t) (iblk1 V c 1 t) (iblk1 V c 2 t) (iblk1 V c 3 t) (iblk1 V c 4 t) (iblk1 V c 5 t)
      (iblk1 V c 6 t) (iblk1 V c 7 t) (ix3 h r d)).trans ?_
  have eo : ((cfg1.win 9).blk t).view.emb (ix3 h r d) = ix3 h (⟨128 * t.val + r.val, by omega⟩ : Fin 2048) d := by
    funext a; apply Fin.ext
    match a with
    | ⟨0, _⟩ => show win1_9.index t (0 : Fin 3) * 8 + 1 * h.val = h.val; omega
    | ⟨1, _⟩ => show win1_9.index t (1 : Fin 3) * 128 + 1 * r.val = 128 * t.val + r.val; omega
    | ⟨2, _⟩ => show win1_9.index t (2 : Fin 3) * 64 + 1 * d.val = d.val; omega
  rw [eo]
  refine attnAt_of_reads (V c main_v12) (V c main_v14) (V c main_v18) (V c main_v48) (iblk1 V c 1 t) (iblk1 V c 3 t)
    (iblk1 V c 5 t) (iblk1 V c 7 t) (⟨128 * t.val + r.val, by omega⟩ : Fin 2048) h r d ?_ ?_ ?_ ?_
  · intro e
    have he : e.val < 128 := e.isLt
    show V c main_v12 (((cfg1.win 1).blk t).view.emb (ix3 h r e)) = V c main_v12 (ix3 h (⟨128 * t.val + r.val, by omega⟩ : Fin 2048) e)
    refine congrArg (V c main_v12) (funext fun a => Fin.ext ?_)
    match a with
    | ⟨0, _⟩ => show win1_1.index t (0 : Fin 3) * 8 + 1 * h.val = h.val; omega
    | ⟨1, _⟩ => show win1_1.index t (1 : Fin 3) * 128 + 1 * r.val = 128 * t.val + r.val; omega
    | ⟨2, _⟩ => show win1_1.index t (2 : Fin 3) * 128 + 1 * e.val = e.val; omega
  · intro m e
    have hm : m.val < 2048 := m.isLt
    have he : e.val < 128 := e.isLt
    show V c main_v14 (((cfg1.win 3).blk t).view.emb (ix3 h m e)) = V c main_v14 (ix3 h m e)
    refine congrArg (V c main_v14) (funext fun a => Fin.ext ?_)
    match a with
    | ⟨0, _⟩ => show win1_3.index t (0 : Fin 3) * 8 + 1 * h.val = h.val; omega
    | ⟨1, _⟩ => show win1_3.index t (1 : Fin 3) * 2048 + 1 * m.val = m.val; omega
    | ⟨2, _⟩ => show win1_3.index t (2 : Fin 3) * 128 + 1 * e.val = e.val; omega
  · intro m
    have hm : m.val < 2048 := m.isLt
    show V c main_v18 (((cfg1.win 5).blk t).view.emb (ix3 h m d)) = V c main_v18 (ix3 h m d)
    refine congrArg (V c main_v18) (funext fun a => Fin.ext ?_)
    match a with
    | ⟨0, _⟩ => show win1_5.index t (0 : Fin 3) * 8 + 1 * h.val = h.val; omega
    | ⟨1, _⟩ => show win1_5.index t (1 : Fin 3) * 2048 + 1 * m.val = m.val; omega
    | ⟨2, _⟩ => show win1_5.index t (2 : Fin 3) * 64 + 1 * d.val = d.val; omega
  · intro m
    have hm : m.val < 2048 := m.isLt
    show V c main_v48 (((cfg1.win 7).blk t).view.emb (ix3 h r m)) = V c main_v48 (ix3 h (⟨128 * t.val + r.val, by omega⟩ : Fin 2048) m)
    refine congrArg (V c main_v48) (funext fun a => Fin.ext ?_)
    match a with
    | ⟨0, _⟩ => show win1_7.index t (0 : Fin 3) * 8 + 1 * h.val = h.val; omega
    | ⟨1, _⟩ => show win1_7.index t (1 : Fin 3) * 128 + 1 * r.val = 128 * t.val + r.val; omega
    | ⟨2, _⟩ => show win1_7.index t (2 : Fin 3) * 2048 + 1 * m.val = m.val; omega

/-- An index of the output array is in tile t's block iff each coordinate is in the block's range on its axis. -/
theorem mem_blk9 (t : Fin cfg1.N) (i : S8x2048x64.Idx) :
    i ∈ ((cfg1.win 9).blk t).view.set ↔ ∀ a : Fin 3, win1_9.index t a * S8x128x64.size a ≤ (i a).val
      ∧ (i a).val < win1_9.index t a * S8x128x64.size a + S8x128x64.size a := by
  show i ∈ ((View.whole main_v49_1).slice (win1_9.rect t)).set ↔ _
  rw [View.set_slice_whole, Rect.mem_set_unit]
  exact Iff.rfl

/-- Every index of the output array is in some tile's block: row n is in tile n / 128. -/
theorem cover9 (i : S8x2048x64.Idx) :
    ∃ t : Fin cfg1.N, (cfg1.win 9).flush t = true ∧ i ∈ ((cfg1.win 9).blk t).view.set := by
  have hi0 : (i 0).val < 8 := (i 0).isLt
  have hi1 : (i 1).val < 2048 := (i 1).isLt
  have hi2 : (i 2).val < 64 := (i 2).isLt
  have hlt : (i 1).val / 128 < cfg1.N := Nat.lt_of_lt_of_eq (by omega : (i 1).val / 128 < 16) N_1.symm
  obtain ⟨-, -, -, -, ⟨o0, o1, o2⟩⟩ := idx_facts9 ⟨(i 1).val / 128, hlt⟩
  have o1' : win1_9.index ⟨(i 1).val / 128, hlt⟩ (1 : Fin 3) = (i 1).val / 128 := o1
  refine ⟨⟨(i 1).val / 128, hlt⟩, flush1_9 _, ?_⟩
  rw [mem_blk9]
  intro a
  match a with
  | ⟨0, _⟩ => show win1_9.index ⟨(i 1).val / 128, hlt⟩ (0 : Fin 3) * 8 ≤ (i 0).val ∧ (i 0).val < win1_9.index ⟨(i 1).val / 128, hlt⟩ (0 : Fin 3) * 8 + 8; omega
  | ⟨1, _⟩ => show win1_9.index ⟨(i 1).val / 128, hlt⟩ (1 : Fin 3) * 128 ≤ (i 1).val ∧ (i 1).val < win1_9.index ⟨(i 1).val / 128, hlt⟩ (1 : Fin 3) * 128 + 128; omega
  | ⟨2, _⟩ => show win1_9.index ⟨(i 1).val / 128, hlt⟩ (2 : Fin 3) * 64 ≤ (i 2).val ∧ (i 2).val < win1_9.index ⟨(i 1).val / 128, hlt⟩ (2 : Fin 3) * 64 + 64; omega

theorem arr9 (c : Dev nD) :
    (dat1 (F := Ideal) V c).arrAt 9 cfg1.N
      = Cert.Spec.attn (V c main_v12) (V c main_v14) (V c main_v18) (V c main_v48) :=
  (dat1 (F := Ideal) V c).arrAt_eq_of_cover 9 _ (fun t _ => flushed9_eq V c t) cover9

end Cert.KernelIdeal.AttnValue

end
-- ==== Proof.KernelValue.lean ====
/-
  The kernel program's result as ONE function of its arguments, at the exact instance. Walking the program's
  boundaries in order: the weights change format; the first launch leaves the six projections; the host splits them
  into heads, forms both score arrays, gathers each along the other graph's index table and adds the graph masks;
  the second launch leaves the two attention outputs; the host lays them out side by side.
-/
import proofs.«416605_j68384469286920_2_alg».proof.Proof.Gen.KernelIdeal.Frame
import proofs.«416605_j68384469286920_2_alg».proof.Proof.Spec
import proofs.«416605_j68384469286920_2_alg».proof.Proof.HostStages
import proofs.«416605_j68384469286920_2_alg».proof.Proof.ProjValue
import proofs.«416605_j68384469286920_2_alg».proof.Proof.AttnValue

set_option maxRecDepth 16384

noncomputable section

namespace Cert.KernelIdeal.KernelValue

open Cert.KernelIdeal Cert.KernelIdeal.Gen Cert.KernelIdeal.HostStages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The values along the way, as functions of the arguments -/

def q1 : (⟨S2048x1024, .bf16⟩ : BufTy).Contents (Elt Ideal) := Cert.Spec.projQ (m ((c : Thread nD τ).loc main_arg0)) (cvtW (F := Ideal) (m ((c : Thread nD τ).loc main_arg5))) (m ((c : Thread nD τ).loc main_arg6))
def k1 : (⟨S2048x1024, .bf16⟩ : BufTy).Contents (Elt Ideal) := Cert.Spec.projQ (m ((c : Thread nD τ).loc main_arg0)) (cvtW (F := Ideal) (m ((c : Thread nD τ).loc main_arg7))) (m ((c : Thread nD τ).loc main_arg8))
def v1 : (⟨S2048x512, .bf16⟩ : BufTy).Contents (Elt Ideal) := Cert.Spec.projV (m ((c : Thread nD τ).loc main_arg0)) (cvtWV (F := Ideal) (m ((c : Thread nD τ).loc main_arg9))) (m ((c : Thread nD τ).loc main_arg10))
def q2 : (⟨S2048x1024, .bf16⟩ : BufTy).Contents (Elt Ideal) := Cert.Spec.projQ (m ((c : Thread nD τ).loc main_arg0)) (cvtW (F := Ideal) (m ((c : Thread nD τ).loc main_arg11))) (m ((c : Thread nD τ).loc main_arg12))
def k2 : (⟨S2048x1024, .bf16⟩ : BufTy).Contents (Elt Ideal) := Cert.Spec.projQ (m ((c : Thread nD τ).loc main_arg0)) (cvtW (F := Ideal) (m ((c : Thread nD τ).loc main_arg13))) (m ((c : Thread nD τ).loc main_arg14))
def v2 : (⟨S2048x512, .bf16⟩ : BufTy).Contents (Elt Ideal) := Cert.Spec.projV (m ((c : Thread nD τ).loc main_arg0)) (cvtWV (F := Ideal) (m ((c : Thread nD τ).loc main_arg15))) (m ((c : Thread nD τ).loc main_arg16))

/-- The first score array (q₁ · k₁ᵀ) · scale and the second. -/
def s1 : (⟨S8x2048x2048, .f32⟩ : BufTy).Contents (Elt Ideal) := scores (F := Ideal) (headsQ (q1 m c)) (headsQ (k1 m c))
def s2 : (⟨S8x2048x2048, .f32⟩ : BufTy).Contents (Elt Ideal) := scores (F := Ideal) (headsQ (q2 m c)) (headsQ (k2 m c))

/-- The additive terms: the OTHER score array gathered along this graph's index table, plus this graph's mask. -/
def add1 : (⟨S8x2048x2048, .bf16⟩ : BufTy).Contents (Elt Ideal) := addTerm (F := Ideal) (take (s2 m c) (idxB (m ((c : Thread nD τ).loc main_arg4)))) (maskB (m ((c : Thread nD τ).loc main_arg1)))
def add2 : (⟨S8x2048x2048, .bf16⟩ : BufTy).Contents (Elt Ideal) := addTerm (F := Ideal) (take (s1 m c) (idxB (m ((c : Thread nD τ).loc main_arg3)))) (maskB (m ((c : Thread nD τ).loc main_arg2)))

/-- The kernel program's result. -/
def result : (⟨S2048x1024, .f32⟩ : BufTy).Contents (Elt Ideal) :=
  tail (F := Ideal)
    (Cert.Spec.attn (headsQ (F := Ideal) (q1 m c)) (headsQ (F := Ideal) (k1 m c)) (headsV (F := Ideal) (v1 m c)) (add1 m c))
    (Cert.Spec.attn (headsQ (F := Ideal) (q2 m c)) (headsQ (F := Ideal) (k2 m c)) (headsV (F := Ideal) (v2 m c)) (add2 m c))

/-! ## The boundaries, in order -/

-- after the weights' change of format (the first launch's entry)
theorem W1_arg0 : W1 m ρ c (Proc.devRef .tc main_arg0) = m ((c : Thread nD τ).loc main_arg0) := ops0_keep_arg0 (W0 m ρ c)
theorem W1_arg1 : W1 m ρ c (Proc.devRef .tc main_arg1) = m ((c : Thread nD τ).loc main_arg1) := ops0_keep_arg1 (W0 m ρ c)
theorem W1_arg2 : W1 m ρ c (Proc.devRef .tc main_arg2) = m ((c : Thread nD τ).loc main_arg2) := ops0_keep_arg2 (W0 m ρ c)
theorem W1_arg3 : W1 m ρ c (Proc.devRef .tc main_arg3) = m ((c : Thread nD τ).loc main_arg3) := ops0_keep_arg3 (W0 m ρ c)
theorem W1_arg4 : W1 m ρ c (Proc.devRef .tc main_arg4) = m ((c : Thread nD τ).loc main_arg4) := ops0_keep_arg4 (W0 m ρ c)
theorem W1_arg6 : W1 m ρ c (Proc.devRef .tc main_arg6) = m ((c : Thread nD τ).loc main_arg6) := ops0_keep_arg6 (W0 m ρ c)
theorem W1_arg8 : W1 m ρ c (Proc.devRef .tc main_arg8) = m ((c : Thread nD τ).loc main_arg8) := ops0_keep_arg8 (W0 m ρ c)
theorem W1_arg10 : W1 m ρ c (Proc.devRef .tc main_arg10) = m ((c : Thread nD τ).loc main_arg10) := ops0_keep_arg10 (W0 m ρ c)
theorem W1_arg12 : W1 m ρ c (Proc.devRef .tc main_arg12) = m ((c : Thread nD τ).loc main_arg12) := ops0_keep_arg12 (W0 m ρ c)
theorem W1_arg14 : W1 m ρ c (Proc.devRef .tc main_arg14) = m ((c : Thread nD τ).loc main_arg14) := ops0_keep_arg14 (W0 m ρ c)
theorem W1_arg16 : W1 m ρ c (Proc.devRef .tc main_arg16) = m ((c : Thread nD τ).loc main_arg16) := ops0_keep_arg16 (W0 m ρ c)
theorem W1_v0 : W1 m ρ c (Proc.devRef .tc main_v0) = cvtW (m ((c : Thread nD τ).loc main_arg5)) := ops0_v0 (W0 m ρ c)
theorem W1_v1 : W1 m ρ c (Proc.devRef .tc main_v1) = cvtW (m ((c : Thread nD τ).loc main_arg7)) := ops0_v1 (W0 m ρ c)
theorem W1_v2 : W1 m ρ c (Proc.devRef .tc main_v2) = cvtWV (m ((c : Thread nD τ).loc main_arg9)) := ops0_v2 (W0 m ρ c)
theorem W1_v3 : W1 m ρ c (Proc.devRef .tc main_v3) = cvtW (m ((c : Thread nD τ).loc main_arg11)) := ops0_v3 (W0 m ρ c)
theorem W1_v4 : W1 m ρ c (Proc.devRef .tc main_v4) = cvtW (m ((c : Thread nD τ).loc main_arg13)) := ops0_v4 (W0 m ρ c)
theorem W1_v5 : W1 m ρ c (Proc.devRef .tc main_v5) = cvtWV (m ((c : Thread nD τ).loc main_arg15)) := ops0_v5 (W0 m ρ c)

-- after the first launch: its six outputs are the projections; the index tables and the graphs are untouched
theorem W2_v6_0 : W2 m ρ c (Proc.devRef .tc main_v6_0) = q1 m c :=
  (W2_arr m ρ c 13).trans ((ProjValue.arr13 (V1 m ρ) c).trans (by
    unfold q1; rw [show V1 m ρ c main_arg0 = _ from W1_arg0 m ρ c, show V1 m ρ c main_v0 = _ from W1_v0 m ρ c, show V1 m ρ c main_arg6 = _ from W1_arg6 m ρ c]))
theorem W2_v6_1 : W2 m ρ c (Proc.devRef .tc main_v6_1) = k1 m c :=
  (W2_arr m ρ c 14).trans ((ProjValue.arr14 (V1 m ρ) c).trans (by
    unfold k1; rw [show V1 m ρ c main_arg0 = _ from W1_arg0 m ρ c, show V1 m ρ c main_v1 = _ from W1_v1 m ρ c, show V1 m ρ c main_arg8 = _ from W1_arg8 m ρ c]))
theorem W2_v6_2 : W2 m ρ c (Proc.devRef .tc main_v6_2) = v1 m c :=
  (W2_arr m ρ c 15).trans ((ProjValue.arr15 (V1 m ρ) c).trans (by
    unfold v1; rw [show V1 m ρ c main_arg0 = _ from W1_arg0 m ρ c, show V1 m ρ c main_v2 = _ from W1_v2 m ρ c, show V1 m ρ c main_arg10 = _ from W1_arg10 m ρ c]))
theorem W2_v6_3 : W2 m ρ c (Proc.devRef .tc main_v6_3) = q2 m c :=
  (W2_arr m ρ c 16).trans ((ProjValue.arr16 (V1 m ρ) c).trans (by
    unfold q2; rw [show V1 m ρ c main_arg0 = _ from W1_arg0 m ρ c, show V1 m ρ c main_v3 = _ from W1_v3 m ρ c, show V1 m ρ c main_arg12 = _ from W1_arg12 m ρ c]))
theorem W2_v6_4 : W2 m ρ c (Proc.devRef .tc main_v6_4) = k2 m c :=
  (W2_arr m ρ c 17).trans ((ProjValue.arr17 (V1 m ρ) c).trans (by
    unfold k2; rw [show V1 m ρ c main_arg0 = _ from W1_arg0 m ρ c, show V1 m ρ c main_v4 = _ from W1_v4 m ρ c, show V1 m ρ c main_arg14 = _ from W1_arg14 m ρ c]))
theorem W2_v6_5 : W2 m ρ c (Proc.devRef .tc main_v6_5) = v2 m c :=
  (W2_arr m ρ c 18).trans ((ProjValue.arr18 (V1 m ρ) c).trans (by
    unfold v2; rw [show V1 m ρ c main_arg0 = _ from W1_arg0 m ρ c, show V1 m ρ c main_v5 = _ from W1_v5 m ρ c, show V1 m ρ c main_arg16 = _ from W1_arg16 m ρ c]))
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)

-- after the split into heads, the scores and the repeated index tables
theorem W3_v8 : W3 m ρ c (Proc.devRef .tc main_v8) = headsQ (q1 m c) := (ops1_v8 (W2 m ρ c)).trans (by rw [W2_v6_0])
theorem W3_v10 : W3 m ρ c (Proc.devRef .tc main_v10) = headsQ (k1 m c) := (ops1_v10 (W2 m ρ c)).trans (by rw [W2_v6_1])
theorem W3_v12 : W3 m ρ c (Proc.devRef .tc main_v12) = headsQ (q2 m c) := (ops1_v12 (W2 m ρ c)).trans (by rw [W2_v6_3])
theorem W3_v14 : W3 m ρ c (Proc.devRef .tc main_v14) = headsQ (k2 m c) := (ops1_v14 (W2 m ρ c)).trans (by rw [W2_v6_4])
theorem W3_v16 : W3 m ρ c (Proc.devRef .tc main_v16) = headsV (v1 m c) := (ops1_v16 (W2 m ρ c)).trans (by rw [W2_v6_2])
theorem W3_v18 : W3 m ρ c (Proc.devRef .tc main_v18) = headsV (v2 m c) := (ops1_v18 (W2 m ρ c)).trans (by rw [W2_v6_5])
theorem W3_v21 : W3 m ρ c (Proc.devRef .tc main_v21) = s1 m c := (ops1_v21 (W2 m ρ c)).trans (by rw [W2_v6_0, W2_v6_1]; rfl)
theorem W3_v24 : W3 m ρ c (Proc.devRef .tc main_v24) = s2 m c := (ops1_v24 (W2 m ρ c)).trans (by rw [W2_v6_3, W2_v6_4]; rfl)
theorem W3_v26 : W3 m ρ c (Proc.devRef .tc main_v26) = idxB (m ((c : Thread nD τ).loc main_arg4)) := (ops1_v26 (W2 m ρ c)).trans (by rw [W2_arg4])
theorem W3_v28 : W3 m ρ c (Proc.devRef .tc main_v28) = idxB (m ((c : Thread nD τ).loc main_arg3)) := (ops1_v28 (W2 m ρ c)).trans (by rw [W2_arg3])
theorem W3_arg1 : W3 m ρ c (Proc.devRef .tc main_arg1) = m ((c : Thread nD τ).loc main_arg1) := (ops1_keep_arg1 (W2 m ρ c)).trans (W2_arg1 m ρ c)
theorem W3_arg2 : W3 m ρ c (Proc.devRef .tc main_arg2) = m ((c : Thread nD τ).loc main_arg2) := (ops1_keep_arg2 (W2 m ρ c)).trans (W2_arg2 m ρ c)

-- after the first gather
theorem W4_v29 : W4 m ρ c (Proc.devRef .tc main_v29) = take (s2 m c) (idxB (m ((c : Thread nD τ).loc main_arg4))) :=
  (ops1_1_v29 (W3 m ρ c)).trans (by rw [W3_v24, W3_v26])
theorem W4_v8 : W4 m ρ c (Proc.devRef .tc main_v8) = W3 m ρ c (Proc.devRef .tc main_v8) := ops1_1_keep_v8 (W3 m ρ c)
theorem W4_v10 : W4 m ρ c (Proc.devRef .tc main_v10) = W3 m ρ c (Proc.devRef .tc main_v10) := ops1_1_keep_v10 (W3 m ρ c)
theorem W4_v12 : W4 m ρ c (Proc.devRef .tc main_v12) = W3 m ρ c (Proc.devRef .tc main_v12) := ops1_1_keep_v12 (W3 m ρ c)
theorem W4_v14 : W4 m ρ c (Proc.devRef .tc main_v14) = W3 m ρ c (Proc.devRef .tc main_v14) := ops1_1_keep_v14 (W3 m ρ c)
theorem W4_v16 : W4 m ρ c (Proc.devRef .tc main_v16) = W3 m ρ c (Proc.devRef .tc main_v16) := ops1_1_keep_v16 (W3 m ρ c)
theorem W4_v18 : W4 m ρ c (Proc.devRef .tc main_v18) = W3 m ρ c (Proc.devRef .tc main_v18) := ops1_1_keep_v18 (W3 m ρ c)
theorem W4_v21 : W4 m ρ c (Proc.devRef .tc main_v21) = s1 m c := (ops1_1_keep_v21 (W3 m ρ c)).trans (W3_v21 m ρ c)
theorem W4_v28 : W4 m ρ c (Proc.devRef .tc main_v28) = idxB (m ((c : Thread nD τ).loc main_arg3)) := (ops1_1_keep_v28 (W3 m ρ c)).trans (W3_v28 m ρ c)
theorem W4_arg1 : W4 m ρ c (Proc.devRef .tc main_arg1) = m ((c : Thread nD τ).loc main_arg1) := (ops1_1_keep_arg1 (W3 m ρ c)).trans (W3_arg1 m ρ c)
theorem W4_arg2 : W4 m ρ c (Proc.devRef .tc main_arg2) = m ((c : Thread nD τ).loc main_arg2) := (ops1_1_keep_arg2 (W3 m ρ c)).trans (W3_arg2 m ρ c)

-- after the second gather
theorem W5_v30 : W5 m ρ c (Proc.devRef .tc main_v30) = take (s1 m c) (idxB (m ((c : Thread nD τ).loc main_arg3))) :=
  (ops1_2_v30 (W4 m ρ c)).trans (by rw [W4_v21, W4_v28])
theorem W5_v29 : W5 m ρ c (Proc.devRef .tc main_v29) = take (s2 m c) (idxB (m ((c : Thread nD τ).loc main_arg4))) := (ops1_2_keep_v29 (W4 m ρ c)).trans (W4_v29 m ρ c)
theorem W5_v8 : W5 m ρ c (Proc.devRef .tc main_v8) = W3 m ρ c (Proc.devRef .tc main_v8) := (ops1_2_keep_v8 (W4 m ρ c)).trans (W4_v8 m ρ c)
theorem W5_v10 : W5 m ρ c (Proc.devRef .tc main_v10) = W3 m ρ c (Proc.devRef .tc main_v10) := (ops1_2_keep_v10 (W4 m ρ c)).trans (W4_v10 m ρ c)
theorem W5_v12 : W5 m ρ c (Proc.devRef .tc main_v12) = W3 m ρ c (Proc.devRef .tc main_v12) := (ops1_2_keep_v12 (W4 m ρ c)).trans (W4_v12 m ρ c)
theorem W5_v14 : W5 m ρ c (Proc.devRef .tc main_v14) = W3 m ρ c (Proc.devRef .tc main_v14) := (ops1_2_keep_v14 (W4 m ρ c)).trans (W4_v14 m ρ c)
theorem W5_v16 : W5 m ρ c (Proc.devRef .tc main_v16) = W3 m ρ c (Proc.devRef .tc main_v16) := (ops1_2_keep_v16 (W4 m ρ c)).trans (W4_v16 m ρ c)
theorem W5_v18 : W5 m ρ c (Proc.devRef .tc main_v18) = W3 m ρ c (Proc.devRef .tc main_v18) := (ops1_2_keep_v18 (W4 m ρ c)).trans (W4_v18 m ρ c)
theorem W5_arg1 : W5 m ρ c (Proc.devRef .tc main_arg1) = m ((c : Thread nD τ).loc main_arg1) := (ops1_2_keep_arg1 (W4 m ρ c)).trans (W4_arg1 m ρ c)
theorem W5_arg2 : W5 m ρ c (Proc.devRef .tc main_arg2) = m ((c : Thread nD τ).loc main_arg2) := (ops1_2_keep_arg2 (W4 m ρ c)).trans (W4_arg2 m ρ c)

-- after the masks and the additive terms (the second launch's entry)
theorem W6_v44 : W6 m ρ c (Proc.devRef .tc main_v44) = add1 m c := (ops1_3_v44 (W5 m ρ c)).trans (by rw [W5_v29, W5_arg1]; rfl)
theorem W6_v48 : W6 m ρ c (Proc.devRef .tc main_v48) = add2 m c := (ops1_3_v48 (W5 m ρ c)).trans (by rw [W5_v30, W5_arg2]; rfl)
theorem W6_v8 : W6 m ρ c (Proc.devRef .tc main_v8) = headsQ (q1 m c) := ((ops1_3_keep_v8 (W5 m ρ c)).trans (W5_v8 m ρ c)).trans (W3_v8 m ρ c)
theorem W6_v10 : W6 m ρ c (Proc.devRef .tc main_v10) = headsQ (k1 m c) := ((ops1_3_keep_v10 (W5 m ρ c)).trans (W5_v10 m ρ c)).trans (W3_v10 m ρ c)
theorem W6_v12 : W6 m ρ c (Proc.devRef .tc main_v12) = headsQ (q2 m c) := ((ops1_3_keep_v12 (W5 m ρ c)).trans (W5_v12 m ρ c)).trans (W3_v12 m ρ c)
theorem W6_v14 : W6 m ρ c (Proc.devRef .tc main_v14) = headsQ (k2 m c) := ((ops1_3_keep_v14 (W5 m ρ c)).trans (W5_v14 m ρ c)).trans (W3_v14 m ρ c)
theorem W6_v16 : W6 m ρ c (Proc.devRef .tc main_v16) = headsV (v1 m c) := ((ops1_3_keep_v16 (W5 m ρ c)).trans (W5_v16 m ρ c)).trans (W3_v16 m ρ c)
theorem W6_v18 : W6 m ρ c (Proc.devRef .tc main_v18) = headsV (v2 m c) := ((ops1_3_keep_v18 (W5 m ρ c)).trans (W5_v18 m ρ c)).trans (W3_v18 m ρ c)

-- after the second launch: its two outputs are the attention outputs
theorem W7_v49_0 : W7 m ρ c (Proc.devRef .tc main_v49_0)
    = Cert.Spec.attn (headsQ (F := Ideal) (q1 m c)) (headsQ (F := Ideal) (k1 m c)) (headsV (F := Ideal) (v1 m c)) (add1 m c) :=
  (W7_arr m ρ c 8).trans ((AttnValue.arr8 (V6 m ρ) c).trans (by
    rw [show V6 m ρ c main_v8 = _ from W6_v8 m ρ c, show V6 m ρ c main_v10 = _ from W6_v10 m ρ c,
      show V6 m ρ c main_v16 = _ from W6_v16 m ρ c, show V6 m ρ c main_v44 = _ from W6_v44 m ρ c]))
theorem W7_v49_1 : W7 m ρ c (Proc.devRef .tc main_v49_1)
    = Cert.Spec.attn (headsQ (F := Ideal) (q2 m c)) (headsQ (F := Ideal) (k2 m c)) (headsV (F := Ideal) (v2 m c)) (add2 m c) :=
  (W7_arr m ρ c 9).trans ((AttnValue.arr9 (V6 m ρ) c).trans (by
    rw [show V6 m ρ c main_v12 = _ from W6_v12 m ρ c, show V6 m ρ c main_v14 = _ from W6_v14 m ρ c,
      show V6 m ρ c main_v18 = _ from W6_v18 m ρ c, show V6 m ρ c main_v48 = _ from W6_v48 m ρ c]))

/-- The last boundary: the result buffer holds `result`. -/
theorem W8_v54 : W8 m ρ c (Proc.devRef .tc main_v54) = result m c :=
  (ops2_v54 (W7 m ρ c)).trans (by rw [W7_v49_0, W7_v49_1]; rfl)

end Cert.KernelIdeal.KernelValue

end
-- ==== Proof.RefRun.lean ====
/-
  The array program's run, read stretch by stretch. Its 141 operations are taken in 18 consecutive stretches; for each
  stretch, each buffer a later stretch reads is either left as it was or holds the stage's function of the arguments
  (the projections and their heads, the scores, the wrapped row and column indices and the gathers, the graph masks, the
  logits, the softmax's shifted exponentials and quotients, the weighted sums and the final layout), given that the
  buffers the stretch reads hold theirs. Chained from the launch contents, the result buffer ends holding the last stage
  at the arguments, and no operation writes an argument.
-/
import proofs.«416605_j68384469286920_2_alg».proof.Proof.RefRunP
import proofs.«416605_j68384469286920_2_alg».proof.Proof.RefReadP
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Each stretch, from any contents `X` before it -/

theorem A1_keep_arg0 (X : Valuation τ sig (Elt F)) : after ops_A1 X (Proc.devRef .tc main_arg0) = X (Proc.devRef .tc main_arg0) := by after_results <;> rfl
theorem A1_keep_arg11 (X : Valuation τ sig (Elt F)) : after ops_A1 X (Proc.devRef .tc main_arg11) = X (Proc.devRef .tc main_arg11) := by after_results <;> rfl
theorem A1_keep_arg12 (X : Valuation τ sig (Elt F)) : after ops_A1 X (Proc.devRef .tc main_arg12) = X (Proc.devRef .tc main_arg12) := by after_results <;> rfl
theorem A1_keep_arg13 (X : Valuation τ sig (Elt F)) : after ops_A1 X (Proc.devRef .tc main_arg13) = X (Proc.devRef .tc main_arg13) := by after_results <;> rfl
theorem A1_keep_arg14 (X : Valuation τ sig (Elt F)) : after ops_A1 X (Proc.devRef .tc main_arg14) = X (Proc.devRef .tc main_arg14) := by after_results <;> rfl
theorem A1_keep_arg15 (X : Valuation τ sig (Elt F)) : after ops_A1 X (Proc.devRef .tc main_arg15) = X (Proc.devRef .tc main_arg15) := by after_results <;> rfl
theorem A1_keep_arg16 (X : Valuation τ sig (Elt F)) : after ops_A1 X (Proc.devRef .tc main_arg16) = X (Proc.devRef .tc main_arg16) := by after_results <;> rfl
theorem A1_v5 (X : Valuation τ sig (Elt F)) (x0 : (⟨S2048x1024, .f32⟩ : BufTy).Contents (Elt F)) (x5 : (⟨S1024x1024, .f32⟩ : BufTy).Contents (Elt F)) (x6 : (⟨S1024, .f32⟩ : BufTy).Contents (Elt F)) (h_arg6 : X (Proc.devRef .tc main_arg6) = x6) (h_arg0 : X (Proc.devRef .tc main_arg0) = x0) (h_arg5 : X (Proc.devRef .tc main_arg5) = x5) :
    after ops_A1 X (Proc.devRef .tc main_v5) = val_main_v5 (F := F) x0 x5 x6 := by
  after_results <;> (try rw [h_arg6, h_arg0, h_arg5]) <;> rfl
theorem A1_v11 (X : Valuation τ sig (Elt F)) (x0 : (⟨S2048x1024, .f32⟩ : BufTy).Contents (Elt F)) (x7 : (⟨S1024x1024, .f32⟩ : BufTy).Contents (Elt F)) (x8 : (⟨S1024, .f32⟩ : BufTy).Contents (Elt F)) (h_arg8 : X (Proc.devRef .tc main_arg8) = x8) (h_arg0 : X (Proc.devRef .tc main_arg0) = x0) (h_arg7 : X (Proc.devRef .tc main_arg7) = x7) :
    after ops_A1 X (Proc.devRef .tc main_v11) = val_main_v11 (F := F) x0 x7 x8 := by
  after_results <;> (try rw [h_arg8, h_arg0, h_arg7]) <;> rfl
theorem A1_keep_arg4 (X : Valuation τ sig (Elt F)) : after ops_A1 X (Proc.devRef .tc main_arg4) = X (Proc.devRef .tc main_arg4) := by after_results <;> rfl
theorem A1_keep_arg3 (X : Valuation τ sig (Elt F)) : after ops_A1 X (Proc.devRef .tc main_arg3) = X (Proc.devRef .tc main_arg3) := by after_results <;> rfl
theorem A1_keep_arg1 (X : Valuation τ sig (Elt F)) : after ops_A1 X (Proc.devRef .tc main_arg1) = X (Proc.devRef .tc main_arg1) := by after_results <;> rfl
theorem A1_keep_arg2 (X : Valuation τ sig (Elt F)) : after ops_A1 X (Proc.devRef .tc main_arg2) = X (Proc.devRef .tc main_arg2) := by after_results <;> rfl
theorem A1_v17 (X : Valuation τ sig (Elt F)) (x0 : (⟨S2048x1024, .f32⟩ : BufTy).Contents (Elt F)) (x9 : (⟨S1024x512, .f32⟩ : BufTy).Contents (Elt F)) (x10 : (⟨S512, .f32⟩ : BufTy).Contents (Elt F)) (h_arg10 : X (Proc.devRef .tc main_arg10) = x10) (h_arg0 : X (Proc.devRef .tc main_arg0) = x0) (h_arg9 : X (Proc.devRef .tc main_arg9) = x9) :
    after ops_A1 X (Proc.devRef .tc main_v17) = val_main_v17 (F := F) x0 x9 x10 := by
  after_results <;> (try rw [h_arg10, h_arg0, h_arg9]) <;> rfl
theorem A2_keep_v5 (X : Valuation τ sig (Elt F)) : after ops_A2 X (Proc.devRef .tc main_v5) = X (Proc.devRef .tc main_v5) := by after_results <;> rfl
theorem A2_keep_v11 (X : Valuation τ sig (Elt F)) : after ops_A2 X (Proc.devRef .tc main_v11) = X (Proc.devRef .tc main_v11) := by after_results <;> rfl
theorem A2_v23 (X : Valuation τ sig (Elt F)) (x0 : (⟨S2048x1024, .f32⟩ : BufTy).Contents (Elt F)) (x11 : (⟨S1024x1024, .f32⟩ : BufTy).Contents (Elt F)) (x12 : (⟨S1024, .f32⟩ : BufTy).Contents (Elt F)) (h_arg12 : X (Proc.devRef .tc main_arg12) = x12) (h_arg0 : X (Proc.devRef .tc main_arg0) = x0) (h_arg11 : X (Proc.devRef .tc main_arg11) = x11) :
    after ops_A2 X (Proc.devRef .tc main_v23) = val_main_v23 (F := F) x0 x11 x12 := by
  after_results <;> (try rw [h_arg12, h_arg0, h_arg11]) <;> rfl
theorem A2_v29 (X : Valuation τ sig (Elt F)) (x0 : (⟨S2048x1024, .f32⟩ : BufTy).Contents (Elt F)) (x13 : (⟨S1024x1024, .f32⟩ : BufTy).Contents (Elt F)) (x14 : (⟨S1024, .f32⟩ : BufTy).Contents (Elt F)) (h_arg14 : X (Proc.devRef .tc main_arg14) = x14) (h_arg0 : X (Proc.devRef .tc main_arg0) = x0) (h_arg13 : X (Proc.devRef .tc main_arg13) = x13) :
    after ops_A2 X (Proc.devRef .tc main_v29) = val_main_v29 (F := F) x0 x13 x14 := by
  after_results <;> (try rw [h_arg14, h_arg0, h_arg13]) <;> rfl
theorem A2_keep_arg4 (X : Valuation τ sig (Elt F)) : after ops_A2 X (Proc.devRef .tc main_arg4) = X (Proc.devRef .tc main_arg4) := by after_results <;> rfl
theorem A2_keep_arg3 (X : Valuation τ sig (Elt F)) : after ops_A2 X (Proc.devRef .tc main_arg3) = X (Proc.devRef .tc main_arg3) := by after_results <;> rfl
theorem A2_keep_arg1 (X : Valuation τ sig (Elt F)) : after ops_A2 X (Proc.devRef .tc main_arg1) = X (Proc.devRef .tc main_arg1) := by after_results <;> rfl
theorem A2_keep_arg2 (X : Valuation τ sig (Elt F)) : after ops_A2 X (Proc.devRef .tc main_arg2) = X (Proc.devRef .tc main_arg2) := by after_results <;> rfl
theorem A2_keep_v17 (X : Valuation τ sig (Elt F)) : after ops_A2 X (Proc.devRef .tc main_v17) = X (Proc.devRef .tc main_v17) := by after_results <;> rfl
theorem A2_v35 (X : Valuation τ sig (Elt F)) (x0 : (⟨S2048x1024, .f32⟩ : BufTy).Contents (Elt F)) (x15 : (⟨S1024x512, .f32⟩ : BufTy).Contents (Elt F)) (x16 : (⟨S512, .f32⟩ : BufTy).Contents (Elt F)) (h_arg16 : X (Proc.devRef .tc main_arg16) = x16) (h_arg0 : X (Proc.devRef .tc main_arg0) = x0) (h_arg15 : X (Proc.devRef .tc main_arg15) = x15) :
    after ops_A2 X (Proc.devRef .tc main_v35) = val_main_v35 (F := F) x0 x15 x16 := by
  after_results <;> (try rw [h_arg16, h_arg0, h_arg15]) <;> rfl
theorem B_keep_arg4 (X : Valuation τ sig (Elt F)) : after ops_B X (Proc.devRef .tc main_arg4) = X (Proc.devRef .tc main_arg4) := by after_results <;> rfl
theorem B_v41 (X : Valuation τ sig (Elt F)) (x0 : (⟨S2048x1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v23 : X (Proc.devRef .tc main_v23) = val_main_v23 (F := F) x0 x11 x12) (h_v29 : X (Proc.devRef .tc main_v29) = val_main_v29 (F := F) x0 x13 x14) :
    after ops_B X (Proc.devRef .tc main_v41) = val_main_v41 (F := F) x0 x11 x12 x13 x14 := by
  after_results <;> (try rw [h_v23, h_v29]) <;> rfl
theorem B_keep_arg3 (X : Valuation τ sig (Elt F)) : after ops_B X (Proc.devRef .tc main_arg3) = X (Proc.devRef .tc main_arg3) := by after_results <;> rfl
theorem B_v38 (X : Valuation τ sig (Elt F)) (x0 : (⟨S2048x1024, .f32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (h_v5 : X (Proc.devRef .tc main_v5) = val_main_v5 (F := F) x0 x5 x6) (h_v11 : X (Proc.devRef .tc main_v11) = val_main_v11 (F := F) x0 x7 x8) :
    after ops_B X (Proc.devRef .tc main_v38) = val_main_v38 (F := F) x0 x5 x6 x7 x8 := by
  after_results <;> (try rw [h_v5, h_v11]) <;> rfl
theorem B_keep_arg1 (X : Valuation τ sig (Elt F)) : after ops_B X (Proc.devRef .tc main_arg1) = X (Proc.devRef .tc main_arg1) := by after_results <;> rfl
theorem B_keep_arg2 (X : Valuation τ sig (Elt F)) : after ops_B X (Proc.devRef .tc main_arg2) = X (Proc.devRef .tc main_arg2) := by after_results <;> rfl
theorem B_keep_v17 (X : Valuation τ sig (Elt F)) : after ops_B X (Proc.devRef .tc main_v17) = X (Proc.devRef .tc main_v17) := by after_results <;> rfl
theorem B_keep_v35 (X : Valuation τ sig (Elt F)) : after ops_B X (Proc.devRef .tc main_v35) = X (Proc.devRef .tc main_v35) := by after_results <;> rfl
theorem C1_keep_arg4 (X : Valuation τ sig (Elt F)) : after ops_C1 X (Proc.devRef .tc main_arg4) = X (Proc.devRef .tc main_arg4) := by after_results <;> rfl
theorem C1_v48 (X : Valuation τ sig (Elt F))   :
    after ops_C1 X (Proc.devRef .tc main_v48) = val_main_v48 (F := F) := by
  after_results <;> (try rw []) <;> rfl
theorem C1_keep_v41 (X : Valuation τ sig (Elt F)) : after ops_C1 X (Proc.devRef .tc main_v41) = X (Proc.devRef .tc main_v41) := by after_results <;> rfl
theorem C1_v43 (X : Valuation τ sig (Elt F))   :
    after ops_C1 X (Proc.devRef .tc main_v43) = val_main_v43 (F := F) := by
  after_results <;> (try rw []) <;> rfl
theorem C1_keep_arg3 (X : Valuation τ sig (Elt F)) : after ops_C1 X (Proc.devRef .tc main_arg3) = X (Proc.devRef .tc main_arg3) := by after_results <;> rfl
theorem C1_keep_v38 (X : Valuation τ sig (Elt F)) : after ops_C1 X (Proc.devRef .tc main_v38) = X (Proc.devRef .tc main_v38) := by after_results <;> rfl
theorem C1_keep_arg1 (X : Valuation τ sig (Elt F)) : after ops_C1 X (Proc.devRef .tc main_arg1) = X (Proc.devRef .tc main_arg1) := by after_results <;> rfl
theorem C1_keep_arg2 (X : Valuation τ sig (Elt F)) : after ops_C1 X (Proc.devRef .tc main_arg2) = X (Proc.devRef .tc main_arg2) := by after_results <;> rfl
theorem C1_keep_v17 (X : Valuation τ sig (Elt F)) : after ops_C1 X (Proc.devRef .tc main_v17) = X (Proc.devRef .tc main_v17) := by after_results <;> rfl
theorem C1_keep_v35 (X : Valuation τ sig (Elt F)) : after ops_C1 X (Proc.devRef .tc main_v35) = X (Proc.devRef .tc main_v35) := by after_results <;> rfl
theorem C2_keep_v48 (X : Valuation τ sig (Elt F)) : after ops_C2 X (Proc.devRef .tc main_v48) = X (Proc.devRef .tc main_v48) := by after_results <;> rfl
theorem C2_v53 (X : Valuation τ sig (Elt F)) (x4 : (⟨S2048x2048, .i32⟩ : BufTy).Contents (Elt F)) (h_arg4 : X (Proc.devRef .tc main_arg4) = x4) :
    after ops_C2 X (Proc.devRef .tc main_v53) = val_main_v53 (F := F) x4 := by
  after_results <;> (try rw [h_arg4]) <;> rfl
theorem C2_keep_v41 (X : Valuation τ sig (Elt F)) : after ops_C2 X (Proc.devRef .tc main_v41) = X (Proc.devRef .tc main_v41) := by after_results <;> rfl
theorem C2_keep_v43 (X : Valuation τ sig (Elt F)) : after ops_C2 X (Proc.devRef .tc main_v43) = X (Proc.devRef .tc main_v43) := by after_results <;> rfl
theorem C2_keep_arg3 (X : Valuation τ sig (Elt F)) : after ops_C2 X (Proc.devRef .tc main_arg3) = X (Proc.devRef .tc main_arg3) := by after_results <;> rfl
theorem C2_keep_v38 (X : Valuation τ sig (Elt F)) : after ops_C2 X (Proc.devRef .tc main_v38) = X (Proc.devRef .tc main_v38) := by after_results <;> rfl
theorem C2_keep_arg1 (X : Valuation τ sig (Elt F)) : after ops_C2 X (Proc.devRef .tc main_arg1) = X (Proc.devRef .tc main_arg1) := by after_results <;> rfl
theorem C2_keep_arg2 (X : Valuation τ sig (Elt F)) : after ops_C2 X (Proc.devRef .tc main_arg2) = X (Proc.devRef .tc main_arg2) := by after_results <;> rfl
theorem C2_keep_v17 (X : Valuation τ sig (Elt F)) : after ops_C2 X (Proc.devRef .tc main_v17) = X (Proc.devRef .tc main_v17) := by after_results <;> rfl
theorem C2_keep_v35 (X : Valuation τ sig (Elt F)) : after ops_C2 X (Proc.devRef .tc main_v35) = X (Proc.devRef .tc main_v35) := by after_results <;> rfl
theorem C3_keep_v43 (X : Valuation τ sig (Elt F)) : after ops_C3 X (Proc.devRef .tc main_v43) = X (Proc.devRef .tc main_v43) := by after_results <;> rfl
theorem C3_keep_arg3 (X : Valuation τ sig (Elt F)) : after ops_C3 X (Proc.devRef .tc main_arg3) = X (Proc.devRef .tc main_arg3) := by after_results <;> rfl
theorem C3_keep_v38 (X : Valuation τ sig (Elt F)) : after ops_C3 X (Proc.devRef .tc main_v38) = X (Proc.devRef .tc main_v38) := by after_results <;> rfl
theorem C3_keep_arg1 (X : Valuation τ sig (Elt F)) : after ops_C3 X (Proc.devRef .tc main_arg1) = X (Proc.devRef .tc main_arg1) := by after_results <;> rfl
theorem C3_keep_arg2 (X : Valuation τ sig (Elt F)) : after ops_C3 X (Proc.devRef .tc main_arg2) = X (Proc.devRef .tc main_arg2) := by after_results <;> rfl
theorem C3_v58 (X : Valuation τ sig (Elt F)) (x0 : (⟨S2048x1024, .f32⟩ : BufTy).Contents (Elt F)) (x4 : (⟨S2048x2048, .i32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v41 : X (Proc.devRef .tc main_v41) = val_main_v41 (F := F) x0 x11 x12 x13 x14) (h_v53 : X (Proc.devRef .tc main_v53) = val_main_v53 (F := F) x4) (h_v48 : X (Proc.devRef .tc main_v48) = val_main_v48 (F := F)) :
    after ops_C3 X (Proc.devRef .tc main_v58) = val_main_v58 (F := F) x0 x4 x11 x12 x13 x14 := by
  after_results <;> (try rw [h_v41, h_v53, h_v48]) <;> rfl
theorem C3_keep_v41 (X : Valuation τ sig (Elt F)) : after ops_C3 X (Proc.devRef .tc main_v41) = X (Proc.devRef .tc main_v41) := by after_results <;> rfl
theorem C3_keep_v17 (X : Valuation τ sig (Elt F)) : after ops_C3 X (Proc.devRef .tc main_v17) = X (Proc.devRef .tc main_v17) := by after_results <;> rfl
theorem C3_keep_v35 (X : Valuation τ sig (Elt F)) : after ops_C3 X (Proc.devRef .tc main_v35) = X (Proc.devRef .tc main_v35) := by after_results <;> rfl
theorem D1_keep_arg3 (X : Valuation τ sig (Elt F)) : after ops_D1 X (Proc.devRef .tc main_arg3) = X (Proc.devRef .tc main_arg3) := by after_results <;> rfl
theorem D1_v63 (X : Valuation τ sig (Elt F))  (h_v43 : X (Proc.devRef .tc main_v43) = val_main_v43 (F := F)) :
    after ops_D1 X (Proc.devRef .tc main_v63) = val_main_v63 (F := F) := by
  after_results <;> (try rw [h_v43]) <;> rfl
theorem D1_keep_v38 (X : Valuation τ sig (Elt F)) : after ops_D1 X (Proc.devRef .tc main_v38) = X (Proc.devRef .tc main_v38) := by after_results <;> rfl
theorem D1_keep_arg1 (X : Valuation τ sig (Elt F)) : after ops_D1 X (Proc.devRef .tc main_arg1) = X (Proc.devRef .tc main_arg1) := by after_results <;> rfl
theorem D1_keep_arg2 (X : Valuation τ sig (Elt F)) : after ops_D1 X (Proc.devRef .tc main_arg2) = X (Proc.devRef .tc main_arg2) := by after_results <;> rfl
theorem D1_keep_v58 (X : Valuation τ sig (Elt F)) : after ops_D1 X (Proc.devRef .tc main_v58) = X (Proc.devRef .tc main_v58) := by after_results <;> rfl
theorem D1_keep_v41 (X : Valuation τ sig (Elt F)) : after ops_D1 X (Proc.devRef .tc main_v41) = X (Proc.devRef .tc main_v41) := by after_results <;> rfl
theorem D1_keep_v17 (X : Valuation τ sig (Elt F)) : after ops_D1 X (Proc.devRef .tc main_v17) = X (Proc.devRef .tc main_v17) := by after_results <;> rfl
theorem D1_keep_v35 (X : Valuation τ sig (Elt F)) : after ops_D1 X (Proc.devRef .tc main_v35) = X (Proc.devRef .tc main_v35) := by after_results <;> rfl
theorem D2_keep_v63 (X : Valuation τ sig (Elt F)) : after ops_D2 X (Proc.devRef .tc main_v63) = X (Proc.devRef .tc main_v63) := by after_results <;> rfl
theorem D2_v68 (X : Valuation τ sig (Elt F)) (x3 : (⟨S2048x2048, .i32⟩ : BufTy).Contents (Elt F)) (h_arg3 : X (Proc.devRef .tc main_arg3) = x3) :
    after ops_D2 X (Proc.devRef .tc main_v68) = val_main_v68 (F := F) x3 := by
  after_results <;> (try rw [h_arg3]) <;> rfl
theorem D2_keep_v38 (X : Valuation τ sig (Elt F)) : after ops_D2 X (Proc.devRef .tc main_v38) = X (Proc.devRef .tc main_v38) := by after_results <;> rfl
theorem D2_keep_arg1 (X : Valuation τ sig (Elt F)) : after ops_D2 X (Proc.devRef .tc main_arg1) = X (Proc.devRef .tc main_arg1) := by after_results <;> rfl
theorem D2_keep_arg2 (X : Valuation τ sig (Elt F)) : after ops_D2 X (Proc.devRef .tc main_arg2) = X (Proc.devRef .tc main_arg2) := by after_results <;> rfl
theorem D2_keep_v58 (X : Valuation τ sig (Elt F)) : after ops_D2 X (Proc.devRef .tc main_v58) = X (Proc.devRef .tc main_v58) := by after_results <;> rfl
theorem D2_keep_v41 (X : Valuation τ sig (Elt F)) : after ops_D2 X (Proc.devRef .tc main_v41) = X (Proc.devRef .tc main_v41) := by after_results <;> rfl
theorem D2_keep_v17 (X : Valuation τ sig (Elt F)) : after ops_D2 X (Proc.devRef .tc main_v17) = X (Proc.devRef .tc main_v17) := by after_results <;> rfl
theorem D2_keep_v35 (X : Valuation τ sig (Elt F)) : after ops_D2 X (Proc.devRef .tc main_v35) = X (Proc.devRef .tc main_v35) := by after_results <;> rfl
theorem D3_keep_arg1 (X : Valuation τ sig (Elt F)) : after ops_D3 X (Proc.devRef .tc main_arg1) = X (Proc.devRef .tc main_arg1) := by after_results <;> rfl
theorem D3_keep_arg2 (X : Valuation τ sig (Elt F)) : after ops_D3 X (Proc.devRef .tc main_arg2) = X (Proc.devRef .tc main_arg2) := by after_results <;> rfl
theorem D3_keep_v38 (X : Valuation τ sig (Elt F)) : after ops_D3 X (Proc.devRef .tc main_v38) = X (Proc.devRef .tc main_v38) := by after_results <;> rfl
theorem D3_keep_v58 (X : Valuation τ sig (Elt F)) : after ops_D3 X (Proc.devRef .tc main_v58) = X (Proc.devRef .tc main_v58) := by after_results <;> rfl
theorem D3_keep_v41 (X : Valuation τ sig (Elt F)) : after ops_D3 X (Proc.devRef .tc main_v41) = X (Proc.devRef .tc main_v41) := by after_results <;> rfl
theorem D3_v73 (X : Valuation τ sig (Elt F)) (x0 : (⟨S2048x1024, .f32⟩ : BufTy).Contents (Elt F)) (x3 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (h_v38 : X (Proc.devRef .tc main_v38) = val_main_v38 (F := F) x0 x5 x6 x7 x8) (h_v68 : X (Proc.devRef .tc main_v68) = val_main_v68 (F := F) x3) (h_v63 : X (Proc.devRef .tc main_v63) = val_main_v63 (F := F)) :
    after ops_D3 X (Proc.devRef .tc main_v73) = val_main_v73 (F := F) x0 x3 x5 x6 x7 x8 := by
  after_results <;> (try rw [h_v38, h_v68, h_v63]) <;> rfl
theorem D3_keep_v17 (X : Valuation τ sig (Elt F)) : after ops_D3 X (Proc.devRef .tc main_v17) = X (Proc.devRef .tc main_v17) := by after_results <;> rfl
theorem D3_keep_v35 (X : Valuation τ sig (Elt F)) : after ops_D3 X (Proc.devRef .tc main_v35) = X (Proc.devRef .tc main_v35) := by after_results <;> rfl
theorem E1_keep_arg2 (X : Valuation τ sig (Elt F)) : after ops_E1 X (Proc.devRef .tc main_arg2) = X (Proc.devRef .tc main_arg2) := by after_results <;> rfl
theorem E1_keep_v38 (X : Valuation τ sig (Elt F)) : after ops_E1 X (Proc.devRef .tc main_v38) = X (Proc.devRef .tc main_v38) := by after_results <;> rfl
theorem E1_keep_v58 (X : Valuation τ sig (Elt F)) : after ops_E1 X (Proc.devRef .tc main_v58) = X (Proc.devRef .tc main_v58) := by after_results <;> rfl
theorem E1_v78 (X : Valuation τ sig (Elt F)) (x1 : (⟨S2048x2048, .f32⟩ : BufTy).Contents (Elt F)) (h_arg1 : X (Proc.devRef .tc main_arg1) = x1) :
    after ops_E1 X (Proc.devRef .tc main_v78) = val_main_v78 (F := F) x1 := by
  after_results <;> (try rw [h_arg1]) <;> rfl
theorem E1_keep_v41 (X : Valuation τ sig (Elt F)) : after ops_E1 X (Proc.devRef .tc main_v41) = X (Proc.devRef .tc main_v41) := by after_results <;> rfl
theorem E1_keep_v73 (X : Valuation τ sig (Elt F)) : after ops_E1 X (Proc.devRef .tc main_v73) = X (Proc.devRef .tc main_v73) := by after_results <;> rfl
theorem E1_keep_v17 (X : Valuation τ sig (Elt F)) : after ops_E1 X (Proc.devRef .tc main_v17) = X (Proc.devRef .tc main_v17) := by after_results <;> rfl
theorem E1_keep_v35 (X : Valuation τ sig (Elt F)) : after ops_E1 X (Proc.devRef .tc main_v35) = X (Proc.devRef .tc main_v35) := by after_results <;> rfl
theorem E2_keep_v38 (X : Valuation τ sig (Elt F)) : after ops_E2 X (Proc.devRef .tc main_v38) = X (Proc.devRef .tc main_v38) := by after_results <;> rfl
theorem E2_keep_v58 (X : Valuation τ sig (Elt F)) : after ops_E2 X (Proc.devRef .tc main_v58) = X (Proc.devRef .tc main_v58) := by after_results <;> rfl
theorem E2_keep_v78 (X : Valuation τ sig (Elt F)) : after ops_E2 X (Proc.devRef .tc main_v78) = X (Proc.devRef .tc main_v78) := by after_results <;> rfl
theorem E2_keep_v41 (X : Valuation τ sig (Elt F)) : after ops_E2 X (Proc.devRef .tc main_v41) = X (Proc.devRef .tc main_v41) := by after_results <;> rfl
theorem E2_keep_v73 (X : Valuation τ sig (Elt F)) : after ops_E2 X (Proc.devRef .tc main_v73) = X (Proc.devRef .tc main_v73) := by after_results <;> rfl
theorem E2_v83 (X : Valuation τ sig (Elt F)) (x2 : (⟨S2048x2048, .f32⟩ : BufTy).Contents (Elt F)) (h_arg2 : X (Proc.devRef .tc main_arg2) = x2) :
    after ops_E2 X (Proc.devRef .tc main_v83) = val_main_v83 (F := F) x2 := by
  after_results <;> (try rw [h_arg2]) <;> rfl
theorem E2_keep_v17 (X : Valuation τ sig (Elt F)) : after ops_E2 X (Proc.devRef .tc main_v17) = X (Proc.devRef .tc main_v17) := by after_results <;> rfl
theorem E2_keep_v35 (X : Valuation τ sig (Elt F)) : after ops_E2 X (Proc.devRef .tc main_v35) = X (Proc.devRef .tc main_v35) := by after_results <;> rfl
theorem F1_v87 (X : Valuation τ sig (Elt F)) (x0 : (⟨S2048x1024, .f32⟩ : BufTy).Contents (Elt F)) (x1 : (⟨S2048x2048, .f32⟩ : BufTy).Contents (Elt F)) (x4 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v78 : X (Proc.devRef .tc main_v78) = val_main_v78 (F := F) x1) (h_v38 : X (Proc.devRef .tc main_v38) = val_main_v38 (F := F) x0 x5 x6 x7 x8) (h_v58 : X (Proc.devRef .tc main_v58) = val_main_v58 (F := F) x0 x4 x11 x12 x13 x14) :
    after ops_F1 X (Proc.devRef .tc main_v87) = val_main_v87 (F := F) x0 x1 x4 x5 x6 x7 x8 x11 x12 x13 x14 := by
  after_results <;> (try rw [h_v78, h_v38, h_v58]) <;> rfl
theorem F1_keep_v41 (X : Valuation τ sig (Elt F)) : after ops_F1 X (Proc.devRef .tc main_v41) = X (Proc.devRef .tc main_v41) := by after_results <;> rfl
theorem F1_keep_v73 (X : Valuation τ sig (Elt F)) : after ops_F1 X (Proc.devRef .tc main_v73) = X (Proc.devRef .tc main_v73) := by after_results <;> rfl
theorem F1_keep_v83 (X : Valuation τ sig (Elt F)) : after ops_F1 X (Proc.devRef .tc main_v83) = X (Proc.devRef .tc main_v83) := by after_results <;> rfl
theorem F1_keep_v17 (X : Valuation τ sig (Elt F)) : after ops_F1 X (Proc.devRef .tc main_v17) = X (Proc.devRef .tc main_v17) := by after_results <;> rfl
theorem F1_keep_v35 (X : Valuation τ sig (Elt F)) : after ops_F1 X (Proc.devRef .tc main_v35) = X (Proc.devRef .tc main_v35) := by after_results <;> rfl
theorem F2_v94 (X : Valuation τ sig (Elt F)) (x0 : (⟨S2048x1024, .f32⟩ : BufTy).Contents (Elt F)) (x1 : (⟨S2048x2048, .f32⟩ : BufTy).Contents (Elt F)) (x4 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v87 : X (Proc.devRef .tc main_v87) = val_main_v87 (F := F) x0 x1 x4 x5 x6 x7 x8 x11 x12 x13 x14) :
    after ops_F2 X (Proc.devRef .tc main_v94) = val_main_v94 (F := F) x0 x1 x4 x5 x6 x7 x8 x11 x12 x13 x14 := by
  after_results <;> (try rw [h_v87]) <;> rfl
theorem F2_keep_v41 (X : Valuation τ sig (Elt F)) : after ops_F2 X (Proc.devRef .tc main_v41) = X (Proc.devRef .tc main_v41) := by after_results <;> rfl
theorem F2_keep_v73 (X : Valuation τ sig (Elt F)) : after ops_F2 X (Proc.devRef .tc main_v73) = X (Proc.devRef .tc main_v73) := by after_results <;> rfl
theorem F2_keep_v83 (X : Valuation τ sig (Elt F)) : after ops_F2 X (Proc.devRef .tc main_v83) = X (Proc.devRef .tc main_v83) := by after_results <;> rfl
theorem F2_keep_v17 (X : Valuation τ sig (Elt F)) : after ops_F2 X (Proc.devRef .tc main_v17) = X (Proc.devRef .tc main_v17) := by after_results <;> rfl
theorem F2_keep_v35 (X : Valuation τ sig (Elt F)) : after ops_F2 X (Proc.devRef .tc main_v35) = X (Proc.devRef .tc main_v35) := by after_results <;> rfl
theorem F3_keep_v41 (X : Valuation τ sig (Elt F)) : after ops_F3 X (Proc.devRef .tc main_v41) = X (Proc.devRef .tc main_v41) := by after_results <;> rfl
theorem F3_keep_v73 (X : Valuation τ sig (Elt F)) : after ops_F3 X (Proc.devRef .tc main_v73) = X (Proc.devRef .tc main_v73) := by after_results <;> rfl
theorem F3_keep_v83 (X : Valuation τ sig (Elt F)) : after ops_F3 X (Proc.devRef .tc main_v83) = X (Proc.devRef .tc main_v83) := by after_results <;> rfl
theorem F3_v98 (X : Valuation τ sig (Elt F)) (x0 : (⟨S2048x1024, .f32⟩ : BufTy).Contents (Elt F)) (x1 : (⟨S2048x2048, .f32⟩ : BufTy).Contents (Elt F)) (x4 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v94 : X (Proc.devRef .tc main_v94) = val_main_v94 (F := F) x0 x1 x4 x5 x6 x7 x8 x11 x12 x13 x14) :
    after ops_F3 X (Proc.devRef .tc main_v98) = val_main_v98 (F := F) x0 x1 x4 x5 x6 x7 x8 x11 x12 x13 x14 := by
  after_results <;> (try rw [h_v94]) <;> rfl
theorem F3_keep_v17 (X : Valuation τ sig (Elt F)) : after ops_F3 X (Proc.devRef .tc main_v17) = X (Proc.devRef .tc main_v17) := by after_results <;> rfl
theorem F3_keep_v35 (X : Valuation τ sig (Elt F)) : after ops_F3 X (Proc.devRef .tc main_v35) = X (Proc.devRef .tc main_v35) := by after_results <;> rfl
theorem G1_v102 (X : Valuation τ sig (Elt F)) (x0 : (⟨S2048x1024, .f32⟩ : BufTy).Contents (Elt F)) (x2 : (⟨S2048x2048, .f32⟩ : BufTy).Contents (Elt F)) (x3 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v83 : X (Proc.devRef .tc main_v83) = val_main_v83 (F := F) x2) (h_v41 : X (Proc.devRef .tc main_v41) = val_main_v41 (F := F) x0 x11 x12 x13 x14) (h_v73 : X (Proc.devRef .tc main_v73) = val_main_v73 (F := F) x0 x3 x5 x6 x7 x8) :
    after ops_G1 X (Proc.devRef .tc main_v102) = val_main_v102 (F := F) x0 x2 x3 x5 x6 x7 x8 x11 x12 x13 x14 := by
  after_results <;> (try rw [h_v83, h_v41, h_v73]) <;> rfl
theorem G1_keep_v98 (X : Valuation τ sig (Elt F)) : after ops_G1 X (Proc.devRef .tc main_v98) = X (Proc.devRef .tc main_v98) := by after_results <;> rfl
theorem G1_keep_v17 (X : Valuation τ sig (Elt F)) : after ops_G1 X (Proc.devRef .tc main_v17) = X (Proc.devRef .tc main_v17) := by after_results <;> rfl
theorem G1_keep_v35 (X : Valuation τ sig (Elt F)) : after ops_G1 X (Proc.devRef .tc main_v35) = X (Proc.devRef .tc main_v35) := by after_results <;> rfl
theorem G2_v109 (X : Valuation τ sig (Elt F)) (x0 : (⟨S2048x1024, .f32⟩ : BufTy).Contents (Elt F)) (x2 : (⟨S2048x2048, .f32⟩ : BufTy).Contents (Elt F)) (x3 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v102 : X (Proc.devRef .tc main_v102) = val_main_v102 (F := F) x0 x2 x3 x5 x6 x7 x8 x11 x12 x13 x14) :
    after ops_G2 X (Proc.devRef .tc main_v109) = val_main_v109 (F := F) x0 x2 x3 x5 x6 x7 x8 x11 x12 x13 x14 := by
  after_results <;> (try rw [h_v102]) <;> rfl
theorem G2_keep_v98 (X : Valuation τ sig (Elt F)) : after ops_G2 X (Proc.devRef .tc main_v98) = X (Proc.devRef .tc main_v98) := by after_results <;> rfl
theorem G2_keep_v17 (X : Valuation τ sig (Elt F)) : after ops_G2 X (Proc.devRef .tc main_v17) = X (Proc.devRef .tc main_v17) := by after_results <;> rfl
theorem G2_keep_v35 (X : Valuation τ sig (Elt F)) : after ops_G2 X (Proc.devRef .tc main_v35) = X (Proc.devRef .tc main_v35) := by after_results <;> rfl
theorem G3_keep_v98 (X : Valuation τ sig (Elt F)) : after ops_G3 X (Proc.devRef .tc main_v98) = X (Proc.devRef .tc main_v98) := by after_results <;> rfl
theorem G3_keep_v17 (X : Valuation τ sig (Elt F)) : after ops_G3 X (Proc.devRef .tc main_v17) = X (Proc.devRef .tc main_v17) := by after_results <;> rfl
theorem G3_v113 (X : Valuation τ sig (Elt F)) (x0 : (⟨S2048x1024, .f32⟩ : BufTy).Contents (Elt F)) (x2 : (⟨S2048x2048, .f32⟩ : BufTy).Contents (Elt F)) (x3 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (h_v109 : X (Proc.devRef .tc main_v109) = val_main_v109 (F := F) x0 x2 x3 x5 x6 x7 x8 x11 x12 x13 x14) :
    after ops_G3 X (Proc.devRef .tc main_v113) = val_main_v113 (F := F) x0 x2 x3 x5 x6 x7 x8 x11 x12 x13 x14 := by
  after_results <;> (try rw [h_v109]) <;> rfl
theorem G3_keep_v35 (X : Valuation τ sig (Elt F)) : after ops_G3 X (Proc.devRef .tc main_v35) = X (Proc.devRef .tc main_v35) := by after_results <;> rfl
theorem H_v120 (X : Valuation τ sig (Elt F)) (x0 : (⟨S2048x1024, .f32⟩ : BufTy).Contents (Elt F)) (x1 : (⟨S2048x2048, .f32⟩ : BufTy).Contents (Elt F)) (x2 : (⟨S2048x2048, .f32⟩ : BufTy).Contents (Elt F)) (x3 : (⟨S2048x2048, .i32⟩ : BufTy).Contents (Elt F)) (x4 : (⟨S2048x2048, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x9 : (⟨S1024x512, .f32⟩ : BufTy).Contents (Elt F)) (x10 : (⟨S512, .f32⟩ : BufTy).Contents (Elt F)) (x11 : (⟨S1024x1024, .f32⟩ : BufTy).Contents (Elt F)) (x12 : (⟨S1024, .f32⟩ : BufTy).Contents (Elt F)) (x13 : (⟨S1024x1024, .f32⟩ : BufTy).Contents (Elt F)) (x14 : (⟨S1024, .f32⟩ : BufTy).Contents (Elt F)) (x15 : (⟨S1024x512, .f32⟩ : BufTy).Contents (Elt F)) (x16 : (⟨S512, .f32⟩ : BufTy).Contents (Elt F)) (h_v113 : X (Proc.devRef .tc main_v113) = val_main_v113 (F := F) x0 x2 x3 x5 x6 x7 x8 x11 x12 x13 x14) (h_v35 : X (Proc.devRef .tc main_v35) = val_main_v35 (F := F) x0 x15 x16) (h_v98 : X (Proc.devRef .tc main_v98) = val_main_v98 (F := F) x0 x1 x4 x5 x6 x7 x8 x11 x12 x13 x14) (h_v17 : X (Proc.devRef .tc main_v17) = val_main_v17 (F := F) x0 x9 x10) :
    after ops_H X (Proc.devRef .tc main_v120) = val_main_v120 (F := F) x0 x1 x2 x3 x4 x5 x6 x7 x8 x9 x10 x11 x12 x13 x14 x15 x16 := by
  after_results <;> (try rw [h_v113, h_v35, h_v98, h_v17]) <;> rfl

/-! ## The boundaries in order, from the launch contents `V` -/

section Chain
variable (V : Valuation τ sig (Elt F))

abbrev R_A1 : Valuation τ sig (Elt F) := after ops_A1 V
abbrev R_A2 : Valuation τ sig (Elt F) := after ops_A2 (R_A1 V)
abbrev R_B : Valuation τ sig (Elt F) := after ops_B (R_A2 V)
abbrev R_C1 : Valuation τ sig (Elt F) := after ops_C1 (R_B V)
abbrev R_C2 : Valuation τ sig (Elt F) := after ops_C2 (R_C1 V)
abbrev R_C3 : Valuation τ sig (Elt F) := after ops_C3 (R_C2 V)
abbrev R_D1 : Valuation τ sig (Elt F) := after ops_D1 (R_C3 V)
abbrev R_D2 : Valuation τ sig (Elt F) := after ops_D2 (R_D1 V)
abbrev R_D3 : Valuation τ sig (Elt F) := after ops_D3 (R_D2 V)
abbrev R_E1 : Valuation τ sig (Elt F) := after ops_E1 (R_D3 V)
abbrev R_E2 : Valuation τ sig (Elt F) := after ops_E2 (R_E1 V)
abbrev R_F1 : Valuation τ sig (Elt F) := after ops_F1 (R_E2 V)
abbrev R_F2 : Valuation τ sig (Elt F) := after ops_F2 (R_F1 V)
abbrev R_F3 : Valuation τ sig (Elt F) := after ops_F3 (R_F2 V)
abbrev R_G1 : Valuation τ sig (Elt F) := after ops_G1 (R_F3 V)
abbrev R_G2 : Valuation τ sig (Elt F) := after ops_G2 (R_G1 V)
abbrev R_G3 : Valuation τ sig (Elt F) := after ops_G3 (R_G2 V)
abbrev R_H : Valuation τ sig (Elt F) := after ops_H (R_G3 V)

theorem R_A1_arg0 : R_A1 V (Proc.devRef .tc main_arg0) = (V (Proc.devRef .tc main_arg0)) :=
  (A1_keep_arg0 V).trans rfl
theorem R_A1_arg11 : R_A1 V (Proc.devRef .tc main_arg11) = (V (Proc.devRef .tc main_arg11)) :=
  (A1_keep_arg11 V).trans rfl
theorem R_A1_arg12 : R_A1 V (Proc.devRef .tc main_arg12) = (V (Proc.devRef .tc main_arg12)) :=
  (A1_keep_arg12 V).trans rfl
theorem R_A1_arg13 : R_A1 V (Proc.devRef .tc main_arg13) = (V (Proc.devRef .tc main_arg13)) :=
  (A1_keep_arg13 V).trans rfl
theorem R_A1_arg14 : R_A1 V (Proc.devRef .tc main_arg14) = (V (Proc.devRef .tc main_arg14)) :=
  (A1_keep_arg14 V).trans rfl
theorem R_A1_arg15 : R_A1 V (Proc.devRef .tc main_arg15) = (V (Proc.devRef .tc main_arg15)) :=
  (A1_keep_arg15 V).trans rfl
theorem R_A1_arg16 : R_A1 V (Proc.devRef .tc main_arg16) = (V (Proc.devRef .tc main_arg16)) :=
  (A1_keep_arg16 V).trans rfl
theorem R_A1_v5 : R_A1 V (Proc.devRef .tc main_v5) = val_main_v5 (F := F) (V (Proc.devRef .tc main_arg0)) (V (Proc.devRef .tc main_arg5)) (V (Proc.devRef .tc main_arg6)) :=
  A1_v5 V (V (Proc.devRef .tc main_arg0)) (V (Proc.devRef .tc main_arg5)) (V (Proc.devRef .tc main_arg6)) (rfl) (rfl) (rfl)
theorem R_A1_v11 : R_A1 V (Proc.devRef .tc main_v11) = val_main_v11 (F := F) (V (Proc.devRef .tc main_arg0)) (V (Proc.devRef .tc main_arg7)) (V (Proc.devRef .tc main_arg8)) :=
  A1_v11 V (V (Proc.devRef .tc main_arg0)) (V (Proc.devRef .tc main_arg7)) (V (Proc.devRef .tc main_arg8)) (rfl) (rfl) (rfl)
theorem R_A1_arg4 : R_A1 V (Proc.devRef .tc main_arg4) = (V (Proc.devRef .tc main_arg4)) :=
  (A1_keep_arg4 V).trans rfl
theorem R_A1_arg3 : R_A1 V (Proc.devRef .tc main_arg3) = (V (Proc.devRef .tc main_arg3)) :=
  (A1_keep_arg3 V).trans rfl
theorem R_A1_arg1 : R_A1 V (Proc.devRef .tc main_arg1) = (V (Proc.devRef .tc main_arg1)) :=
  (A1_keep_arg1 V).trans rfl
theorem R_A1_arg2 : R_A1 V (Proc.devRef .tc main_arg2) = (V (Proc.devRef .tc main_arg2)) :=
  (A1_keep_arg2 V).trans rfl
theorem R_A1_v17 : R_A1 V (Proc.devRef .tc main_v17) = val_main_v17 (F := F) (V (Proc.devRef .tc main_arg0)) (V (Proc.devRef .tc main_arg9)) (V (Proc.devRef .tc main_arg10)) :=
  A1_v17 V (V (Proc.devRef .tc main_arg0)) (V (Proc.devRef .tc main_arg9)) (V (Proc.devRef .tc main_arg10)) (rfl) (rfl) (rfl)
theorem R_A2_v5 : R_A2 V (Proc.devRef .tc main_v5) = val_main_v5 (F := F) (V (Proc.devRef .tc main_arg0)) (V (Proc.devRef .tc main_arg5)) (V (Proc.devRef .tc main_arg6)) :=
  (A2_keep_v5 (R_A1 V)).trans (R_A1_v5 V)
theorem R_A2_v11 : R_A2 V (Proc.devRef .tc main_v11) = val_main_v11 (F := F) (V (Proc.devRef .tc main_arg0)) (V (Proc.devRef .tc main_arg7)) (V (Proc.devRef .tc main_arg8)) :=
  (A2_keep_v11 (R_A1 V)).trans (R_A1_v11 V)
theorem R_A2_v23 : R_A2 V (Proc.devRef .tc main_v23) = val_main_v23 (F := F) (V (Proc.devRef .tc main_arg0)) (V (Proc.devRef .tc main_arg11)) (V (Proc.devRef .tc main_arg12)) :=
  A2_v23 (R_A1 V) (V (Proc.devRef .tc main_arg0)) (V (Proc.devRef .tc main_arg11)) (V (Proc.devRef .tc main_arg12)) (R_A1_arg12 V) (R_A1_arg0 V) (R_A1_arg11 V)
theorem R_A2_v29 : R_A2 V (Proc.devRef .tc main_v29) = val_main_v29 (F := F) (V (Proc.devRef .tc main_arg0)) (V (Proc.devRef .tc main_arg13)) (V (Proc.devRef .tc main_arg14)) :=
  A2_v29 (R_A1 V) (V (Proc.devRef .tc main_arg0)) (V (Proc.devRef .tc main_arg13)) (V (Proc.devRef .tc main_arg14)) (R_A1_arg14 V) (R_A1_arg0 V) (R_A1_arg13 V)
theorem R_A2_arg4 : R_A2 V (Proc.devRef .tc main_arg4) = (V (Proc.devRef .tc main_arg4)) :=
  (A2_keep_arg4 (R_A1 V)).trans (R_A1_arg4 V)
theorem R_A2_arg3 : R_A2 V (Proc.devRef .tc main_arg3) = (V (Proc.devRef .tc main_arg3)) :=
  (A2_keep_arg3 (R_A1 V)).trans (R_A1_arg3 V)
theorem R_A2_arg1 : R_A2 V (Proc.devRef .tc main_arg1) = (V (Proc.devRef .tc main_arg1)) :=
  (A2_keep_arg1 (R_A1 V)).trans (R_A1_arg1 V)
theorem R_A2_arg2 : R_A2 V (Proc.devRef .tc main_arg2) = (V (Proc.devRef .tc main_arg2)) :=
  (A2_keep_arg2 (R_A1 V)).trans (R_A1_arg2 V)
theorem R_A2_v17 : R_A2 V (Proc.devRef .tc main_v17) = val_main_v17 (F := F) (V (Proc.devRef .tc main_arg0)) (V (Proc.devRef .tc main_arg9)) (V (Proc.devRef .tc main_arg10)) :=
  (A2_keep_v17 (R_A1 V)).trans (R_A1_v17 V)
theorem R_A2_v35 : R_A2 V (Proc.devRef .tc main_v35) = val_main_v35 (F := F) (V (Proc.devRef .tc main_arg0)) (V (Proc.devRef .tc main_arg15)) (V (Proc.devRef .tc main_arg16)) :=
  A2_v35 (R_A1 V) (V (Proc.devRef .tc main_arg0)) (V (Proc.devRef .tc main_arg15)) (V (Proc.devRef .tc main_arg16)) (R_A1_arg16 V) (R_A1_arg0 V) (R_A1_arg15 V)
theorem R_B_arg4 : R_B V (Proc.devRef .tc main_arg4) = (V (Proc.devRef .tc main_arg4)) :=
  (B_keep_arg4 (R_A2 V)).trans (R_A2_arg4 V)
theorem R_B_v41 : R_B V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  B_v41 (R_A2 V) (V (Proc.devRef .tc main_arg0)) (V (Proc.devRef .tc main_arg11)) (V (Proc.devRef .tc main_arg12)) (V (Proc.devRef .tc main_arg13)) (V (Proc.devRef .tc main_arg14)) (R_A2_v23 V) (R_A2_v29 V)
theorem R_B_arg3 : R_B V (Proc.devRef .tc main_arg3) = (V (Proc.devRef .tc main_arg3)) :=
  (B_keep_arg3 (R_A2 V)).trans (R_A2_arg3 V)
theorem R_B_v38 : R_B V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  B_v38 (R_A2 V) (V (Proc.devRef .tc main_arg0)) (V (Proc.devRef .tc main_arg5)) (V (Proc.devRef .tc main_arg6)) (V (Proc.devRef .tc main_arg7)) (V (Proc.devRef .tc main_arg8)) (R_A2_v5 V) (R_A2_v11 V)
theorem R_B_arg1 : R_B V (Proc.devRef .tc main_arg1) = (V (Proc.devRef .tc main_arg1)) :=
  (B_keep_arg1 (R_A2 V)).trans (R_A2_arg1 V)
theorem R_B_arg2 : R_B V (Proc.devRef .tc main_arg2) = (V (Proc.devRef .tc main_arg2)) :=
  (B_keep_arg2 (R_A2 V)).trans (R_A2_arg2 V)
theorem R_B_v17 : R_B V (Proc.devRef .tc main_v17) = val_main_v17 (F := F) (V (Proc.devRef .tc main_arg0)) (V (Proc.devRef .tc main_arg9)) (V (Proc.devRef .tc main_arg10)) :=
  (B_keep_v17 (R_A2 V)).trans (R_A2_v17 V)
theorem R_B_v35 : R_B V (Proc.devRef .tc main_v35) = val_main_v35 (F := F) (V (Proc.devRef .tc main_arg0)) (V (Proc.devRef .tc main_arg15)) (V (Proc.devRef .tc main_arg16)) :=
  (B_keep_v35 (R_A2 V)).trans (R_A2_v35 V)
theorem R_C1_arg4 : R_C1 V (Proc.devRef .tc main_arg4) = (V (Proc.devRef .tc main_arg4)) :=
  (C1_keep_arg4 (R_B V)).trans (R_B_arg4 V)
theorem R_C1_v48 : R_C1 V (Proc.devRef .tc main_v48) = val_main_v48 (F := F) :=
  C1_v48 (R_B V)
theorem R_C1_v41 : R_C1 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (C1_keep_v41 (R_B V)).trans (R_B_v41 V)
theorem R_C1_v43 : R_C1 V (Proc.devRef .tc main_v43) = val_main_v43 (F := F) :=
  C1_v43 (R_B V)
theorem R_C1_arg3 : R_C1 V (Proc.devRef .tc main_arg3) = (V (Proc.devRef .tc main_arg3)) :=
  (C1_keep_arg3 (R_B V)).trans (R_B_arg3 V)
theorem R_C1_v38 : R_C1 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (C1_keep_v38 (R_B V)).trans (R_B_v38 V)
theorem R_C1_arg1 : R_C1 V (Proc.devRef .tc main_arg1) = (V (Proc.devRef .tc main_arg1)) :=
  (C1_keep_arg1 (R_B V)).trans (R_B_arg1 V)
theorem R_C1_arg2 : R_C1 V (Proc.devRef .tc main_arg2) = (V (Proc.devRef .tc main_arg2)) :=
  (C1_keep_arg2 (R_B V)).trans (R_B_arg2 V)
theorem R_C1_v17 : R_C1 V (Proc.devRef .tc main_v17) = val_main_v17 (F := F) (V (Proc.devRef .tc main_arg0)) (V (Proc.devRef .tc main_arg9)) (V (Proc.devRef .tc main_arg10)) :=
  (C1_keep_v17 (R_B V)).trans (R_B_v17 V)
theorem R_C1_v35 : R_C1 V (Proc.devRef .tc main_v35) = val_main_v35 (F := F) (V (Proc.devRef .tc main_arg0)) (V (Proc.devRef .tc main_arg15)) (V (Proc.devRef .tc main_arg16)) :=
  (C1_keep_v35 (R_B V)).trans (R_B_v35 V)
theorem R_C2_v48 : R_C2 V (Proc.devRef .tc main_v48) = val_main_v48 (F := F) :=
  (C2_keep_v48 (R_C1 V)).trans (R_C1_v48 V)
theorem R_C2_v53 : R_C2 V (Proc.devRef .tc main_v53) = val_main_v53 (F := F) (V (Proc.devRef .tc main_arg4)) :=
  C2_v53 (R_C1 V) (V (Proc.devRef .tc main_arg4)) (R_C1_arg4 V)
theorem R_C2_v41 : R_C2 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (C2_keep_v41 (R_C1 V)).trans (R_C1_v41 V)
theorem R_C2_v43 : R_C2 V (Proc.devRef .tc main_v43) = val_main_v43 (F := F) :=
  (C2_keep_v43 (R_C1 V)).trans (R_C1_v43 V)
theorem R_C2_arg3 : R_C2 V (Proc.devRef .tc main_arg3) = (V (Proc.devRef .tc main_arg3)) :=
  (C2_keep_arg3 (R_C1 V)).trans (R_C1_arg3 V)
theorem R_C2_v38 : R_C2 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (C2_keep_v38 (R_C1 V)).trans (R_C1_v38 V)
theorem R_C2_arg1 : R_C2 V (Proc.devRef .tc main_arg1) = (V (Proc.devRef .tc main_arg1)) :=
  (C2_keep_arg1 (R_C1 V)).trans (R_C1_arg1 V)
theorem R_C2_arg2 : R_C2 V (Proc.devRef .tc main_arg2) = (V (Proc.devRef .tc main_arg2)) :=
  (C2_keep_arg2 (R_C1 V)).trans (R_C1_arg2 V)
theorem R_C2_v17 : R_C2 V (Proc.devRef .tc main_v17) = val_main_v17 (F := F) (V (Proc.devRef .tc main_arg0)) (V (Proc.devRef .tc main_arg9)) (V (Proc.devRef .tc main_arg10)) :=
  (C2_keep_v17 (R_C1 V)).trans (R_C1_v17 V)
theorem R_C2_v35 : R_C2 V (Proc.devRef .tc main_v35) = val_main_v35 (F := F) (V (Proc.devRef .tc main_arg0)) (V (Proc.devRef .tc main_arg15)) (V (Proc.devRef .tc main_arg16)) :=
  (C2_keep_v35 (R_C1 V)).trans (R_C1_v35 V)
theorem R_C3_v43 : R_C3 V (Proc.devRef .tc main_v43) = val_main_v43 (F := F) :=
  (C3_keep_v43 (R_C2 V)).trans (R_C2_v43 V)
theorem R_C3_arg3 : R_C3 V (Proc.devRef .tc main_arg3) = (V (Proc.devRef .tc main_arg3)) :=
  (C3_keep_arg3 (R_C2 V)).trans (R_C2_arg3 V)
theorem R_C3_v38 : R_C3 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (C3_keep_v38 (R_C2 V)).trans (R_C2_v38 V)
theorem R_C3_arg1 : R_C3 V (Proc.devRef .tc main_arg1) = (V (Proc.devRef .tc main_arg1)) :=
  (C3_keep_arg1 (R_C2 V)).trans (R_C2_arg1 V)
theorem R_C3_arg2 : R_C3 V (Proc.devRef .tc main_arg2) = (V (Proc.devRef .tc main_arg2)) :=
  (C3_keep_arg2 (R_C2 V)).trans (R_C2_arg2 V)
theorem R_C3_v58 : R_C3 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  C3_v58 (R_C2 V) (V (Proc.devRef .tc main_arg0)) (V (Proc.devRef .tc main_arg4)) (V (Proc.devRef .tc main_arg11)) (V (Proc.devRef .tc main_arg12)) (V (Proc.devRef .tc main_arg13)) (V (Proc.devRef .tc main_arg14)) (R_C2_v41 V) (R_C2_v53 V) (R_C2_v48 V)
theorem R_C3_v41 : R_C3 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (C3_keep_v41 (R_C2 V)).trans (R_C2_v41 V)
theorem R_C3_v17 : R_C3 V (Proc.devRef .tc main_v17) = val_main_v17 (F := F) (V (Proc.devRef .tc main_arg0)) (V (Proc.devRef .tc main_arg9)) (V (Proc.devRef .tc main_arg10)) :=
  (C3_keep_v17 (R_C2 V)).trans (R_C2_v17 V)
theorem R_C3_v35 : R_C3 V (Proc.devRef .tc main_v35) = val_main_v35 (F := F) (V (Proc.devRef .tc main_arg0)) (V (Proc.devRef .tc main_arg15)) (V (Proc.devRef .tc main_arg16)) :=
  (C3_keep_v35 (R_C2 V)).trans (R_C2_v35 V)
theorem R_D1_arg3 : R_D1 V (Proc.devRef .tc main_arg3) = (V (Proc.devRef .tc main_arg3)) :=
  (D1_keep_arg3 (R_C3 V)).trans (R_C3_arg3 V)
theorem R_D1_v63 : R_D1 V (Proc.devRef .tc main_v63) = val_main_v63 (F := F) :=
  D1_v63 (R_C3 V) (R_C3_v43 V)
theorem R_D1_v38 : R_D1 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (D1_keep_v38 (R_C3 V)).trans (R_C3_v38 V)
theorem R_D1_arg1 : R_D1 V (Proc.devRef .tc main_arg1) = (V (Proc.devRef .tc main_arg1)) :=
  (D1_keep_arg1 (R_C3 V)).trans (R_C3_arg1 V)
theorem R_D1_arg2 : R_D1 V (Proc.devRef .tc main_arg2) = (V (Proc.devRef .tc main_arg2)) :=
  (D1_keep_arg2 (R_C3 V)).trans (R_C3_arg2 V)
theorem R_D1_v58 : R_D1 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  (D1_keep_v58 (R_C3 V)).trans (R_C3_v58 V)
theorem R_D1_v41 : R_D1 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (D1_keep_v41 (R_C3 V)).trans (R_C3_v41 V)
theorem R_D1_v17 : R_D1 V (Proc.devRef .tc main_v17) = val_main_v17 (F := F) (V (Proc.devRef .tc main_arg0)) (V (Proc.devRef .tc main_arg9)) (V (Proc.devRef .tc main_arg10)) :=
  (D1_keep_v17 (R_C3 V)).trans (R_C3_v17 V)
theorem R_D1_v35 : R_D1 V (Proc.devRef .tc main_v35) = val_main_v35 (F := F) (V (Proc.devRef .tc main_arg0)) (V (Proc.devRef .tc main_arg15)) (V (Proc.devRef .tc main_arg16)) :=
  (D1_keep_v35 (R_C3 V)).trans (R_C3_v35 V)
theorem R_D2_v63 : R_D2 V (Proc.devRef .tc main_v63) = val_main_v63 (F := F) :=
  (D2_keep_v63 (R_D1 V)).trans (R_D1_v63 V)
theorem R_D2_v68 : R_D2 V (Proc.devRef .tc main_v68) = val_main_v68 (F := F) (V (Proc.devRef .tc main_arg3)) :=
  D2_v68 (R_D1 V) (V (Proc.devRef .tc main_arg3)) (R_D1_arg3 V)
theorem R_D2_v38 : R_D2 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (D2_keep_v38 (R_D1 V)).trans (R_D1_v38 V)
theorem R_D2_arg1 : R_D2 V (Proc.devRef .tc main_arg1) = (V (Proc.devRef .tc main_arg1)) :=
  (D2_keep_arg1 (R_D1 V)).trans (R_D1_arg1 V)
theorem R_D2_arg2 : R_D2 V (Proc.devRef .tc main_arg2) = (V (Proc.devRef .tc main_arg2)) :=
  (D2_keep_arg2 (R_D1 V)).trans (R_D1_arg2 V)
theorem R_D2_v58 : R_D2 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  (D2_keep_v58 (R_D1 V)).trans (R_D1_v58 V)
theorem R_D2_v41 : R_D2 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (D2_keep_v41 (R_D1 V)).trans (R_D1_v41 V)
theorem R_D2_v17 : R_D2 V (Proc.devRef .tc main_v17) = val_main_v17 (F := F) (V (Proc.devRef .tc main_arg0)) (V (Proc.devRef .tc main_arg9)) (V (Proc.devRef .tc main_arg10)) :=
  (D2_keep_v17 (R_D1 V)).trans (R_D1_v17 V)
theorem R_D2_v35 : R_D2 V (Proc.devRef .tc main_v35) = val_main_v35 (F := F) (V (Proc.devRef .tc main_arg0)) (V (Proc.devRef .tc main_arg15)) (V (Proc.devRef .tc main_arg16)) :=
  (D2_keep_v35 (R_D1 V)).trans (R_D1_v35 V)
theorem R_D3_arg1 : R_D3 V (Proc.devRef .tc main_arg1) = (V (Proc.devRef .tc main_arg1)) :=
  (D3_keep_arg1 (R_D2 V)).trans (R_D2_arg1 V)
theorem R_D3_arg2 : R_D3 V (Proc.devRef .tc main_arg2) = (V (Proc.devRef .tc main_arg2)) :=
  (D3_keep_arg2 (R_D2 V)).trans (R_D2_arg2 V)
theorem R_D3_v38 : R_D3 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (D3_keep_v38 (R_D2 V)).trans (R_D2_v38 V)
theorem R_D3_v58 : R_D3 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  (D3_keep_v58 (R_D2 V)).trans (R_D2_v58 V)
theorem R_D3_v41 : R_D3 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (D3_keep_v41 (R_D2 V)).trans (R_D2_v41 V)
theorem R_D3_v73 : R_D3 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  D3_v73 (R_D2 V) (V (Proc.devRef .tc main_arg0)) (V (Proc.devRef .tc main_arg3)) (V (Proc.devRef .tc main_arg5)) (V (Proc.devRef .tc main_arg6)) (V (Proc.devRef .tc main_arg7)) (V (Proc.devRef .tc main_arg8)) (R_D2_v38 V) (R_D2_v68 V) (R_D2_v63 V)
theorem R_D3_v17 : R_D3 V (Proc.devRef .tc main_v17) = val_main_v17 (F := F) (V (Proc.devRef .tc main_arg0)) (V (Proc.devRef .tc main_arg9)) (V (Proc.devRef .tc main_arg10)) :=
  (D3_keep_v17 (R_D2 V)).trans (R_D2_v17 V)
theorem R_D3_v35 : R_D3 V (Proc.devRef .tc main_v35) = val_main_v35 (F := F) (V (Proc.devRef .tc main_arg0)) (V (Proc.devRef .tc main_arg15)) (V (Proc.devRef .tc main_arg16)) :=
  (D3_keep_v35 (R_D2 V)).trans (R_D2_v35 V)
theorem R_E1_arg2 : R_E1 V (Proc.devRef .tc main_arg2) = (V (Proc.devRef .tc main_arg2)) :=
  (E1_keep_arg2 (R_D3 V)).trans (R_D3_arg2 V)
theorem R_E1_v38 : R_E1 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (E1_keep_v38 (R_D3 V)).trans (R_D3_v38 V)
theorem R_E1_v58 : R_E1 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  (E1_keep_v58 (R_D3 V)).trans (R_D3_v58 V)
theorem R_E1_v78 : R_E1 V (Proc.devRef .tc main_v78) = val_main_v78 (F := F) (V (Proc.devRef .tc main_arg1)) :=
  E1_v78 (R_D3 V) (V (Proc.devRef .tc main_arg1)) (R_D3_arg1 V)
theorem R_E1_v41 : R_E1 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (E1_keep_v41 (R_D3 V)).trans (R_D3_v41 V)
theorem R_E1_v73 : R_E1 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  (E1_keep_v73 (R_D3 V)).trans (R_D3_v73 V)
theorem R_E1_v17 : R_E1 V (Proc.devRef .tc main_v17) = val_main_v17 (F := F) (V (Proc.devRef .tc main_arg0)) (V (Proc.devRef .tc main_arg9)) (V (Proc.devRef .tc main_arg10)) :=
  (E1_keep_v17 (R_D3 V)).trans (R_D3_v17 V)
theorem R_E1_v35 : R_E1 V (Proc.devRef .tc main_v35) = val_main_v35 (F := F) (V (Proc.devRef .tc main_arg0)) (V (Proc.devRef .tc main_arg15)) (V (Proc.devRef .tc main_arg16)) :=
  (E1_keep_v35 (R_D3 V)).trans (R_D3_v35 V)
theorem R_E2_v38 : R_E2 V (Proc.devRef .tc main_v38) = val_main_v38 (F := F) (V (Proc.devRef .tc main_arg0)) (V (Proc.devRef .tc main_arg5)) (V (Proc.devRef .tc main_arg6)) (V (Proc.devRef .tc main_arg7)) (V (Proc.devRef .tc main_arg8)) :=
  (E2_keep_v38 (R_E1 V)).trans (R_E1_v38 V)
theorem R_E2_v58 : R_E2 V (Proc.devRef .tc main_v58) = val_main_v58 (F := F) (V (Proc.devRef .tc main_arg0)) (V (Proc.devRef .tc main_arg4)) (V (Proc.devRef .tc main_arg11)) (V (Proc.devRef .tc main_arg12)) (V (Proc.devRef .tc main_arg13)) (V (Proc.devRef .tc main_arg14)) :=
  (E2_keep_v58 (R_E1 V)).trans (R_E1_v58 V)
theorem R_E2_v78 : R_E2 V (Proc.devRef .tc main_v78) = val_main_v78 (F := F) (V (Proc.devRef .tc main_arg1)) :=
  (E2_keep_v78 (R_E1 V)).trans (R_E1_v78 V)
theorem R_E2_v41 : R_E2 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (E2_keep_v41 (R_E1 V)).trans (R_E1_v41 V)
theorem R_E2_v73 : R_E2 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  (E2_keep_v73 (R_E1 V)).trans (R_E1_v73 V)
theorem R_E2_v83 : R_E2 V (Proc.devRef .tc main_v83) = val_main_v83 (F := F) (V (Proc.devRef .tc main_arg2)) :=
  E2_v83 (R_E1 V) (V (Proc.devRef .tc main_arg2)) (R_E1_arg2 V)
theorem R_E2_v17 : R_E2 V (Proc.devRef .tc main_v17) = val_main_v17 (F := F) (V (Proc.devRef .tc main_arg0)) (V (Proc.devRef .tc main_arg9)) (V (Proc.devRef .tc main_arg10)) :=
  (E2_keep_v17 (R_E1 V)).trans (R_E1_v17 V)
theorem R_E2_v35 : R_E2 V (Proc.devRef .tc main_v35) = val_main_v35 (F := F) (V (Proc.devRef .tc main_arg0)) (V (Proc.devRef .tc main_arg15)) (V (Proc.devRef .tc main_arg16)) :=
  (E2_keep_v35 (R_E1 V)).trans (R_E1_v35 V)
theorem R_F1_v87 : R_F1 V (Proc.devRef .tc main_v87) = val_main_v87 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  F1_v87 (R_E2 V) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_E2_v78 V) (R_E2_v38 V) (R_E2_v58 V)
theorem R_F1_v41 : R_F1 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (F1_keep_v41 (R_E2 V)).trans (R_E2_v41 V)
theorem R_F1_v73 : R_F1 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  (F1_keep_v73 (R_E2 V)).trans (R_E2_v73 V)
theorem R_F1_v83 : R_F1 V (Proc.devRef .tc main_v83) = val_main_v83 (F := F) (V (Proc.devRef .tc main_arg2)) :=
  (F1_keep_v83 (R_E2 V)).trans (R_E2_v83 V)
theorem R_F1_v17 : R_F1 V (Proc.devRef .tc main_v17) = val_main_v17 (F := F) (V (Proc.devRef .tc main_arg0)) (V (Proc.devRef .tc main_arg9)) (V (Proc.devRef .tc main_arg10)) :=
  (F1_keep_v17 (R_E2 V)).trans (R_E2_v17 V)
theorem R_F1_v35 : R_F1 V (Proc.devRef .tc main_v35) = val_main_v35 (F := F) (V (Proc.devRef .tc main_arg0)) (V (Proc.devRef .tc main_arg15)) (V (Proc.devRef .tc main_arg16)) :=
  (F1_keep_v35 (R_E2 V)).trans (R_E2_v35 V)
theorem R_F2_v94 : R_F2 V (Proc.devRef .tc main_v94) = val_main_v94 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  F2_v94 (R_F1 V) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_F1_v87 V)
theorem R_F2_v41 : R_F2 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (F2_keep_v41 (R_F1 V)).trans (R_F1_v41 V)
theorem R_F2_v73 : R_F2 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  (F2_keep_v73 (R_F1 V)).trans (R_F1_v73 V)
theorem R_F2_v83 : R_F2 V (Proc.devRef .tc main_v83) = val_main_v83 (F := F) (V (Proc.devRef .tc main_arg2)) :=
  (F2_keep_v83 (R_F1 V)).trans (R_F1_v83 V)
theorem R_F2_v17 : R_F2 V (Proc.devRef .tc main_v17) = val_main_v17 (F := F) (V (Proc.devRef .tc main_arg0)) (V (Proc.devRef .tc main_arg9)) (V (Proc.devRef .tc main_arg10)) :=
  (F2_keep_v17 (R_F1 V)).trans (R_F1_v17 V)
theorem R_F2_v35 : R_F2 V (Proc.devRef .tc main_v35) = val_main_v35 (F := F) (V (Proc.devRef .tc main_arg0)) (V (Proc.devRef .tc main_arg15)) (V (Proc.devRef .tc main_arg16)) :=
  (F2_keep_v35 (R_F1 V)).trans (R_F1_v35 V)
theorem R_F3_v41 : R_F3 V (Proc.devRef .tc main_v41) = val_main_v41 (F := F) (V (Proc.devRef .tc main_arg0)) (V (Proc.devRef .tc main_arg11)) (V (Proc.devRef .tc main_arg12)) (V (Proc.devRef .tc main_arg13)) (V (Proc.devRef .tc main_arg14)) :=
  (F3_keep_v41 (R_F2 V)).trans (R_F2_v41 V)
theorem R_F3_v73 : R_F3 V (Proc.devRef .tc main_v73) = val_main_v73 (F := F) (V (Proc.devRef .tc main_arg0)) (V (Proc.devRef .tc main_arg3)) (V (Proc.devRef .tc main_arg5)) (V (Proc.devRef .tc main_arg6)) (V (Proc.devRef .tc main_arg7)) (V (Proc.devRef .tc main_arg8)) :=
  (F3_keep_v73 (R_F2 V)).trans (R_F2_v73 V)
theorem R_F3_v83 : R_F3 V (Proc.devRef .tc main_v83) = val_main_v83 (F := F) (V (Proc.devRef .tc main_arg2)) :=
  (F3_keep_v83 (R_F2 V)).trans (R_F2_v83 V)
theorem R_F3_v98 : R_F3 V (Proc.devRef .tc main_v98) = val_main_v98 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  F3_v98 (R_F2 V) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_F2_v94 V)
theorem R_F3_v17 : R_F3 V (Proc.devRef .tc main_v17) = val_main_v17 (F := F) (V (Proc.devRef .tc main_arg0)) (V (Proc.devRef .tc main_arg9)) (V (Proc.devRef .tc main_arg10)) :=
  (F3_keep_v17 (R_F2 V)).trans (R_F2_v17 V)
theorem R_F3_v35 : R_F3 V (Proc.devRef .tc main_v35) = val_main_v35 (F := F) (V (Proc.devRef .tc main_arg0)) (V (Proc.devRef .tc main_arg15)) (V (Proc.devRef .tc main_arg16)) :=
  (F3_keep_v35 (R_F2 V)).trans (R_F2_v35 V)
theorem R_G1_v102 : R_G1 V (Proc.devRef .tc main_v102) = val_main_v102 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  G1_v102 (R_F3 V) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_F3_v83 V) (R_F3_v41 V) (R_F3_v73 V)
theorem R_G1_v98 : R_G1 V (Proc.devRef .tc main_v98) = val_main_v98 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  (G1_keep_v98 (R_F3 V)).trans (R_F3_v98 V)
theorem R_G1_v17 : R_G1 V (Proc.devRef .tc main_v17) = val_main_v17 (F := F) (V (Proc.devRef .tc main_arg0)) (V (Proc.devRef .tc main_arg9)) (V (Proc.devRef .tc main_arg10)) :=
  (G1_keep_v17 (R_F3 V)).trans (R_F3_v17 V)
theorem R_G1_v35 : R_G1 V (Proc.devRef .tc main_v35) = val_main_v35 (F := F) (V (Proc.devRef .tc main_arg0)) (V (Proc.devRef .tc main_arg15)) (V (Proc.devRef .tc main_arg16)) :=
  (G1_keep_v35 (R_F3 V)).trans (R_F3_v35 V)
theorem R_G2_v109 : R_G2 V (Proc.devRef .tc main_v109) = val_main_v109 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  G2_v109 (R_G1 V) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_G1_v102 V)
theorem R_G2_v98 : R_G2 V (Proc.devRef .tc main_v98) = val_main_v98 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  (G2_keep_v98 (R_G1 V)).trans (R_G1_v98 V)
theorem R_G2_v17 : R_G2 V (Proc.devRef .tc main_v17) = val_main_v17 (F := F) (V (Proc.devRef .tc main_arg0)) (V (Proc.devRef .tc main_arg9)) (V (Proc.devRef .tc main_arg10)) :=
  (G2_keep_v17 (R_G1 V)).trans (R_G1_v17 V)
theorem R_G2_v35 : R_G2 V (Proc.devRef .tc main_v35) = val_main_v35 (F := F) (V (Proc.devRef .tc main_arg0)) (V (Proc.devRef .tc main_arg15)) (V (Proc.devRef .tc main_arg16)) :=
  (G2_keep_v35 (R_G1 V)).trans (R_G1_v35 V)
theorem R_G3_v98 : R_G3 V (Proc.devRef .tc main_v98) = val_main_v98 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  (G3_keep_v98 (R_G2 V)).trans (R_G2_v98 V)
theorem R_G3_v17 : R_G3 V (Proc.devRef .tc main_v17) = val_main_v17 (F := F) (V (Proc.devRef .tc main_arg0)) (V (Proc.devRef .tc main_arg9)) (V (Proc.devRef .tc main_arg10)) :=
  (G3_keep_v17 (R_G2 V)).trans (R_G2_v17 V)
theorem R_G3_v113 : R_G3 V (Proc.devRef .tc main_v113) = val_main_v113 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) :=
  G3_v113 (R_G2 V) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg11)) (V (Proc.devRef .tc main_arg12)) (V (Proc.devRef .tc main_arg13)) (V (Proc.devRef .tc main_arg14)) (R_G2_v109 V)
theorem R_G3_v35 : R_G3 V (Proc.devRef .tc main_v35) = val_main_v35 (F := F) (V (Proc.devRef .tc main_arg0)) (V (Proc.devRef .tc main_arg15)) (V (Proc.devRef .tc main_arg16)) :=
  (G3_keep_v35 (R_G2 V)).trans (R_G2_v35 V)
theorem R_H_v120 : R_H V (Proc.devRef .tc main_v120) = val_main_v120 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  H_v120 (R_G3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (R_G3_v113 V) (R_G3_v35 V) (R_G3_v98 V) (R_G3_v17 V)

/-- All 141 operations are the 18 stretches one after the other. -/
theorem after_ops : after (ops (F := F)) V = R_H V := by
  rw [ops_eq]; simp only [StableHlo.after_append]

/-- The result buffer ends holding the last stage at the arguments. -/
theorem after_v120 : after (ops (F := F)) V (Proc.devRef .tc main_v120) = val_main_v120 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]; exact R_H_v120 V

end Chain

/-! ## The run -/

set_option maxRecDepth 8192 in
set_option maxHeartbeats 56400000 in
/-- On every device, for any float values, from any memory with zero counters: every weakly fair execution of
    @main terminates with the result at the last stage's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120) = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v120).trans (after_v120 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl)⟩)
    (run_seq scopedRefs_eq scopedSems_eq defs main (fun _ => ops) main_eq (fun _ => ops_sub) m ρ)

end Cert.ReferenceIdeal.RefRun

end
-- ==== Proof.RefStages.lean ====
import proofs.«416605_j68384469286920_2_alg».proof.Proof.RefRunP
import proofs.«416605_j68384469286920_2_alg».proof.Proof.RefReadP
import proofs.«416605_j68384469286920_2_alg».proof.Proof.Spec

/-!
  The reference's stages read at an index, as the specification's functions.

  Each of the six projections is a matrix product plus a bias row: at (n, j) the product's term is a sum over the
  1024 input features, and the twice-broadcast bias is the bias at j.

  Each of the two attention outputs is a product of a row softmax with the values. The reference adds the scaled
  scores, the gathered term and the mask term in that order, takes each row's maximum from −∞ (and joins it with −∞
  once more), exponentiates the differences, sums them from 0 and divides; the general lemma `attn_of_stages` (first
  section) turns these stage equations into the specification's attention with the additive term "gathered + mask".
-/

noncomputable section

open scoped BigOperators

namespace Cert.ReferenceIdeal.RefStages

open Cert.ReferenceIdeal Cert.ReferenceIdeal.Gen Cert.ReferenceIdeal.ReadP Idealize.ShloMosaic Idealize.ShloMosaic.ValueIdx

/-! ## General facts over the literal shapes

  The binary word of −∞ is the bottom element; a maximum taken over the last axis of an [8, 2048, 2048] array is the
  row's maximum; and an array whose stages are a row softmax of scaled scores plus two additive terms, multiplied into
  the values, is the specification's attention output. -/

/-- The f32 word of −∞, read exactly, is the bottom element of the extended reals. -/
theorem ofBits_negInf : Ideal.ofBits .f32 0xFF800000#32 = (⊥ : EReal) := by
  simp [Ideal.ofBits, Ideal.ieee]

/-- The index (h, n) of the reduced array with coordinate k put back on the last axis is (h, n, k). -/
theorem lift_lastAxis (H : (⟨3, ![8, 2048, 2048]⟩ : Shape).Reduces [2] (⟨2, ![8, 2048]⟩ : Shape)) (h : Fin 8) (n : Fin 2048)
    (k : Fin ((⟨3, ![8, 2048, 2048]⟩ : Shape).size 2)) :
    H.lift (ix2 h n) k = ix3 h n (⟨k.val, k.isLt⟩ : Fin 2048) := by
  funext c
  apply Fin.ext
  match c with
  | ⟨0, _⟩ => rfl
  | ⟨1, _⟩ => rfl
  | ⟨2, _⟩ => rfl

/-- A maximum-reduce over the last axis, started from −∞, is at (h, n) the maximum of row (h, n) taken from −∞. -/
theorem hostMax_lastAxis (z : FVec Ideal ⟨3, ![8, 2048, 2048]⟩ .f32) (init : FVec Ideal ⟨0, ![]⟩ .f32)
    (h' : (⟨3, ![8, 2048, 2048]⟩ : Shape).ReducesTo [2] (⟨2, ![8, 2048]⟩ : Shape)) (hu : 0 < (⟨0, ![]⟩ : Shape).numel)
    (hinit : init (Shape.Idx.first hu) = (⊥ : EReal)) (h : Fin 8) (n : Fin 2048) :
    Host.reduce FloatOps.maximumf z init h' hu (ix2 h n) = Cert.Spec.rowMax (fun m => z (ix3 h n m)) := by
  have H : (⟨3, ![8, 2048, 2048]⟩ : Shape).Reduces [2] (⟨2, ![8, 2048]⟩ : Shape) := by decide
  rw [Host.reduce_eq_fold_single FloatOps.maximumf z init h' H hu, hinit]
  have hf : (z ∘ H.lift (ix2 h n)) = fun m : Fin 2048 => z (ix3 h n m) :=
    funext fun k => congrArg z (lift_lastAxis H h n k)
  exact congrArg (fun f => Finset.fold (max : EReal → EReal → EReal) ⊥ f (Finset.univ : Finset (Fin 2048))) hf

/-- Softmax attention from its stages. Let lg be the scaled scores of q and k plus the terms g and b (added in that
    order), mx the rows' maxima of lg (joined once more with −∞), ex the exponential of lg minus its row's maximum, sm
    the rows' sums of ex (from 0), p the quotient ex / sm, and o the product of p with the values v. Then o is the
    specification's attention of q, k, v with the additive term a = g + b: addition on the extended reals is
    associative, the join with −∞ changes nothing, and 0 + s = s. -/
theorem attn_of_stages
    (q k : (⟨3, ![8, 2048, 128]⟩ : Shape).Idx → EReal) (v : (⟨3, ![8, 2048, 64]⟩ : Shape).Idx → EReal)
    (g b a lg mxb ex sm p : (⟨3, ![8, 2048, 2048]⟩ : Shape).Idx → EReal)
    (mx : (⟨2, ![8, 2048]⟩ : Shape).Idx → EReal) (o : (⟨3, ![8, 2048, 64]⟩ : Shape).Idx → EReal)
    (ha : ∀ (h : Fin 8) (n m : Fin 2048), a (ix3 h n m) = g (ix3 h n m) + b (ix3 h n m))
    (hlg : ∀ (h : Fin 8) (n m : Fin 2048), lg (ix3 h n m)
      = ((∑ e : Fin 128, q (ix3 h n e) * k (ix3 h m e)) * Cert.Spec.scale + g (ix3 h n m)) + b (ix3 h n m))
    (hmx : ∀ (h : Fin 8) (n : Fin 2048), mx (ix2 h n) = max (⊥ : EReal) (Cert.Spec.rowMax fun m => lg (ix3 h n m)))
    (hmxb : ∀ (h : Fin 8) (n m : Fin 2048), mxb (ix3 h n m) = mx (ix2 h n))
    (hex : ∀ (h : Fin 8) (n m : Fin 2048), ex (ix3 h n m) = Ideal.exp (lg (ix3 h n m) - mxb (ix3 h n m)))
    (hsm : ∀ (h : Fin 8) (n m : Fin 2048), sm (ix3 h n m) = 0 + ∑ m' : Fin 2048, ex (ix3 h n m'))
    (hp : ∀ (h : Fin 8) (n m : Fin 2048), p (ix3 h n m) = Ideal.div (ex (ix3 h n m)) (sm (ix3 h n m)))
    (ho : ∀ (h : Fin 8) (n : Fin 2048) (d : Fin 64), o (ix3 h n d) = ∑ m : Fin 2048, p (ix3 h n m) * v (ix3 h m d)) :
    o = Cert.Spec.attn q k v a := by
  funext j
  obtain ⟨h, n, d, rfl⟩ : ∃ (h : Fin 8) (n : Fin 2048) (d : Fin 64), j = ix3 h n d := ⟨j 0, j 1, j 2, eq_ix3 j⟩
  have hrow : (fun m : Fin 2048 => lg (ix3 h n m)) = Cert.Spec.logits q k a h n := funext fun m => by
    show lg (ix3 h n m) = Cert.Spec.logits q k a h n m
    rw [hlg, add_assoc, ← ha]
    rfl
  have hmx' : mx (ix2 h n) = Cert.Spec.rowMax (Cert.Spec.logits q k a h n) := by
    rw [hmx, hrow]
    exact max_eq_right bot_le
  have hex' : ∀ m : Fin 2048, ex (ix3 h n m)
      = Ideal.exp (Cert.Spec.logits q k a h n m - Cert.Spec.rowMax (Cert.Spec.logits q k a h n)) := fun m => by
    rw [hex, hmxb, hmx']
    exact congrArg (fun t => Ideal.exp (t - Cert.Spec.rowMax (Cert.Spec.logits q k a h n))) (congrFun hrow m)
  have hsm' : ∀ m : Fin 2048, sm (ix3 h n m)
      = ∑ m' : Fin 2048, Ideal.exp (Cert.Spec.logits q k a h n m' - Cert.Spec.rowMax (Cert.Spec.logits q k a h n)) := fun m => by
    rw [hsm, zero_add]
    exact Finset.sum_congr rfl fun m' _ => hex' m'
  rw [ho]
  show _ = ∑ m : Fin 2048, Cert.Spec.smx (Cert.Spec.logits q k a h n) m * v (ix3 h m d)
  refine Finset.sum_congr rfl fun m _ => ?_
  rw [hp, hex', hsm']
  rfl

variable (x0 : (⟨S2048x1024, .f32⟩ : BufTy).Contents (Elt Ideal))
  (x1 x2 : (⟨S2048x2048, .f32⟩ : BufTy).Contents (Elt Ideal))
  (x3 x4 : (⟨S2048x2048, .i32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x512, .f32⟩ : BufTy).Contents (Elt Ideal)) (x10 : (⟨S512, .f32⟩ : BufTy).Contents (Elt Ideal))
  (x11 : (⟨S1024x1024, .f32⟩ : BufTy).Contents (Elt Ideal)) (x12 : (⟨S1024, .f32⟩ : BufTy).Contents (Elt Ideal))
  (x13 : (⟨S1024x1024, .f32⟩ : BufTy).Contents (Elt Ideal)) (x14 : (⟨S1024, .f32⟩ : BufTy).Contents (Elt Ideal))
  (x15 : (⟨S1024x512, .f32⟩ : BufTy).Contents (Elt Ideal)) (x16 : (⟨S512, .f32⟩ : BufTy).Contents (Elt Ideal))

/-! ## The six projections -/

/-- The first query projection: at (n, j), the sum over the input features plus the bias at j. -/
theorem v3_eq : val_main_v3 (F := Ideal) x0 x5 x6 = Cert.Spec.projQ x0 x5 x6 := by
  funext i
  obtain ⟨n, j, rfl⟩ : ∃ (n : Fin 2048) (j : Fin 1024), i = ix2 n j := ⟨i 0, i 1, eq_ix2 i⟩
  have el : ∀ k : Fin 1024, lidx_main_v0 (ix2 n j) k = ix2 n k := fun k =>
    funext fun a => Fin.ext (by match a with | ⟨0, _⟩ => rfl | ⟨1, _⟩ => rfl)
  have er : ∀ k : Fin 1024, ridx_main_v0 (ix2 n j) k = ix2 k j := fun k =>
    funext fun a => Fin.ext (by match a with | ⟨0, _⟩ => rfl | ⟨1, _⟩ => rfl)
  have eb : idx_main_v1 (idx_main_v2 (ix2 n j)) = ix1 j :=
    funext fun a => Fin.ext (by match a with | ⟨0, _⟩ => rfl)
  rw [val_main_v3_apply, val_main_v0_apply, val_main_v2_apply, val_main_v1_apply, eb]
  show _ = (∑ k : Fin 1024, x0 (ix2 n k) * x5 (ix2 k j)) + x6 (ix1 j)
  simp only [el, er]
  rfl

/-- The first key projection. -/
theorem v9_eq : val_main_v9 (F := Ideal) x0 x7 x8 = Cert.Spec.projQ x0 x7 x8 := by
  funext i
  obtain ⟨n, j, rfl⟩ : ∃ (n : Fin 2048) (j : Fin 1024), i = ix2 n j := ⟨i 0, i 1, eq_ix2 i⟩
  have el : ∀ k : Fin 1024, lidx_main_v6 (ix2 n j) k = ix2 n k := fun k =>
    funext fun a => Fin.ext (by match a with | ⟨0, _⟩ => rfl | ⟨1, _⟩ => rfl)
  have er : ∀ k : Fin 1024, ridx_main_v6 (ix2 n j) k = ix2 k j := fun k =>
    funext fun a => Fin.ext (by match a with | ⟨0, _⟩ => rfl | ⟨1, _⟩ => rfl)
  have eb : idx_main_v7 (idx_main_v8 (ix2 n j)) = ix1 j :=
    funext fun a => Fin.ext (by match a with | ⟨0, _⟩ => rfl)
  rw [val_main_v9_apply, val_main_v6_apply, val_main_v8_apply, val_main_v7_apply, eb]
  show _ = (∑ k : Fin 1024, x0 (ix2 n k) * x7 (ix2 k j)) + x8 (ix1 j)
  simp only [el, er]
  rfl

/-- The first value projection (512 columns). -/
theorem v15_eq : val_main_v15 (F := Ideal) x0 x9 x10 = Cert.Spec.projV x0 x9 x10 := by
  funext i
  obtain ⟨n, j, rfl⟩ : ∃ (n : Fin 2048) (j : Fin 512), i = ix2 n j := ⟨i 0, i 1, eq_ix2 i⟩
  have el : ∀ k : Fin 1024, lidx_main_v12 (ix2 n j) k = ix2 n k := fun k =>
    funext fun a => Fin.ext (by match a with | ⟨0, _⟩ => rfl | ⟨1, _⟩ => rfl)
  have er : ∀ k : Fin 1024, ridx_main_v12 (ix2 n j) k = ix2 k j := fun k =>
    funext fun a => Fin.ext (by match a with | ⟨0, _⟩ => rfl | ⟨1, _⟩ => rfl)
  have eb : idx_main_v13 (idx_main_v14 (ix2 n j)) = ix1 j :=
    funext fun a => Fin.ext (by match a with | ⟨0, _⟩ => rfl)
  rw [val_main_v15_apply, val_main_v12_apply, val_main_v14_apply, val_main_v13_apply, eb]
  show _ = (∑ k : Fin 1024, x0 (ix2 n k) * x9 (ix2 k j)) + x10 (ix1 j)
  simp only [el, er]
  rfl

/-- The second query projection. -/
theorem v21_eq : val_main_v21 (F := Ideal) x0 x11 x12 = Cert.Spec.projQ x0 x11 x12 := by
  funext i
  obtain ⟨n, j, rfl⟩ : ∃ (n : Fin 2048) (j : Fin 1024), i = ix2 n j := ⟨i 0, i 1, eq_ix2 i⟩
  have el : ∀ k : Fin 1024, lidx_main_v18 (ix2 n j) k = ix2 n k := fun k =>
    funext fun a => Fin.ext (by match a with | ⟨0, _⟩ => rfl | ⟨1, _⟩ => rfl)
  have er : ∀ k : Fin 1024, ridx_main_v18 (ix2 n j) k = ix2 k j := fun k =>
    funext fun a => Fin.ext (by match a with | ⟨0, _⟩ => rfl | ⟨1, _⟩ => rfl)
  have eb : idx_main_v19 (idx_main_v20 (ix2 n j)) = ix1 j :=
    funext fun a => Fin.ext (by match a with | ⟨0, _⟩ => rfl)
  rw [val_main_v21_apply, val_main_v18_apply, val_main_v20_apply, val_main_v19_apply, eb]
  show _ = (∑ k : Fin 1024, x0 (ix2 n k) * x11 (ix2 k j)) + x12 (ix1 j)
  simp only [el, er]
  rfl

/-- The second key projection. -/
theorem v27_eq : val_main_v27 (F := Ideal) x0 x13 x14 = Cert.Spec.projQ x0 x13 x14 := by
  funext i
  obtain ⟨n, j, rfl⟩ : ∃ (n : Fin 2048) (j : Fin 1024), i = ix2 n j := ⟨i 0, i 1, eq_ix2 i⟩
  have el : ∀ k : Fin 1024, lidx_main_v24 (ix2 n j) k = ix2 n k := fun k =>
    funext fun a => Fin.ext (by match a with | ⟨0, _⟩ => rfl | ⟨1, _⟩ => rfl)
  have er : ∀ k : Fin 1024, ridx_main_v24 (ix2 n j) k = ix2 k j := fun k =>
    funext fun a => Fin.ext (by match a with | ⟨0, _⟩ => rfl | ⟨1, _⟩ => rfl)
  have eb : idx_main_v25 (idx_main_v26 (ix2 n j)) = ix1 j :=
    funext fun a => Fin.ext (by match a with | ⟨0, _⟩ => rfl)
  rw [val_main_v27_apply, val_main_v24_apply, val_main_v26_apply, val_main_v25_apply, eb]
  show _ = (∑ k : Fin 1024, x0 (ix2 n k) * x13 (ix2 k j)) + x14 (ix1 j)
  simp only [el, er]
  rfl

/-- The second value projection (512 columns). -/
theorem v33_eq : val_main_v33 (F := Ideal) x0 x15 x16 = Cert.Spec.projV x0 x15 x16 := by
  funext i
  obtain ⟨n, j, rfl⟩ : ∃ (n : Fin 2048) (j : Fin 512), i = ix2 n j := ⟨i 0, i 1, eq_ix2 i⟩
  have el : ∀ k : Fin 1024, lidx_main_v30 (ix2 n j) k = ix2 n k := fun k =>
    funext fun a => Fin.ext (by match a with | ⟨0, _⟩ => rfl | ⟨1, _⟩ => rfl)
  have er : ∀ k : Fin 1024, ridx_main_v30 (ix2 n j) k = ix2 k j := fun k =>
    funext fun a => Fin.ext (by match a with | ⟨0, _⟩ => rfl | ⟨1, _⟩ => rfl)
  have eb : idx_main_v31 (idx_main_v32 (ix2 n j)) = ix1 j :=
    funext fun a => Fin.ext (by match a with | ⟨0, _⟩ => rfl)
  rw [val_main_v33_apply, val_main_v30_apply, val_main_v32_apply, val_main_v31_apply, eb]
  show _ = (∑ k : Fin 1024, x0 (ix2 n k) * x15 (ix2 k j)) + x16 (ix1 j)
  simp only [el, er]
  rfl

/-! ## The first attention -/

/-- The first attention's logits as the reference adds them: (scores · scale + gathered term) + mask term. -/
theorem lg1 (h : Fin 8) (n m : Fin 2048) :
    val_main_v87 (F := Ideal) x0 x1 x4 x5 x6 x7 x8 x11 x12 x13 x14 (ix3 h n m)
      = (((∑ e : Fin 128, val_main_v5 (F := Ideal) x0 x5 x6 (ix3 h n e) * val_main_v11 (F := Ideal) x0 x7 x8 (ix3 h m e)) * Cert.Spec.scale
          + val_main_v58 (F := Ideal) x0 x4 x11 x12 x13 x14 (ix3 h n m)) + val_main_v86 (F := Ideal) x1 (ix3 h n m) : EReal) := by
  have el : ∀ e : Fin 128, lidx_main_v36 (ix3 h n m) e = ix3 h n e := fun e =>
    funext fun a => Fin.ext (by match a with | ⟨0, _⟩ => rfl | ⟨1, _⟩ => rfl | ⟨2, _⟩ => rfl)
  have er : ∀ e : Fin 128, ridx_main_v36 (ix3 h n m) e = ix3 h m e := fun e =>
    funext fun a => Fin.ext (by match a with | ⟨0, _⟩ => rfl | ⟨1, _⟩ => rfl | ⟨2, _⟩ => rfl)
  rw [val_main_v87_apply, val_main_v84_apply, val_main_v38_apply, val_main_v36_apply, val_main_v37_apply,
    val_main_cst_apply]
  simp only [el, er]
  rfl

/-- The rows' maxima: the maximum-reduce from −∞ over the last axis, joined with −∞ once more. -/
theorem mx1 (h : Fin 8) (n : Fin 2048) :
    val_main_v90 (F := Ideal) x0 x1 x4 x5 x6 x7 x8 x11 x12 x13 x14 (ix2 h n)
      = max (⊥ : EReal) (Cert.Spec.rowMax fun m => val_main_v87 (F := Ideal) x0 x1 x4 x5 x6 x7 x8 x11 x12 x13 x14 (ix3 h n m)) := by
  rw [val_main_v90_apply, val_main_v89_apply, val_main_cst_13_apply]
  exact congrArg₂ max ofBits_negInf
    (hostMax_lastAxis (val_main_v87 (F := Ideal) x0 x1 x4 x5 x6 x7 x8 x11 x12 x13 x14) (val_main_cst_12 (F := Ideal))
      reducesTo_S8x2048x2048_S8x2048_d2 h_S_ ofBits_negInf h n)

/-- The maxima broadcast back along the row. -/
theorem mxb1 (h : Fin 8) (n m : Fin 2048) :
    val_main_v92 (F := Ideal) x0 x1 x4 x5 x6 x7 x8 x11 x12 x13 x14 (ix3 h n m) = val_main_v90 (F := Ideal) x0 x1 x4 x5 x6 x7 x8 x11 x12 x13 x14 (ix2 h n) := by
  have e : idx_main_v91 (idx_main_v92 (ix3 h n m)) = ix2 h n :=
    funext fun a => Fin.ext (by match a with | ⟨0, _⟩ => rfl | ⟨1, _⟩ => rfl)
  rw [val_main_v92_apply, val_main_v91_apply, e]

/-- The exponential of a logit minus its row's maximum. -/
theorem ex1 (h : Fin 8) (n m : Fin 2048) :
    val_main_v94 (F := Ideal) x0 x1 x4 x5 x6 x7 x8 x11 x12 x13 x14 (ix3 h n m)
      = Ideal.exp (val_main_v87 (F := Ideal) x0 x1 x4 x5 x6 x7 x8 x11 x12 x13 x14 (ix3 h n m) - val_main_v92 (F := Ideal) x0 x1 x4 x5 x6 x7 x8 x11 x12 x13 x14 (ix3 h n m)) :=
  (val_main_v94_apply (F := Ideal) x0 x1 x4 x5 x6 x7 x8 x11 x12 x13 x14 (ix3 h n m)).trans
    (congrArg Ideal.exp (val_main_v93_apply (F := Ideal) x0 x1 x4 x5 x6 x7 x8 x11 x12 x13 x14 (ix3 h n m)))

/-- The rows' sums of the exponentials, from 0, broadcast back along the row. -/
theorem sm1 (h : Fin 8) (n m : Fin 2048) :
    val_main_v97 (F := Ideal) x0 x1 x4 x5 x6 x7 x8 x11 x12 x13 x14 (ix3 h n m)
      = (0 + ∑ m' : Fin 2048, val_main_v94 (F := Ideal) x0 x1 x4 x5 x6 x7 x8 x11 x12 x13 x14 (ix3 h n m') : EReal) := by
  have e : idx_main_v96 (idx_main_v97 (ix3 h n m)) = ix2 h n :=
    funext fun a => Fin.ext (by match a with | ⟨0, _⟩ => rfl | ⟨1, _⟩ => rfl)
  have ek : ∀ m' : Fin 2048, idx_main_v95 (ix2 h n) m' = ix3 h n m' := fun m' =>
    funext fun a => Fin.ext (by match a with | ⟨0, _⟩ => rfl | ⟨1, _⟩ => rfl | ⟨2, _⟩ => rfl)
  rw [val_main_v97_apply, val_main_v96_apply, e, val_main_v95_apply, val_main_cst_14_apply]
  simp only [ek]
  exact congrArg (· + _) Ideal.ofBits_zero_f32

/-- The softmax weights: each exponential over its row's sum. -/
theorem p1 (h : Fin 8) (n m : Fin 2048) :
    val_main_v98 (F := Ideal) x0 x1 x4 x5 x6 x7 x8 x11 x12 x13 x14 (ix3 h n m)
      = Ideal.div (val_main_v94 (F := Ideal) x0 x1 x4 x5 x6 x7 x8 x11 x12 x13 x14 (ix3 h n m)) (val_main_v97 (F := Ideal) x0 x1 x4 x5 x6 x7 x8 x11 x12 x13 x14 (ix3 h n m)) :=
  val_main_v98_apply (F := Ideal) x0 x1 x4 x5 x6 x7 x8 x11 x12 x13 x14 (ix3 h n m)

/-- The output: the weights of row (h, n) times column d of head h's values. -/
theorem o1 (h : Fin 8) (n : Fin 2048) (d : Fin 64) :
    val_main_v114 (F := Ideal) x0 x1 x4 x5 x6 x7 x8 x9 x10 x11 x12 x13 x14 (ix3 h n d)
      = ∑ m : Fin 2048, val_main_v98 (F := Ideal) x0 x1 x4 x5 x6 x7 x8 x11 x12 x13 x14 (ix3 h n m) * val_main_v17 (F := Ideal) x0 x9 x10 (ix3 h m d) := by
  have el : ∀ m : Fin 2048, lidx_main_v114 (ix3 h n d) m = ix3 h n m := fun m =>
    funext fun a => Fin.ext (by match a with | ⟨0, _⟩ => rfl | ⟨1, _⟩ => rfl | ⟨2, _⟩ => rfl)
  have er : ∀ m : Fin 2048, ridx_main_v114 (ix3 h n d) m = ix3 h m d := fun m =>
    funext fun a => Fin.ext (by match a with | ⟨0, _⟩ => rfl | ⟨1, _⟩ => rfl | ⟨2, _⟩ => rfl)
  rw [val_main_v114_apply]
  exact Finset.sum_congr rfl fun m _ => by rw [el, er]

/-- The first attention output is the specification's attention of its query, key and value heads with the additive
    term "gathered scores + mask". -/
theorem v114_eq :
    val_main_v114 (F := Ideal) x0 x1 x4 x5 x6 x7 x8 x9 x10 x11 x12 x13 x14
      = Cert.Spec.attn (val_main_v5 (F := Ideal) x0 x5 x6) (val_main_v11 (F := Ideal) x0 x7 x8) (val_main_v17 (F := Ideal) x0 x9 x10)
          (addf (F := Ideal) (φ := .f32) (val_main_v58 (F := Ideal) x0 x4 x11 x12 x13 x14) (val_main_v86 (F := Ideal) x1)) :=
  attn_of_stages (val_main_v5 (F := Ideal) x0 x5 x6) (val_main_v11 (F := Ideal) x0 x7 x8) (val_main_v17 (F := Ideal) x0 x9 x10)
    (val_main_v58 (F := Ideal) x0 x4 x11 x12 x13 x14) (val_main_v86 (F := Ideal) x1) (addf (F := Ideal) (φ := .f32) (val_main_v58 (F := Ideal) x0 x4 x11 x12 x13 x14) (val_main_v86 (F := Ideal) x1))
    (val_main_v87 (F := Ideal) x0 x1 x4 x5 x6 x7 x8 x11 x12 x13 x14) (val_main_v92 (F := Ideal) x0 x1 x4 x5 x6 x7 x8 x11 x12 x13 x14) (val_main_v94 (F := Ideal) x0 x1 x4 x5 x6 x7 x8 x11 x12 x13 x14) (val_main_v97 (F := Ideal) x0 x1 x4 x5 x6 x7 x8 x11 x12 x13 x14) (val_main_v98 (F := Ideal) x0 x1 x4 x5 x6 x7 x8 x11 x12 x13 x14)
    (val_main_v90 (F := Ideal) x0 x1 x4 x5 x6 x7 x8 x11 x12 x13 x14) (val_main_v114 (F := Ideal) x0 x1 x4 x5 x6 x7 x8 x9 x10 x11 x12 x13 x14)
    (fun _ _ _ => rfl) (lg1 x0 x1 x4 x5 x6 x7 x8 x11 x12 x13 x14) (mx1 x0 x1 x4 x5 x6 x7 x8 x11 x12 x13 x14) (mxb1 x0 x1 x4 x5 x6 x7 x8 x11 x12 x13 x14) (ex1 x0 x1 x4 x5 x6 x7 x8 x11 x12 x13 x14) (sm1 x0 x1 x4 x5 x6 x7 x8 x11 x12 x13 x14) (p1 x0 x1 x4 x5 x6 x7 x8 x11 x12 x13 x14) (o1 x0 x1 x4 x5 x6 x7 x8 x9 x10 x11 x12 x13 x14)

/-! ## The second attention -/

/-- The second attention's logits as the reference adds them: (scores · scale + gathered term) + mask term. -/
theorem lg2 (h : Fin 8) (n m : Fin 2048) :
    val_main_v102 (F := Ideal) x0 x2 x3 x5 x6 x7 x8 x11 x12 x13 x14 (ix3 h n m)
      = (((∑ e : Fin 128, val_main_v23 (F := Ideal) x0 x11 x12 (ix3 h n e) * val_main_v29 (F := Ideal) x0 x13 x14 (ix3 h m e)) * Cert.Spec.scale
          + val_main_v73 (F := Ideal) x0 x3 x5 x6 x7 x8 (ix3 h n m)) + val_main_v101 (F := Ideal) x2 (ix3 h n m) : EReal) := by
  have el : ∀ e : Fin 128, lidx_main_v39 (ix3 h n m) e = ix3 h n e := fun e =>
    funext fun a => Fin.ext (by match a with | ⟨0, _⟩ => rfl | ⟨1, _⟩ => rfl | ⟨2, _⟩ => rfl)
  have er : ∀ e : Fin 128, ridx_main_v39 (ix3 h n m) e = ix3 h m e := fun e =>
    funext fun a => Fin.ext (by match a with | ⟨0, _⟩ => rfl | ⟨1, _⟩ => rfl | ⟨2, _⟩ => rfl)
  rw [val_main_v102_apply, val_main_v99_apply, val_main_v41_apply, val_main_v39_apply, val_main_v40_apply,
    val_main_cst_0_apply]
  simp only [el, er]
  rfl

/-- The rows' maxima: the maximum-reduce from −∞ over the last axis, joined with −∞ once more. -/
theorem mx2 (h : Fin 8) (n : Fin 2048) :
    val_main_v105 (F := Ideal) x0 x2 x3 x5 x6 x7 x8 x11 x12 x13 x14 (ix2 h n)
      = max (⊥ : EReal) (Cert.Spec.rowMax fun m => val_main_v102 (F := Ideal) x0 x2 x3 x5 x6 x7 x8 x11 x12 x13 x14 (ix3 h n m)) := by
  rw [val_main_v105_apply, val_main_v104_apply, val_main_cst_16_apply]
  exact congrArg₂ max ofBits_negInf
    (hostMax_lastAxis (val_main_v102 (F := Ideal) x0 x2 x3 x5 x6 x7 x8 x11 x12 x13 x14) (val_main_cst_15 (F := Ideal))
      reducesTo_S8x2048x2048_S8x2048_d2 h_S_ ofBits_negInf h n)

/-- The maxima broadcast back along the row. -/
theorem mxb2 (h : Fin 8) (n m : Fin 2048) :
    val_main_v107 (F := Ideal) x0 x2 x3 x5 x6 x7 x8 x11 x12 x13 x14 (ix3 h n m) = val_main_v105 (F := Ideal) x0 x2 x3 x5 x6 x7 x8 x11 x12 x13 x14 (ix2 h n) := by
  have e : idx_main_v106 (idx_main_v107 (ix3 h n m)) = ix2 h n :=
    funext fun a => Fin.ext (by match a with | ⟨0, _⟩ => rfl | ⟨1, _⟩ => rfl)
  rw [val_main_v107_apply, val_main_v106_apply, e]

/-- The exponential of a logit minus its row's maximum. -/
theorem ex2 (h : Fin 8) (n m : Fin 2048) :
    val_main_v109 (F := Ideal) x0 x2 x3 x5 x6 x7 x8 x11 x12 x13 x14 (ix3 h n m)
      = Ideal.exp (val_main_v102 (F := Ideal) x0 x2 x3 x5 x6 x7 x8 x11 x12 x13 x14 (ix3 h n m) - val_main_v107 (F := Ideal) x0 x2 x3 x5 x6 x7 x8 x11 x12 x13 x14 (ix3 h n m)) :=
  (val_main_v109_apply (F := Ideal) x0 x2 x3 x5 x6 x7 x8 x11 x12 x13 x14 (ix3 h n m)).trans
    (congrArg Ideal.exp (val_main_v108_apply (F := Ideal) x0 x2 x3 x5 x6 x7 x8 x11 x12 x13 x14 (ix3 h n m)))

/-- The rows' sums of the exponentials, from 0, broadcast back along the row. -/
theorem sm2 (h : Fin 8) (n m : Fin 2048) :
    val_main_v112 (F := Ideal) x0 x2 x3 x5 x6 x7 x8 x11 x12 x13 x14 (ix3 h n m)
      = (0 + ∑ m' : Fin 2048, val_main_v109 (F := Ideal) x0 x2 x3 x5 x6 x7 x8 x11 x12 x13 x14 (ix3 h n m') : EReal) := by
  have e : idx_main_v111 (idx_main_v112 (ix3 h n m)) = ix2 h n :=
    funext fun a => Fin.ext (by match a with | ⟨0, _⟩ => rfl | ⟨1, _⟩ => rfl)
  have ek : ∀ m' : Fin 2048, idx_main_v110 (ix2 h n) m' = ix3 h n m' := fun m' =>
    funext fun a => Fin.ext (by match a with | ⟨0, _⟩ => rfl | ⟨1, _⟩ => rfl | ⟨2, _⟩ => rfl)
  rw [val_main_v112_apply, val_main_v111_apply, e, val_main_v110_apply, val_main_cst_17_apply]
  simp only [ek]
  exact congrArg (· + _) Ideal.ofBits_zero_f32

/-- The softmax weights: each exponential over its row's sum. -/
theorem p2 (h : Fin 8) (n m : Fin 2048) :
    val_main_v113 (F := Ideal) x0 x2 x3 x5 x6 x7 x8 x11 x12 x13 x14 (ix3 h n m)
      = Ideal.div (val_main_v109 (F := Ideal) x0 x2 x3 x5 x6 x7 x8 x11 x12 x13 x14 (ix3 h n m)) (val_main_v112 (F := Ideal) x0 x2 x3 x5 x6 x7 x8 x11 x12 x13 x14 (ix3 h n m)) :=
  val_main_v113_apply (F := Ideal) x0 x2 x3 x5 x6 x7 x8 x11 x12 x13 x14 (ix3 h n m)

/-- The output: the weights of row (h, n) times column d of head h's values. -/
theorem o2 (h : Fin 8) (n : Fin 2048) (d : Fin 64) :
    val_main_v117 (F := Ideal) x0 x2 x3 x5 x6 x7 x8 x11 x12 x13 x14 x15 x16 (ix3 h n d)
      = ∑ m : Fin 2048, val_main_v113 (F := Ideal) x0 x2 x3 x5 x6 x7 x8 x11 x12 x13 x14 (ix3 h n m) * val_main_v35 (F := Ideal) x0 x15 x16 (ix3 h m d) := by
  have el : ∀ m : Fin 2048, lidx_main_v117 (ix3 h n d) m = ix3 h n m := fun m =>
    funext fun a => Fin.ext (by match a with | ⟨0, _⟩ => rfl | ⟨1, _⟩ => rfl | ⟨2, _⟩ => rfl)
  have er : ∀ m : Fin 2048, ridx_main_v117 (ix3 h n d) m = ix3 h m d := fun m =>
    funext fun a => Fin.ext (by match a with | ⟨0, _⟩ => rfl | ⟨1, _⟩ => rfl | ⟨2, _⟩ => rfl)
  rw [val_main_v117_apply]
  exact Finset.sum_congr rfl fun m _ => by rw [el, er]

/-- The second attention output is the specification's attention of its query, key and value heads with the additive
    term "gathered scores + mask". -/
theorem v117_eq :
    val_main_v117 (F := Ideal) x0 x2 x3 x5 x6 x7 x8 x11 x12 x13 x14 x15 x16
      = Cert.Spec.attn (val_main_v23 (F := Ideal) x0 x11 x12) (val_main_v29 (F := Ideal) x0 x13 x14) (val_main_v35 (F := Ideal) x0 x15 x16)
          (addf (F := Ideal) (φ := .f32) (val_main_v73 (F := Ideal) x0 x3 x5 x6 x7 x8) (val_main_v101 (F := Ideal) x2)) :=
  attn_of_stages (val_main_v23 (F := Ideal) x0 x11 x12) (val_main_v29 (F := Ideal) x0 x13 x14) (val_main_v35 (F := Ideal) x0 x15 x16)
    (val_main_v73 (F := Ideal) x0 x3 x5 x6 x7 x8) (val_main_v101 (F := Ideal) x2) (addf (F := Ideal) (φ := .f32) (val_main_v73 (F := Ideal) x0 x3 x5 x6 x7 x8) (val_main_v101 (F := Ideal) x2))
    (val_main_v102 (F := Ideal) x0 x2 x3 x5 x6 x7 x8 x11 x12 x13 x14) (val_main_v107 (F := Ideal) x0 x2 x3 x5 x6 x7 x8 x11 x12 x13 x14) (val_main_v109 (F := Ideal) x0 x2 x3 x5 x6 x7 x8 x11 x12 x13 x14) (val_main_v112 (F := Ideal) x0 x2 x3 x5 x6 x7 x8 x11 x12 x13 x14) (val_main_v113 (F := Ideal) x0 x2 x3 x5 x6 x7 x8 x11 x12 x13 x14)
    (val_main_v105 (F := Ideal) x0 x2 x3 x5 x6 x7 x8 x11 x12 x13 x14) (val_main_v117 (F := Ideal) x0 x2 x3 x5 x6 x7 x8 x11 x12 x13 x14 x15 x16)
    (fun _ _ _ => rfl) (lg2 x0 x2 x3 x5 x6 x7 x8 x11 x12 x13 x14) (mx2 x0 x2 x3 x5 x6 x7 x8 x11 x12 x13 x14) (mxb2 x0 x2 x3 x5 x6 x7 x8 x11 x12 x13 x14) (ex2 x0 x2 x3 x5 x6 x7 x8 x11 x12 x13 x14) (sm2 x0 x2 x3 x5 x6 x7 x8 x11 x12 x13 x14) (p2 x0 x2 x3 x5 x6 x7 x8 x11 x12 x13 x14) (o2 x0 x2 x3 x5 x6 x7 x8 x11 x12 x13 x14 x15 x16)

end Cert.ReferenceIdeal.RefStages

end
-- ==== Proof.GatherAux.lean ====
/-
  The program's two gathers, each read at one index, for positions that lie in [0, 2048).

  The kernel program gathers along the last axis of an [8, 2048, 2048] array s with an [8, 2048, 2048] array of
  positions: a position below zero is moved up by the axis' extent, the positions become a column of start indices of a
  gather whose first two operand axes are batch axes, and where the position lies outside [0, 2047] the result is a
  fill word. The reference indexes s[:, rows, t] with rows = 0 … 2047 as a column: the row numbers and the positions
  are both moved up where negative, paired on a last axis of size 2, and the pair is the start index of a gather that
  keeps axis 0 whole. A gather clamps each start index into the operand.

  At (h, n, m) both read s[h, n, min t[n, m] 2047] once t[n, m] is not negative: the move does nothing on such a word,
  a row number is its own clamp, and the column is clamped alike on both sides. That the kernel's test bit is 1 (so
  that its select takes the gathered value) needs t[n, m] < 2048 as well.
-/
import proofs.«416605_j68384469286920_2_alg».proof.Proof.Gen.KernelIdeal
import proofs.«416605_j68384469286920_2_alg».proof.Proof.Gen.ReferenceIdeal
import Idealize.ShloMosaic.Lib.StableHlo.Predicate
import Idealize.ShloMosaic.Lib.ValueIdx
import Idealize.ShloMosaic.Lib.Pipeline.Value
import Idealize.ShloMosaic.Lib.Affine

noncomputable section

namespace Cert.Bridge.Gather

open Idealize.ShloMosaic Idealize.ShloMosaic.ValueIdx

/-! ## Words -/

theorem toInt_zero32 : (0#32 : BitVec 32).toInt = 0 := by decide
theorem toInt_2047 : (2047#32 : BitVec 32).toInt = 2047 := by decide

/-- "Add 2048 where below zero" leaves a word that is not negative alone. -/
theorem wrap_of_nonneg (w : BitVec 32) (h0 : 0 ≤ w.toInt) :
    Scalar.select (IntOp.cmpi .slt w 0#32) (IntOp.addi w 2048#32) w = w := by
  have hc : IntOp.cmpi .slt w 0#32 = 0#1 :=
    eq_zero_of_ne_one fun h => by
      have hlt := IntOp.cmpi_slt.1 h
      rw [toInt_zero32] at hlt
      omega
  rw [hc]
  exact select_zero _ _

/-- A word in [0, 2048) passes the test 0 ≤ · ≤ 2047. -/
theorem inrange_of (w : BitVec 32) (h0 : 0 ≤ w.toInt) (h1 : w.toInt < 2048) :
    IntOp.andi (IntOp.cmpi .sge w 0#32) (IntOp.cmpi .sle w 2047#32) = 1#1 :=
  IntOp.andi_eq_one.2 ⟨IntOp.cmpi_sge.2 (by rw [toInt_zero32]; exact h0), IntOp.cmpi_sle.2 (by rw [toInt_2047]; omega)⟩

/-- A row number written as a 32-bit word reads back, signed, as itself. -/
theorem toInt_row (n : Fin 2048) : (BitVec.ofNat 32 n.val).toInt = (n.val : Int) :=
  StableHlo.Predicate.toInt_ofNat_small n.val (by have := n.isLt; omega)

/-- The move at an index of an array of words: nothing happens where the word is not negative. -/
theorem wrap_apply {s : Shape} (hz : (⟨0, ![]⟩ : Shape).BroadcastsInDim s ![]) (tb : IVec s 32) (i : s.Idx)
    (h0 : 0 ≤ (tb i).toInt) :
    select (cmpi .slt tb (broadcastInDim s ![] hz (constantI ⟨0, ![]⟩ 32 0#32)))
      (addi tb (broadcastInDim s ![] hz (constantI ⟨0, ![]⟩ 32 2048#32))) tb i = tb i :=
  wrap_of_nonneg (tb i) h0

/-- A select whose condition is 1 at an index takes its first operand there. -/
theorem select_of_one {α : Type} {s : Shape} (c : IVec s 1) (a b : s.Idx → α) (i : s.Idx) (hc : c i = 1#1) :
    select c a b i = a i := by
  rw [select_apply, hc, select_one]

/-! ## A reduction by "and" over bits that are all 1 -/

/-- A left fold by "and" that starts at 1 and meets only 1s ends at 1. -/
theorem foldl_andi_one {ι : Type} (f : ι → BitVec 1) :
    ∀ (l : List ι) (init : BitVec 1), init = 1#1 → (∀ i ∈ l, f i = 1#1) →
      l.foldl (fun r i => IntOp.andi r (f i)) init = 1#1
  | [], _, h, _ => by rw [List.foldl_nil]; exact h
  | a :: l, init, h, hf => by
    rw [List.foldl_cons]
    refine foldl_andi_one f l _ ?_ (fun i hi => hf i (List.mem_cons.2 (Or.inr hi)))
    show IntOp.andi init (f a) = 1#1
    exact IntOp.andi_eq_one.2 ⟨h, hf a (List.mem_cons.2 (Or.inl rfl))⟩

/-- So a reduction by "and" from 1 of an array of bits that are all 1 is 1 everywhere. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun i _ => hx i)

/-! ## Layout operations at an index -/

section Layout
variable {α : Type}

/-- An [m, a, b] array cast to [m, a, b, 1] reads, at (k, i, j, u), the operand at (k, i, j). -/
theorem shapeCast_abc_abc1_apply {m a b : ℕ} (x : (⟨3, ![m, a, b]⟩ : Shape).Idx → α)
    (h : (⟨3, ![m, a, b]⟩ : Shape).ShapeCasts ⟨4, ![m, a, b, 1]⟩) (k : Fin m) (i : Fin a) (j : Fin b) (u : Fin 1) :
    shapeCast ⟨4, ![m, a, b, 1]⟩ x h (ix4 k i j u) = x (ix3 k i j) :=
  shapeCast_apply x h _ _ (by
    have hu : u.val = 0 := by omega
    rw [Shape.rowMajor_val_four, Shape.rowMajor_val_three]
    show (k.val * a + i.val) * b + j.val = ((k.val * a + i.val) * b + j.val) * 1 + u.val
    rw [hu, Nat.mul_one, Nat.add_zero])

/-- A [2048, 2048] array repeated over 8 heads ([2048, 2048] → [1, 2048, 2048] → [8, 2048, 2048]) reads, at (h, n, m),
    the array at (n, m). -/
theorem heads_apply (h₁ : (⟨2, ![2048, 2048]⟩ : Shape).BroadcastsInDim ⟨3, ![1, 2048, 2048]⟩ ![1, 2])
    (h₂ : (⟨3, ![1, 2048, 2048]⟩ : Shape).BroadcastsInDim ⟨3, ![8, 2048, 2048]⟩ ![0, 1, 2])
    (t : (⟨2, ![2048, 2048]⟩ : Shape).Idx → α) (h : Fin 8) (n m : Fin 2048) :
    broadcastInDim ⟨3, ![8, 2048, 2048]⟩ ![0, 1, 2] h₂ (broadcastInDim ⟨3, ![1, 2048, 2048]⟩ ![1, 2] h₁ t) (ix3 h n m)
      = t (ix2 n m) := by
  refine (broadcastInDim_apply _ h₂ _ (ix3 h n m) (ix3 (0 : Fin 1) n m) (fun a => ?_)).trans ?_
  · match a with
    | ⟨0, _⟩ => rfl
    | ⟨1, _⟩ => rfl
    | ⟨2, _⟩ => rfl
  · exact broadcastInDim_apply _ h₁ t (ix3 (0 : Fin 1) n m) (ix2 n m) (fun a => by
      match a with
      | ⟨0, _⟩ => rfl
      | ⟨1, _⟩ => rfl)

/-- A [2048, 2048] array given a last axis of size one reads, at (n, m, u), the array at (n, m). -/
theorem lastUnit_apply (h : (⟨2, ![2048, 2048]⟩ : Shape).BroadcastsInDim ⟨3, ![2048, 2048, 1]⟩ ![0, 1])
    (v : (⟨2, ![2048, 2048]⟩ : Shape).Idx → α) (n m : Fin 2048) (u : Fin 1) :
    broadcastInDim ⟨3, ![2048, 2048, 1]⟩ ![0, 1] h v (ix3 n m u) = v (ix2 n m) :=
  broadcastInDim_apply _ h v (ix3 n m u) (ix2 n m) (fun a => by
    match a with
    | ⟨0, _⟩ => rfl
    | ⟨1, _⟩ => rfl)

/-- A [2048, 1] column repeated along the second axis reads, at (n, m), the column at (n, 0). -/
theorem column_apply (h : (⟨2, ![2048, 1]⟩ : Shape).BroadcastsInDim ⟨2, ![2048, 2048]⟩ ![0, 1])
    (v : (⟨2, ![2048, 1]⟩ : Shape).Idx → α) (n m : Fin 2048) :
    broadcastInDim ⟨2, ![2048, 2048]⟩ ![0, 1] h v (ix2 n m) = v (ix2 n (0 : Fin 1)) :=
  broadcastInDim_apply _ h v (ix2 n m) (ix2 n (0 : Fin 1)) (fun a => by
    match a with
    | ⟨0, _⟩ => rfl
    | ⟨1, _⟩ => rfl)

/-- A [2048] vector as a [2048, 1] column reads, at (n, u), the vector at n. -/
theorem asColumn_apply (h : (⟨1, ![2048]⟩ : Shape).BroadcastsInDim ⟨2, ![2048, 1]⟩ ![0])
    (v : (⟨1, ![2048]⟩ : Shape).Idx → α) (n : Fin 2048) (u : Fin 1) :
    broadcastInDim ⟨2, ![2048, 1]⟩ ![0] h v (ix2 n u) = v (ix1 n) :=
  broadcastInDim_apply _ h v (ix2 n u) (ix1 n) (fun a => by
    match a with
    | ⟨0, _⟩ => rfl)

end Layout

/-! ## The kernel program's gather at an index

Operand [8, 2048, 2048], start indices [8, 2048, 2048, 1] (index vector on the last axis), result [8, 2048, 2048]:
operand axes 0 and 1 are batch axes paired with the start indices' axes 0 and 1, operand axis 2 is collapsed and is the
one axis the start index names. So on axes 0 and 1 the operand index is the result's coordinate, and on axis 2 it is the
start index read signed and clamped into [0, 2047]. -/

section KernelGather

local notation "gK" => Cert.KernelIdeal.gather_S8x2048x2048_S8x2048x2048x1_S8x2048x2048_n_2_01_01_2_3_111

theorem kAxis0 {w : Nat} (j : Cert.KernelIdeal.S8x2048x2048.Idx) (idx : IVec Cert.KernelIdeal.S8x2048x2048x1 w) :
    (GatherDims.operandIdx gK j idx 0).val = (j 0).val := by
  show GatherDims.start gK j idx 0 + GatherDims.batchCoord gK j 0 + GatherDims.offCoord gK j 0 = (j 0).val
  rw [GatherDims.start_batching gK j idx 0 (by decide), GatherDims.offCoord_eq_zero gK j 0 (by decide),
    Nat.zero_add, Nat.add_zero]
  unfold GatherDims.batchCoord
  rw [dif_pos (show (0 : Fin Cert.KernelIdeal.S8x2048x2048.rank) ∈ GatherDims.operandBatchingDims gK by decide)]
  rfl

theorem kAxis1 {w : Nat} (j : Cert.KernelIdeal.S8x2048x2048.Idx) (idx : IVec Cert.KernelIdeal.S8x2048x2048x1 w) :
    (GatherDims.operandIdx gK j idx 1).val = (j 1).val := by
  show GatherDims.start gK j idx 1 + GatherDims.batchCoord gK j 1 + GatherDims.offCoord gK j 1 = (j 1).val
  rw [GatherDims.start_batching gK j idx 1 (by decide), GatherDims.offCoord_eq_zero gK j 1 (by decide),
    Nat.zero_add, Nat.add_zero]
  unfold GatherDims.batchCoord
  rw [dif_pos (show (1 : Fin Cert.KernelIdeal.S8x2048x2048.rank) ∈ GatherDims.operandBatchingDims gK by decide)]
  rfl

theorem kAxis2 {w : Nat} (h : Fin 8) (n m : Fin 2048) (idx : IVec Cert.KernelIdeal.S8x2048x2048x1 w) :
    (GatherDims.operandIdx gK (ix3 h n m) idx 2).val = min (idx (ix4 h n m (0 : Fin 1))).toInt.toNat 2047 := by
  show GatherDims.start gK (ix3 h n m) idx 2 + GatherDims.batchCoord gK (ix3 h n m) 2 + GatherDims.offCoord gK (ix3 h n m) 2 = _
  rw [GatherDims.batchCoord_eq_zero gK _ 2 (by decide), GatherDims.offCoord_eq_zero gK _ 2 (by decide),
    Nat.add_zero]
  unfold GatherDims.start
  rw [dif_pos (show (2 : Fin Cert.KernelIdeal.S8x2048x2048.rank) ∈ GatherDims.startIndexMap gK by decide)]
  have hsi : GatherDims.siIdx gK (ix3 h n m)
      ⟨List.idxOf (2 : Fin Cert.KernelIdeal.S8x2048x2048.rank) (GatherDims.startIndexMap gK),
        List.idxOf_lt_length_iff.2 (by decide)⟩ = ix4 h n m (0 : Fin 1) := by
    funext b
    refine Fin.ext ?_
    match b with
    | ⟨0, _⟩ => rfl
    | ⟨1, _⟩ => rfl
    | ⟨2, _⟩ => rfl
    | ⟨3, _⟩ => rfl
  rw [hsi]
  rfl

/-- THE KERNEL'S GATHER AT (h, n, m): the operand at (h, n, the start index clamped). -/
theorem kgather_apply {α : Type} (x : Cert.KernelIdeal.S8x2048x2048.Idx → α) (idx : IVec Cert.KernelIdeal.S8x2048x2048x1 32)
    (h : Fin 8) (n m : Fin 2048) :
    Host.gather gK x idx (ix3 h n m)
      = x (ix3 h n ⟨min (idx (ix4 h n m (0 : Fin 1))).toInt.toNat 2047, by omega⟩) := by
  unfold Host.gather
  refine congrArg x (funext fun a => Fin.ext ?_)
  match a with
  | ⟨0, _⟩ => exact kAxis0 (ix3 h n m) idx
  | ⟨1, _⟩ => exact kAxis1 (ix3 h n m) idx
  | ⟨2, _⟩ => exact kAxis2 h n m idx

end KernelGather

/-! ## The reference's gather at an index

Operand [8, 2048, 2048], start indices [2048, 2048, 2] (index vector on the last axis), result [8, 2048, 2048]: result
axis 0 is the one offset axis and runs over operand axis 0 whole; operand axes 1 and 2 are collapsed and are the axes the
start index names, in that order. So on axis 0 the operand index is the result's coordinate, and on axes 1 and 2 it is
the start index's first and second component, each read signed and clamped into [0, 2047]. -/

section ReferenceGather

local notation "gR" => Cert.ReferenceIdeal.gather_S8x2048x2048_S2048x2048x2_S8x2048x2048_0_12_n_n_12_2_811

theorem rAxis0 {w : Nat} (j : Cert.ReferenceIdeal.S8x2048x2048.Idx) (idx : IVec Cert.ReferenceIdeal.S2048x2048x2 w) :
    (GatherDims.operandIdx gR j idx 0).val = (j 0).val := by
  show GatherDims.start gR j idx 0 + GatherDims.batchCoord gR j 0 + GatherDims.offCoord gR j 0 = (j 0).val
  rw [GatherDims.batchCoord_eq_zero gR j 0 (by decide), Nat.add_zero]
  unfold GatherDims.start GatherDims.offCoord
  rw [dif_neg (show ¬(0 : Fin Cert.ReferenceIdeal.S8x2048x2048.rank) ∈ GatherDims.startIndexMap gR by decide),
    dif_pos (show (0 : Fin Cert.ReferenceIdeal.S8x2048x2048.rank) ∈ GatherDims.sKept gR by decide), Nat.zero_add]
  rfl

theorem rAxis1 {w : Nat} (h : Fin 8) (n m : Fin 2048) (idx : IVec Cert.ReferenceIdeal.S2048x2048x2 w) :
    (GatherDims.operandIdx gR (ix3 h n m) idx 1).val = min (idx (ix3 n m (0 : Fin 2))).toInt.toNat 2047 := by
  show GatherDims.start gR (ix3 h n m) idx 1 + GatherDims.batchCoord gR (ix3 h n m) 1 + GatherDims.offCoord gR (ix3 h n m) 1 = _
  rw [GatherDims.batchCoord_eq_zero gR _ 1 (by decide), GatherDims.offCoord_eq_zero gR _ 1 (by decide),
    Nat.add_zero]
  unfold GatherDims.start
  rw [dif_pos (show (1 : Fin Cert.ReferenceIdeal.S8x2048x2048.rank) ∈ GatherDims.startIndexMap gR by decide)]
  have hsi : GatherDims.siIdx gR (ix3 h n m)
      ⟨List.idxOf (1 : Fin Cert.ReferenceIdeal.S8x2048x2048.rank) (GatherDims.startIndexMap gR),
        List.idxOf_lt_length_iff.2 (by decide)⟩ = ix3 n m (0 : Fin 2) := by
    funext b
    refine Fin.ext ?_
    match b with
    | ⟨0, _⟩ => rfl
    | ⟨1, _⟩ => rfl
    | ⟨2, _⟩ => rfl
  rw [hsi]
  rfl

theorem rAxis2 {w : Nat} (h : Fin 8) (n m : Fin 2048) (idx : IVec Cert.ReferenceIdeal.S2048x2048x2 w) :
    (GatherDims.operandIdx gR (ix3 h n m) idx 2).val = min (idx (ix3 n m (1 : Fin 2))).toInt.toNat 2047 := by
  show GatherDims.start gR (ix3 h n m) idx 2 + GatherDims.batchCoord gR (ix3 h n m) 2 + GatherDims.offCoord gR (ix3 h n m) 2 = _
  rw [GatherDims.batchCoord_eq_zero gR _ 2 (by decide), GatherDims.offCoord_eq_zero gR _ 2 (by decide),
    Nat.add_zero]
  unfold GatherDims.start
  rw [dif_pos (show (2 : Fin Cert.ReferenceIdeal.S8x2048x2048.rank) ∈ GatherDims.startIndexMap gR by decide)]
  have hsi : GatherDims.siIdx gR (ix3 h n m)
      ⟨List.idxOf (2 : Fin Cert.ReferenceIdeal.S8x2048x2048.rank) (GatherDims.startIndexMap gR),
        List.idxOf_lt_length_iff.2 (by decide)⟩ = ix3 n m (1 : Fin 2) := by
    funext b
    refine Fin.ext ?_
    match b with
    | ⟨0, _⟩ => rfl
    | ⟨1, _⟩ => rfl
    | ⟨2, _⟩ => rfl
  rw [hsi]
  rfl

/-- THE REFERENCE'S GATHER AT (h, n, m): the operand at (h, the start index's two components clamped). -/
theorem rgather_apply {α : Type} (x : Cert.ReferenceIdeal.S8x2048x2048.Idx → α) (idx : IVec Cert.ReferenceIdeal.S2048x2048x2 32)
    (h : Fin 8) (n m : Fin 2048) :
    Host.gather gR x idx (ix3 h n m)
      = x (ix3 h ⟨min (idx (ix3 n m (0 : Fin 2))).toInt.toNat 2047, by omega⟩
            ⟨min (idx (ix3 n m (1 : Fin 2))).toInt.toNat 2047, by omega⟩) := by
  unfold Host.gather
  refine congrArg x (funext fun a => Fin.ext ?_)
  match a with
  | ⟨0, _⟩ => exact rAxis0 (ix3 h n m) idx
  | ⟨1, _⟩ => exact rAxis1 h n m idx
  | ⟨2, _⟩ => exact rAxis2 h n m idx

end ReferenceGather

/-! ## The reference's side: its start indices, and its gather for positions that are not negative -/

section ReferenceSide

open Cert.ReferenceIdeal Cert.ReferenceIdeal.Gen

/-- The row numbers 0 … 2047 as a [2048, 1] column, moved up by 2048 where negative. -/
def rowsR : IVec S2048x1 32 :=
  select
    (cmpi .slt (broadcastInDim S2048x1 ![0] bcast_S2048_S2048x1_0 (iotaInDim S2048 32 0))
      (broadcastInDim S2048x1 ![] bcast_S_S2048x1 (constantI S_ 32 0#32)))
    (addi (broadcastInDim S2048x1 ![0] bcast_S2048_S2048x1_0 (iotaInDim S2048 32 0))
      (broadcastInDim S2048x1 ![] bcast_S_S2048x1 (constantI S_ 32 2048#32)))
    (broadcastInDim S2048x1 ![0] bcast_S2048_S2048x1_0 (iotaInDim S2048 32 0))

/-- The positions, moved up by 2048 where negative. -/
def colsR (t : IVec S2048x2048 32) : IVec S2048x2048 32 :=
  select (cmpi .slt t (broadcastInDim S2048x2048 ![] bcast_S_S2048x2048 (constantI S_ 32 0#32)))
    (addi t (broadcastInDim S2048x2048 ![] bcast_S_S2048x2048 (constantI S_ 32 2048#32))) t

/-- The start indices: at (n, m) the pair (row n, position t[n, m]) on a last axis of size 2. -/
def startR (t : IVec S2048x2048 32) : IVec S2048x2048x2 32 :=
  concatenate S2048x2048x2 2
    [⟨S2048x2048x1, broadcastInDim S2048x2048x1 ![0, 1] bcast_S2048x2048_S2048x2048x1_0_1
        (broadcastInDim S2048x2048 ![0, 1] bcast_S2048x1_S2048x2048_0_1 rowsR)⟩,
     ⟨S2048x2048x1, broadcastInDim S2048x2048x1 ![0, 1] bcast_S2048x2048_S2048x2048x1_0_1 (colsR t)⟩]
    concatenates_S2048x2048x1_S2048x2048x1_S2048x2048x2_d2

/-- The reference's s[:, rows, t]: the gather of s at those start indices. -/
def gatherR (s : Vec Ideal S8x2048x2048 .f32) (t : IVec S2048x2048 32) : Vec Ideal S8x2048x2048 .f32 :=
  Host.gather gather_S8x2048x2048_S2048x2048x2_S8x2048x2048_0_12_n_n_12_2_811 s (startR t)

/-- Row n of the column is the word n. -/
theorem rowsR_apply (n : Fin 2048) (u : Fin 1) : rowsR (ix2 n u) = BitVec.ofNat 32 n.val := by
  have hw : broadcastInDim S2048x1 ![0] bcast_S2048_S2048x1_0 (iotaInDim S2048 32 0) (ix2 n u) = BitVec.ofNat 32 n.val :=
    asColumn_apply _ _ n u
  have h0 : 0 ≤ (broadcastInDim S2048x1 ![0] bcast_S2048_S2048x1_0 (iotaInDim S2048 32 0) (ix2 n u)).toInt := by
    rw [hw, toInt_row]; omega
  exact (wrap_apply _ _ (ix2 n u) h0).trans hw

/-- The start index's first component at (n, m) is the word n. -/
theorem startR_row (t : IVec S2048x2048 32) (n m : Fin 2048) : startR t (ix3 n m (0 : Fin 2)) = BitVec.ofNat 32 n.val := by
  unfold startR
  refine (concatenate_pair_apply_left (s₁ := S2048x2048x1) (s₂ := S2048x2048x1) _ _ _ _ (ix3 n m (0 : Fin 2)) rfl (ix3 n m (0 : Fin 1)) (fun b => ?_)).trans ?_
  · match b with
    | ⟨0, _⟩ => rfl
    | ⟨1, _⟩ => rfl
    | ⟨2, _⟩ => rfl
  · refine (lastUnit_apply _ _ n m 0).trans ?_
    refine (column_apply _ _ n m).trans ?_
    exact rowsR_apply n 0

/-- The start index's second component at (n, m) is t[n, m] when that is not negative. -/
theorem startR_col (t : IVec S2048x2048 32) (n m : Fin 2048) (h0 : 0 ≤ (t (ix2 n m)).toInt) :
    startR t (ix3 n m (1 : Fin 2)) = t (ix2 n m) := by
  unfold startR
  refine (concatenate_pair_apply_right (s₁ := S2048x2048x1) (s₂ := S2048x2048x1) _ _ _ _ (ix3 n m (1 : Fin 2)) rfl rfl (ix3 n m (0 : Fin 1)) (fun b hb => ?_) rfl).trans ?_
  · match b with
    | ⟨0, _⟩ => rfl
    | ⟨1, _⟩ => rfl
    | ⟨2, _⟩ => exact absurd rfl hb
  · refine (lastUnit_apply _ _ n m 0).trans ?_
    exact wrap_apply _ t (ix2 n m) h0

/-- THE REFERENCE'S SIDE AT (h, n, m): s at (h, n, t[n, m] clamped), for positions that are not negative. -/
theorem gatherR_apply (s : Vec Ideal S8x2048x2048 .f32) (t : IVec S2048x2048 32) (ht : ∀ i, 0 ≤ (t i).toInt)
    (h : Fin 8) (n m : Fin 2048) :
    gatherR s t (ix3 h n m) = s (ix3 h n ⟨min (t (ix2 n m)).toInt.toNat 2047, by omega⟩) := by
  unfold gatherR
  refine (rgather_apply s (startR t) h n m).trans ?_
  refine congrArg s ?_
  have hr : min (startR t (ix3 n m (0 : Fin 2))).toInt.toNat 2047 = n.val := by
    rw [startR_row, toInt_row, Int.toNat_natCast]
    have := n.isLt
    omega
  have hc : min (startR t (ix3 n m (1 : Fin 2))).toInt.toNat 2047 = min (t (ix2 n m)).toInt.toNat 2047 := by
    rw [startR_col t n m (ht _)]
  funext a
  refine Fin.ext ?_
  match a with
  | ⟨0, _⟩ => rfl
  | ⟨1, _⟩ => exact hr
  | ⟨2, _⟩ => exact hc

end ReferenceSide

/-! ## The kernel program's side: the test, the gather and the select, for start indices in [0, 2048) -/

section KernelSide

open Cert.KernelIdeal Cert.KernelIdeal.Gen

/-- THE KERNEL'S SIDE AT (h, n, m), over any column W of start indices that all lie in [0, 2048): the test bit is 1
    everywhere, so the select takes the gathered value, s at (h, n, the start index clamped). The start index at
    (h, n, m) is given as a word w. -/
theorem take_read {α : Type} (s N : S8x2048x2048.Idx → α) (W : IVec S8x2048x2048x1 32)
    (hW : ∀ i, 0 ≤ (W i).toInt ∧ (W i).toInt < 2048) (h : Fin 8) (n m : Fin 2048) (w : BitVec 32)
    (hw : W (ix4 h n m (0 : Fin 1)) = w) :
    select
      (Host.reduce IntOp.andi
        (andi (cmpi .sge W (broadcastInDim S8x2048x2048x1 ![] bcast_S_S8x2048x2048x1 (constantI S_ 32 0#32)))
          (cmpi .sle W
            (broadcastInDim S8x2048x2048x1 ![0, 1, 2, 3] bcast_S1x1x1x1_S8x2048x2048x1_0_1_2_3
              (broadcastInDim S1x1x1x1 ![3] bcast_S1_S1x1x1x1_3 (constantI S1 32 2047#32)))))
        (constantI S_ 1 1#1) reducesTo_S8x2048x2048x1_S8x2048x2048_d3 h_S_)
      (Host.gather gather_S8x2048x2048_S8x2048x2048x1_S8x2048x2048_n_2_01_01_2_3_111 s W) N (ix3 h n m)
      = s (ix3 h n ⟨min w.toInt.toNat 2047, by omega⟩) := by
  subst hw
  refine (select_of_one _ _ _ _ ?_).trans (kgather_apply s W h n m)
  exact reduce_andi_of_forall _ _ _ _ _ rfl (fun i => inrange_of (W i) (hW i).1 (hW i).2)

end KernelSide

end Cert.Bridge.Gather

end
-- ==== Proof.Gather.lean ====
/-
  The kernel program's gather along the last axis and the reference's indexing s[:, rows, t] are the same array when
  every position t[n, m] lies in [0, 2048): at (h, n, m) both are s[h, n, t[n, m]]. The kernel side moves negative
  positions up, tests the result against [0, 2047] and fills where the test fails; on positions in range the move does
  nothing and the test passes, so what is left is its gather, read at an index; the reference's gather is read at the
  same index likewise. The reference's two gathers are this one function of the scores and the position array.
-/
import proofs.«416605_j68384469286920_2_alg».proof.Proof.HostStages
import proofs.«416605_j68384469286920_2_alg».proof.Proof.RefReadP
import proofs.«416605_j68384469286920_2_alg».proof.Proof.GatherAux

noncomputable section

namespace Cert.Bridge.Gather

open Idealize.ShloMosaic Idealize.ShloMosaic.ValueIdx

/-- The kernel side's start indices at (h, n, m, u): the position t[n, m], for positions that are not negative. -/
theorem wrapIdx_idxB_apply (t : IVec Cert.KernelIdeal.S2048x2048 32) (ht : ∀ i, 0 ≤ (t i).toInt)
    (h : Fin 8) (n m : Fin 2048) (u : Fin 1) :
    Cert.KernelIdeal.HostStages.wrapIdx (F := Ideal) (Cert.KernelIdeal.HostStages.idxB (F := Ideal) t) (ix4 h n m u)
      = t (ix2 n m) := by
  have hb : Cert.KernelIdeal.HostStages.idxB (F := Ideal) t (ix3 h n m) = t (ix2 n m) := heads_apply _ _ t h n m
  unfold Cert.KernelIdeal.HostStages.wrapIdx
  refine (shapeCast_abc_abc1_apply _ _ h n m u).trans ?_
  exact (wrap_apply _ _ (ix3 h n m) (by rw [hb]; exact ht _)).trans hb

/-- THE TWO GATHERS AGREE on positions in [0, 2048). -/
theorem takeK_eq_gatherR (s : Vec Ideal Cert.KernelIdeal.S8x2048x2048 .f32) (t : IVec Cert.KernelIdeal.S2048x2048 32)
    (ht : ∀ i, 0 ≤ (t i).toInt ∧ (t i).toInt < 2048) :
    Cert.KernelIdeal.HostStages.take (F := Ideal) s (Cert.KernelIdeal.HostStages.idxB (F := Ideal) t) = gatherR s t := by
  funext j
  obtain ⟨h, n, m, rfl⟩ : ∃ (h : Fin 8) (n m : Fin 2048), j = ix3 h n m := ⟨j 0, j 1, j 2, eq_ix3 j⟩
  have hW : ∀ i, 0 ≤ (Cert.KernelIdeal.HostStages.wrapIdx (F := Ideal) (Cert.KernelIdeal.HostStages.idxB (F := Ideal) t) i).toInt
      ∧ (Cert.KernelIdeal.HostStages.wrapIdx (F := Ideal) (Cert.KernelIdeal.HostStages.idxB (F := Ideal) t) i).toInt < 2048 := by
    intro i
    obtain ⟨a, b, c, u, rfl⟩ : ∃ (a : Fin 8) (b c : Fin 2048) (u : Fin 1), i = ix4 a b c u := ⟨i 0, i 1, i 2, i 3, eq_ix4 i⟩
    rw [wrapIdx_idxB_apply t (fun i => (ht i).1)]
    exact ht _
  unfold Cert.KernelIdeal.HostStages.take
  exact (take_read s _ _ hW h n m (t (ix2 n m)) (wrapIdx_idxB_apply t (fun i => (ht i).1) h n m 0)).trans
    (gatherR_apply s t (fun i => (ht i).1) h n m).symm

/-- The reference's first gather (of the second pair's scores at the second position array) is `gatherR`. -/
theorem v58_eq (x0 x4 x11 x12 x13 x14) :
    Cert.ReferenceIdeal.ReadP.val_main_v58 (F := Ideal) x0 x4 x11 x12 x13 x14
      = gatherR (Cert.ReferenceIdeal.ReadP.val_main_v41 (F := Ideal) x0 x11 x12 x13 x14) x4 := rfl

/-- The reference's second gather (of the first pair's scores at the first position array) is `gatherR` too: it
    wraps the same column of row numbers. -/
theorem v73_eq (x0 x3 x5 x6 x7 x8) :
    Cert.ReferenceIdeal.ReadP.val_main_v73 (F := Ideal) x0 x3 x5 x6 x7 x8
      = gatherR (Cert.ReferenceIdeal.ReadP.val_main_v38 (F := Ideal) x0 x5 x6 x7 x8) x3 := rfl

end Cert.Bridge.Gather

end
-- ==== Proof.PreRange.lean ====
/-
  The precondition gives the two position arrays their range. The precondition is one bit, the "and" of one
  "every entry satisfies …" per conjunct; its last four conjuncts say, of the two integer arrays, that every entry is ≥ 0 and < 2048
  (signed). Peeling the "and" from the outside reaches those four without opening the conjuncts about the float
  arrays; each of those is a reduction by "and" from 1 to a single bit, so it being 1 makes every compared entry's bit 1,
  and a signed comparison's bit being 1 is the comparison of the words read signed.
-/
import proofs.«416605_j68384469286920_2_alg».proof.Defs
import proofs.«416605_j68384469286920_2_alg».proof.Proof.Gen.Pre_finite_inputs
import proofs.«416605_j68384469286920_2_alg».proof.Proof.Gen.KernelIdeal
import Idealize.ShloMosaic.Lib.ReduceAll
import Idealize.ShloMosaic.Lib.StableHlo.Predicate
import Idealize.ShloMosaic.Lib.ValueIdx

noncomputable section

namespace Cert.Bridge.PreRange

open Idealize.ShloMosaic Idealize.SL.Sem

/-- A word whose bits for "≥ 0" and "< 2048" (signed) are both 1 lies in [0, 2048). -/
theorem word_range (w z b : BitVec 32) (hz : z = 0#32) (hb : b = 2048#32)
    (h0 : IntOp.cmpi .sge w z = 1#1) (h1 : IntOp.cmpi .slt w b = 1#1) : 0 ≤ w.toInt ∧ w.toInt < 2048 := by
  subst hz hb
  have a := IntOp.cmpi_sge.1 h0
  have c := IntOp.cmpi_slt.1 h1
  rw [show (0#32 : BitVec 32).toInt = 0 by decide] at a
  rw [show (2048#32 : BitVec 32).toInt = 2048 by decide] at c
  exact ⟨a, c⟩

/-- THE RANGE OF THE TWO POSITION ARRAYS, from the precondition, on every device. -/
theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, 0 ≤ (m ((c.tc : Thread Cert.KernelIdeal.nD Cert.KernelIdeal.τ).loc Cert.KernelIdeal.main_arg3) i).toInt
        ∧ (m ((c.tc : Thread Cert.KernelIdeal.nD Cert.KernelIdeal.τ).loc Cert.KernelIdeal.main_arg3) i).toInt < 2048)
    ∧ (∀ i, 0 ≤ (m ((c.tc : Thread Cert.KernelIdeal.nD Cert.KernelIdeal.τ).loc Cert.KernelIdeal.main_arg4) i).toInt
        ∧ (m ((c.tc : Thread Cert.KernelIdeal.nD Cert.KernelIdeal.τ).loc Cert.KernelIdeal.main_arg4) i).toInt < 2048) := by
  haveI : Subsingleton Cert.Pre_finite_inputs.S_.Idx := ⟨fun a b => funext fun d => d.elim0⟩
  have e := congrFun (h c) ValueIdx.ix0
  -- the last "and" joins everything before with "every entry of the second array is below 2048"
  change IntOp.andi _ _ = 1#1 at e
  obtain ⟨e85, e88⟩ := IntOp.andi_eq_one.1 e
  -- before it: "every entry of the second array is at least 0"
  change IntOp.andi _ _ = 1#1 at e85
  obtain ⟨e81, e84⟩ := IntOp.andi_eq_one.1 e85
  -- before it: "every entry of the first array is below 2048"
  change IntOp.andi _ _ = 1#1 at e81
  obtain ⟨e77, e80⟩ := IntOp.andi_eq_one.1 e81
  -- before it: "every entry of the first array is at least 0"; what is left concerns the float arrays
  change IntOp.andi _ _ = 1#1 at e77
  obtain ⟨-, e76⟩ := IntOp.andi_eq_one.1 e77
  have a3ge := Host.reduce_andi_all _ _ _ _ _ e76
  have a3lt := Host.reduce_andi_all _ _ _ _ _ e80
  have a4ge := Host.reduce_andi_all _ _ _ _ _ e84
  have a4lt := Host.reduce_andi_all _ _ _ _ _ e88
  exact ⟨fun i => word_range _ _ _ rfl rfl (a3ge i) (a3lt i), fun i => word_range _ _ _ rfl rfl (a4ge i) (a4lt i)⟩

end Cert.Bridge.PreRange

end
-- ==== Proof.Bridge.lean ====
/-
  The two programs compute one function. With the same arguments: the reference's projections are the kernel's (the
  weights' change of format is the identity on exact values); its split into heads, its scores, its graph masks and its
  final layout are the same operations applied to equal arrays; its gathers meet the kernel's masked gathers on index
  tables whose entries lie in [0, 2048); and its softmax of (s + t) + m is the kernel's softmax of s + (t + m), addition
  of extended reals being associative.
-/
import proofs.«416605_j68384469286920_2_alg».proof.Proof.KernelValue
import proofs.«416605_j68384469286920_2_alg».proof.Proof.RefStages
import proofs.«416605_j68384469286920_2_alg».proof.Proof.Gather
import proofs.«416605_j68384469286920_2_alg».proof.Proof.PreRange

set_option maxRecDepth 16384

noncomputable section

namespace Cert.Bridge

open Idealize.ShloMosaic Idealize.ShloMosaic.TcCoe Idealize.SL.Sem
open Cert.KernelIdeal.HostStages Cert.ReferenceIdeal.ReadP Cert.ReferenceIdeal.RefStages

/-! ## The same operations on both sides -/

/-- On exact values the change of format leaves a weight as it is. -/
theorem cvtW_id (w : (⟨Cert.KernelIdeal.S1024x1024, .f32⟩ : BufTy).Contents (Elt Ideal)) : cvtW (F := Ideal) w = w := rfl
theorem cvtWV_id (w : (⟨Cert.KernelIdeal.S1024x512, .f32⟩ : BufTy).Contents (Elt Ideal)) : cvtWV (F := Ideal) w = w := rfl
/-- … and the additive term is the plain sum. -/
theorem addTerm_eq (a b : (⟨Cert.KernelIdeal.S8x2048x2048, .f32⟩ : BufTy).Contents (Elt Ideal)) : addTerm (F := Ideal) a b = addf (F := Ideal) (s := Cert.KernelIdeal.S8x2048x2048) (φ := .f32) a b := rfl

section
variable (x0 : (⟨Cert.ReferenceIdeal.S2048x1024, .f32⟩ : BufTy).Contents (Elt Ideal)) (x1 : (⟨Cert.ReferenceIdeal.S2048x2048, .f32⟩ : BufTy).Contents (Elt Ideal)) (x2 : (⟨Cert.ReferenceIdeal.S2048x2048, .f32⟩ : BufTy).Contents (Elt Ideal)) (x3 : (⟨Cert.ReferenceIdeal.S2048x2048, .i32⟩ : BufTy).Contents (Elt Ideal)) (x4 : (⟨Cert.ReferenceIdeal.S2048x2048, .i32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal)) (x7 : (⟨Cert.ReferenceIdeal.S1024x1024, .f32⟩ : BufTy).Contents (Elt Ideal)) (x8 : (⟨Cert.ReferenceIdeal.S1024, .f32⟩ : BufTy).Contents (Elt Ideal)) (x9 : (⟨Cert.ReferenceIdeal.S1024x512, .f32⟩ : BufTy).Contents (Elt Ideal)) (x10 : (⟨Cert.ReferenceIdeal.S512, .f32⟩ : BufTy).Contents (Elt Ideal)) (x11 : (⟨Cert.ReferenceIdeal.S1024x1024, .f32⟩ : BufTy).Contents (Elt Ideal)) (x12 : (⟨Cert.ReferenceIdeal.S1024, .f32⟩ : BufTy).Contents (Elt Ideal)) (x13 : (⟨Cert.ReferenceIdeal.S1024x1024, .f32⟩ : BufTy).Contents (Elt Ideal)) (x14 : (⟨Cert.ReferenceIdeal.S1024, .f32⟩ : BufTy).Contents (Elt Ideal)) (x15 : (⟨Cert.ReferenceIdeal.S1024x512, .f32⟩ : BufTy).Contents (Elt Ideal)) (x16 : (⟨Cert.ReferenceIdeal.S512, .f32⟩ : BufTy).Contents (Elt Ideal))

theorem v5_heads : val_main_v5 (F := Ideal) x0 x5 x6 = headsQ (F := Ideal) (val_main_v3 (F := Ideal) x0 x5 x6) := rfl
theorem v11_heads : val_main_v11 (F := Ideal) x0 x7 x8 = headsQ (F := Ideal) (val_main_v9 (F := Ideal) x0 x7 x8) := rfl
theorem v17_heads : val_main_v17 (F := Ideal) x0 x9 x10 = headsV (F := Ideal) (val_main_v15 (F := Ideal) x0 x9 x10) := rfl
theorem v23_heads : val_main_v23 (F := Ideal) x0 x11 x12 = headsQ (F := Ideal) (val_main_v21 (F := Ideal) x0 x11 x12) := rfl
theorem v29_heads : val_main_v29 (F := Ideal) x0 x13 x14 = headsQ (F := Ideal) (val_main_v27 (F := Ideal) x0 x13 x14) := rfl
theorem v35_heads : val_main_v35 (F := Ideal) x0 x15 x16 = headsV (F := Ideal) (val_main_v33 (F := Ideal) x0 x15 x16) := rfl
theorem v38_scores : val_main_v38 (F := Ideal) x0 x5 x6 x7 x8
    = scores (F := Ideal) (val_main_v5 (F := Ideal) x0 x5 x6) (val_main_v11 (F := Ideal) x0 x7 x8) := rfl
theorem v41_scores : val_main_v41 (F := Ideal) x0 x11 x12 x13 x14
    = scores (F := Ideal) (val_main_v23 (F := Ideal) x0 x11 x12) (val_main_v29 (F := Ideal) x0 x13 x14) := rfl
theorem v86_mask : val_main_v86 (F := Ideal) x1 = maskB (F := Ideal) x1 := rfl
theorem v101_mask : val_main_v101 (F := Ideal) x2 = maskB (F := Ideal) x2 := rfl
theorem v120_tail : val_main_v120 (F := Ideal) x0 x1 x2 x3 x4 x5 x6 x7 x8 x9 x10 x11 x12 x13 x14 x15 x16
    = tail (F := Ideal) (val_main_v114 (F := Ideal) x0 x1 x4 x5 x6 x7 x8 x9 x10 x11 x12 x13 x14)
        (val_main_v117 (F := Ideal) x0 x2 x3 x5 x6 x7 x8 x11 x12 x13 x14 x15 x16) := rfl

/-! ## The kernel's values are the reference's stages -/

/-- The heads of a projection, on both sides. -/
theorem headsQ_q1 : headsQ (F := Ideal) (Cert.Spec.projQ x0 (cvtW (F := Ideal) x5) x6) = val_main_v5 (F := Ideal) x0 x5 x6 := by
  rw [v5_heads, v3_eq, cvtW_id]
theorem headsQ_k1 : headsQ (F := Ideal) (Cert.Spec.projQ x0 (cvtW (F := Ideal) x7) x8) = val_main_v11 (F := Ideal) x0 x7 x8 := by
  rw [v11_heads, v9_eq, cvtW_id]
theorem headsV_v1 : headsV (F := Ideal) (Cert.Spec.projV x0 (cvtWV (F := Ideal) x9) x10) = val_main_v17 (F := Ideal) x0 x9 x10 := by
  rw [v17_heads, v15_eq, cvtWV_id]
theorem headsQ_q2 : headsQ (F := Ideal) (Cert.Spec.projQ x0 (cvtW (F := Ideal) x11) x12) = val_main_v23 (F := Ideal) x0 x11 x12 := by
  rw [v23_heads, v21_eq, cvtW_id]
theorem headsQ_k2 : headsQ (F := Ideal) (Cert.Spec.projQ x0 (cvtW (F := Ideal) x13) x14) = val_main_v29 (F := Ideal) x0 x13 x14 := by
  rw [v29_heads, v27_eq, cvtW_id]
theorem headsV_v2 : headsV (F := Ideal) (Cert.Spec.projV x0 (cvtWV (F := Ideal) x15) x16) = val_main_v35 (F := Ideal) x0 x15 x16 := by
  rw [v35_heads, v33_eq, cvtWV_id]

end

/-! ## The results -/

section Results
open Cert.KernelIdeal
variable (m : (ℓ : Loc nD τ sig) → Buf (Elt Ideal) ℓ) (c : Dev nD)

set_option maxHeartbeats 4000000 in
/-- The first additive term: the second score array gathered along the index table c2n, plus the first graph's mask. -/
theorem add1_eq (h4 : ∀ i, 0 ≤ ((m ((c : Thread nD τ).loc main_arg4)) i).toInt ∧ ((m ((c : Thread nD τ).loc main_arg4)) i).toInt < 2048) :
    Cert.KernelIdeal.KernelValue.add1 m c
      = addf (F := Ideal) (s := Cert.KernelIdeal.S8x2048x2048) (φ := .f32)
          (val_main_v58 (F := Ideal) (m ((c : Thread nD τ).loc main_arg0)) (m ((c : Thread nD τ).loc main_arg4)) (m ((c : Thread nD τ).loc main_arg11)) (m ((c : Thread nD τ).loc main_arg12)) (m ((c : Thread nD τ).loc main_arg13)) (m ((c : Thread nD τ).loc main_arg14))) (val_main_v86 (F := Ideal) (m ((c : Thread nD τ).loc main_arg1))) := by
  unfold Cert.KernelIdeal.KernelValue.add1 Cert.KernelIdeal.KernelValue.s2 Cert.KernelIdeal.KernelValue.q2 Cert.KernelIdeal.KernelValue.k2
  rw [headsQ_q2, headsQ_k2, addTerm_eq, ← v41_scores, Cert.Bridge.Gather.takeK_eq_gatherR _ _ h4, ← Cert.Bridge.Gather.v58_eq, ← v86_mask]

set_option maxHeartbeats 4000000 in
/-- The second additive term: the first score array gathered along the index table n2c, plus the second graph's mask. -/
theorem add2_eq (h3 : ∀ i, 0 ≤ ((m ((c : Thread nD τ).loc main_arg3)) i).toInt ∧ ((m ((c : Thread nD τ).loc main_arg3)) i).toInt < 2048) :
    Cert.KernelIdeal.KernelValue.add2 m c
      = addf (F := Ideal) (s := Cert.KernelIdeal.S8x2048x2048) (φ := .f32)
          (val_main_v73 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (val_main_v101 (F := Ideal) (m ((c : Thread nD τ).loc main_arg2))) := by
  unfold Cert.KernelIdeal.KernelValue.add2 Cert.KernelIdeal.KernelValue.s1 Cert.KernelIdeal.KernelValue.q1 Cert.KernelIdeal.KernelValue.k1
  rw [headsQ_q1, headsQ_k1, addTerm_eq, ← v38_scores, Cert.Bridge.Gather.takeK_eq_gatherR _ _ h3, ← Cert.Bridge.Gather.v73_eq, ← v101_mask]

set_option maxHeartbeats 4000000 in
/-- The first attention output is the reference's. -/
theorem out1_eq (h4 : ∀ i, 0 ≤ ((m ((c : Thread nD τ).loc main_arg4)) i).toInt ∧ ((m ((c : Thread nD τ).loc main_arg4)) i).toInt < 2048) :
    Cert.Spec.attn (headsQ (F := Ideal) (Cert.KernelIdeal.KernelValue.q1 m c)) (headsQ (F := Ideal) (Cert.KernelIdeal.KernelValue.k1 m c))
        (headsV (F := Ideal) (Cert.KernelIdeal.KernelValue.v1 m c)) (Cert.KernelIdeal.KernelValue.add1 m c)
      = val_main_v114 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [add1_eq m c h4, v114_eq]
  unfold Cert.KernelIdeal.KernelValue.q1 Cert.KernelIdeal.KernelValue.k1 Cert.KernelIdeal.KernelValue.v1
  rw [headsQ_q1, headsQ_k1, headsV_v1]

set_option maxHeartbeats 4000000 in
/-- The second attention output is the reference's. -/
theorem out2_eq (h3 : ∀ i, 0 ≤ ((m ((c : Thread nD τ).loc main_arg3)) i).toInt ∧ ((m ((c : Thread nD τ).loc main_arg3)) i).toInt < 2048) :
    Cert.Spec.attn (headsQ (F := Ideal) (Cert.KernelIdeal.KernelValue.q2 m c)) (headsQ (F := Ideal) (Cert.KernelIdeal.KernelValue.k2 m c))
        (headsV (F := Ideal) (Cert.KernelIdeal.KernelValue.v2 m c)) (Cert.KernelIdeal.KernelValue.add2 m c)
      = val_main_v117 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [add2_eq m c h3, v117_eq]
  unfold Cert.KernelIdeal.KernelValue.q2 Cert.KernelIdeal.KernelValue.k2 Cert.KernelIdeal.KernelValue.v2
  rw [headsQ_q2, headsQ_k2, headsV_v2]

set_option maxHeartbeats 4000000 in
/-- Under the precondition the kernel program's result is the reference's last stage at the same arguments. -/
theorem result_eq (hpre : Cert.Pre_KernelIdeal m) :
    Cert.KernelIdeal.KernelValue.result m c
      = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h3, h4⟩ := Cert.Bridge.PreRange.range_of_pre m hpre c
  unfold Cert.KernelIdeal.KernelValue.result
  rw [out1_eq m c h4, out2_eq m c h3, v120_tail]

end Results

end Cert.Bridge

end
-- ==== Proof.lean ====
/-
  Two launches — six projections x·W + b, then two graph-masked attentions over eight heads — against the plain
  array program. Both compute, for each half i ∈ {1, 2} and with j the other half,
      out_i[h, n, ·] = Σ_m softmax_m( (q_i[h,n]·k_i[h,m])·scale + (q_j[h,n]·k_j[h, T_i[n,m]])·scale + (g_i[m,n] − 1)·10⁴ ) · v_i[h, m, ·],
  T_i the other graph's index table, whose entries the precondition keeps in [0, 2048) (outside it the array program
  itself indexes out of range). The kernel program forms the second and third summands on the host, the first inside the
  second launch; the array program adds them in the other order; the extended reals' sum is associative. Each frame is the
  program's run with the results dropped; nothing was idealized away, so the preservation claim is empty.
-/
import proofs.«416605_j68384469286920_2_alg».proof.Defs
import proofs.«416605_j68384469286920_2_alg».proof.Proof.Gen.Kernel.Frame
import proofs.«416605_j68384469286920_2_alg».proof.Proof.Gen.KernelIdeal.Frame
import proofs.«416605_j68384469286920_2_alg».proof.Proof.Gen.Pre_finite_inputs
import proofs.«416605_j68384469286920_2_alg».proof.Proof.KernelRun
import proofs.«416605_j68384469286920_2_alg».proof.Proof.KernelValue
import proofs.«416605_j68384469286920_2_alg».proof.Proof.RefRun
import proofs.«416605_j68384469286920_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the kernel program's `result`. -/
theorem algebraic : Cert.algebraic_KernelIdeal_ReferenceIdeal := by
  intro m ρ m' ρ' hpre hagree
  refine ⟨fun c => Cert.KernelIdeal.KernelValue.result m c, ?_, ?_⟩
  · exact (θ_run Cert.KernelIdeal.defs _ _).mono
      (fun _ h c => ⟨(h c).1.trans (Cert.KernelIdeal.KernelValue.W8_v54 m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    exact (Cert.Bridge.result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
